-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x48 : Shape := ⟨2, ![8192, 48]⟩
abbrev S8192x16 : Shape := ⟨2, ![8192, 16]⟩
abbrev S8192x8192 : Shape := ⟨2, ![8192, 8192]⟩
abbrev S4x64x128 : Shape := ⟨3, ![4, 64, 128]⟩
abbrev S4x128 : Shape := ⟨2, ![4, 128]⟩
abbrev S4x128x64 : Shape := ⟨3, ![4, 128, 64]⟩
abbrev S4x64 : Shape := ⟨2, ![4, 64]⟩
abbrev S_ : Shape := ⟨0, ![]⟩

class Facts : Prop where
  bcast_S_S8192x48 : S_.BroadcastsInDim S8192x48 (![] : Fin 0 → Fin S8192x48.rank)
  reducesTo_S8192x48_S_d0_1 : S8192x48.ReducesTo [0, 1] S_
  h_S_ : 0 < S_.numel
  bcast_S_S8192x16 : S_.BroadcastsInDim S8192x16 (![] : Fin 0 → Fin S8192x16.rank)
  reducesTo_S8192x16_S_d0_1 : S8192x16.ReducesTo [0, 1] S_
  bcast_S_S8192x8192 : S_.BroadcastsInDim S8192x8192 (![] : Fin 0 → Fin S8192x8192.rank)
  reducesTo_S8192x8192_S_d0_1 : S8192x8192.ReducesTo [0, 1] S_
  bcast_S_S4x64x128 : S_.BroadcastsInDim S4x64x128 (![] : Fin 0 → Fin S4x64x128.rank)
  reducesTo_S4x64x128_S_d0_1_2 : S4x64x128.ReducesTo [0, 1, 2] S_
  bcast_S_S4x128 : S_.BroadcastsInDim S4x128 (![] : Fin 0 → Fin S4x128.rank)
  reducesTo_S4x128_S_d0_1 : S4x128.ReducesTo [0, 1] S_
  bcast_S_S4x128x64 : S_.BroadcastsInDim S4x128x64 (![] : Fin 0 → Fin S4x128x64.rank)
  reducesTo_S4x128x64_S_d0_1_2 : S4x128x64.ReducesTo [0, 1, 2] S_
  bcast_S_S4x64 : S_.BroadcastsInDim S4x64 (![] : Fin 0 → Fin S4x64.rank)
  reducesTo_S4x64_S_d0_1 : S4x64.ReducesTo [0, 1] S_

variable [Facts]

def fn_part2 {F : FTy → Type} [FloatOps F] (main_arg7 : FVec F S4x128x64 .f32) (main_arg8 : FVec F S4x64 .f32) (main_v33 : IVec S_ 1) : IVec S_ 1 :=
  let main_v34 : FVec F S4x128x64 .f32 := Host.absf main_arg7
  let main_cst_12 : FVec F S_ .f32 := constant S_ .f32 0x7F800000#32
  let main_v35 : FVec F S4x128x64 .f32 := broadcastInDim S4x128x64 ![] bcast_S_S4x128x64 main_cst_12
  let main_v36 : IVec S4x128x64 1 := cmpf .olt main_v34 main_v35
  let main_c_13 : IVec S_ 1 := constantI S_ 1 1#1
  let main_v37 : IVec S_ 1 := (fun x v => Host.reduce IntOp.andi x v reducesTo_S4x128x64_S_d0_1_2 h_S_) main_v36 main_c_13
  let main_v38 : IVec S_ 1 := andi main_v33 main_v37
  let main_v39 : FVec F S4x64 .f32 := Host.absf main_arg8
  let main_cst_14 : FVec F S_ .f32 := constant S_ .f32 0x7F800000#32
  let main_v40 : FVec F S4x64 .f32 := broadcastInDim S4x64 ![] bcast_S_S4x64 main_cst_14
  let main_v41 : IVec S4x64 1 := cmpf .olt main_v39 main_v40
  let main_c_15 : IVec S_ 1 := constantI S_ 1 1#1
  let main_v42 : IVec S_ 1 := (fun x v => Host.reduce IntOp.andi x v reducesTo_S4x64_S_d0_1 h_S_) main_v41 main_c_15
  let main_v43 : IVec S_ 1 := andi main_v38 main_v42
  main_v43

def fn_part1 {F : FTy → Type} [FloatOps F] (main_arg4 : FVec F S8192x8192 .f32) (main_arg5 : FVec F S4x64x128 .f32) (main_arg6 : FVec F S4x128 .f32) (main_arg7 : FVec F S4x128x64 .f32) (main_arg8 : FVec F S4x64 .f32) (main_v13 : IVec S_ 1) (main_v16 : IVec S8192x8192 1) : IVec S_ 1 :=
  let main_c_5 : IVec S_ 1 := constantI S_ 1 1#1
  let main_v17 : IVec S_ 1 := (fun x v => Host.reduce IntOp.andi x v reducesTo_S8192x8192_S_d0_1 h_S_) main_v16 main_c_5
  let main_v18 : IVec S_ 1 := andi main_v13 main_v17
  let main_v19 : FVec F S8192x8192 .f32 := Host.absf main_arg4
  let main_cst_6 : FVec F S_ .f32 := constant S_ .f32 0x7F800000#32
  let main_v20 : FVec F S8192x8192 .f32 := broadcastInDim S8192x8192 ![] bcast_S_S8192x8192 main_cst_6
  let main_v21 : IVec S8192x8192 1 := cmpf .olt main_v19 main_v20
  let main_c_7 : IVec S_ 1 := constantI S_ 1 1#1
  let main_v22 : IVec S_ 1 := (fun x v => Host.reduce IntOp.andi x v reducesTo_S8192x8192_S_d0_1 h_S_) main_v21 main_c_7
  let main_v23 : IVec S_ 1 := andi main_v18 main_v22
  let main_v24 : FVec F S4x64x128 .f32 := Host.absf main_arg5
  let main_cst_8 : FVec F S_ .f32 := constant S_ .f32 0x7F800000#32
  let main_v25 : FVec F S4x64x128 .f32 := broadcastInDim S4x64x128 ![] bcast_S_S4x64x128 main_cst_8
  let main_v26 : IVec S4x64x128 1 := cmpf .olt main_v24 main_v25
  let main_c_9 : IVec S_ 1 := constantI S_ 1 1#1
  let main_v27 : IVec S_ 1 := (fun x v => Host.reduce IntOp.andi x v reducesTo_S4x64x128_S_d0_1_2 h_S_) main_v26 main_c_9
  let main_v28 : IVec S_ 1 := andi main_v23 main_v27
  let main_v29 : FVec F S4x128 .f32 := Host.absf main_arg6
  let main_cst_10 : FVec F S_ .f32 := constant S_ .f32 0x7F800000#32
  let main_v30 : FVec F S4x128 .f32 := broadcastInDim S4x128 ![] bcast_S_S4x128 main_cst_10
  let main_v31 : IVec S4x128 1 := cmpf .olt main_v29 main_v30
  let main_c_11 : IVec S_ 1 := constantI S_ 1 1#1
  let main_v32 : IVec S_ 1 := (fun x v => Host.reduce IntOp.andi x v reducesTo_S4x128_S_d0_1 h_S_) main_v31 main_c_11
  let main_v33 : IVec S_ 1 := andi main_v28 main_v32
  fn_part2 (F := F) main_arg7 main_arg8 main_v33

def fn {F : FTy → Type} [FloatOps F] (main_arg0 : FVec F S8192x48 .f32) (main_arg1 : FVec F S8192x16 .f32) (main_arg2 : FVec F S8192x8192 .f32) (main_arg3 : FVec F S8192x8192 .f32) (main_arg4 : FVec F S8192x8192 .f32) (main_arg5 : FVec F S4x64x128 .f32) (main_arg6 : FVec F S4x128 .f32) (main_arg7 : FVec F S4x128x64 .f32) (main_arg8 : FVec F S4x64 .f32) : IVec S_ 1 :=
  let main_v0 : FVec F S8192x48 .f32 := Host.absf main_arg0
  let main_cst : FVec F S_ .f32 := constant S_ .f32 0x7F800000#32
  let main_v1 : FVec F S8192x48 .f32 := broadcastInDim S8192x48 ![] bcast_S_S8192x48 main_cst
  let main_v2 : IVec S8192x48 1 := cmpf .olt main_v0 main_v1
  let main_c : IVec S_ 1 := constantI S_ 1 1#1
  let main_v3 : IVec S_ 1 := (fun x v => Host.reduce IntOp.andi x v reducesTo_S8192x48_S_d0_1 h_S_) main_v2 main_c
  let main_v4 : FVec F S8192x16 .f32 := Host.absf main_arg1
  let main_cst_0 : FVec F S_ .f32 := constant S_ .f32 0x7F800000#32
  let main_v5 : FVec F S8192x16 .f32 := broadcastInDim S8192x16 ![] bcast_S_S8192x16 main_cst_0
  let main_v6 : IVec S8192x16 1 := cmpf .olt main_v4 main_v5
  let main_c_1 : IVec S_ 1 := constantI S_ 1 1#1
  let main_v7 : IVec S_ 1 := (fun x v => Host.reduce IntOp.andi x v reducesTo_S8192x16_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S8192x8192 .f32 := Host.absf main_arg3
  let main_cst_4 : FVec F S_ .f32 := constant S_ .f32 0x7F800000#32
  let main_v15 : FVec F S8192x8192 .f32 := broadcastInDim S8192x8192 ![] bcast_S_S8192x8192 main_cst_4
  let main_v16 : IVec S8192x8192 1 := cmpf .olt main_v14 main_v15
  fn_part1 (F := F) main_arg4 main_arg5 main_arg6 main_arg7 main_arg8 main_v13 main_v16
-- ==== Kernel.lean ====
abbrev S8192x48 : Shape := ⟨2, ![8192, 48]⟩
abbrev S8192x16 : Shape := ⟨2, ![8192, 16]⟩
abbrev S8192x8192 : Shape := ⟨2, ![8192, 8192]⟩
abbrev S4x64x128 : Shape := ⟨3, ![4, 64, 128]⟩
abbrev S4x128 : Shape := ⟨2, ![4, 128]⟩
abbrev S4x128x64 : Shape := ⟨3, ![4, 128, 64]⟩
abbrev S4x64 : Shape := ⟨2, ![4, 64]⟩
abbrev S8192x64 : Shape := ⟨2, ![8192, 64]⟩
abbrev S1024x1024 : Shape := ⟨2, ![1024, 1024]⟩
abbrev S1024x64 : Shape := ⟨2, ![1024, 64]⟩
abbrev S1x64x128 : Shape := ⟨3, ![1, 64, 128]⟩
abbrev S64x128 : Shape := ⟨2, ![64, 128]⟩
abbrev S1024x128 : Shape := ⟨2, ![1024, 128]⟩
abbrev S1x128 : Shape := ⟨2, ![1, 128]⟩
abbrev S128 : Shape := ⟨1, ![128]⟩
abbrev S1x128x64 : Shape := ⟨3, ![1, 128, 64]⟩
abbrev S128x64 : Shape := ⟨2, ![128, 64]⟩
abbrev S1x64 : Shape := ⟨2, ![1, 64]⟩
abbrev S64 : Shape := ⟨1, ![64]⟩

abbrev nBuf : Space → Nat
  | .hbm => 11
  | .vmem => 19
  | .smem => 0
  | _ => 0

abbrev bufTy : (tb : Table) → Fin (tcTables nBuf tb) → BufTy
  | .hbm, ⟨0, _⟩ => ⟨S8192x48, .f32⟩
  | .hbm, ⟨1, _⟩ => ⟨S8192x16, .f32⟩
  | .hbm, ⟨2, _⟩ => ⟨S8192x8192, .f32⟩
  | .hbm, ⟨3, _⟩ => ⟨S8192x8192, .f32⟩
  | .hbm, ⟨4, _⟩ => ⟨S8192x8192, .f32⟩
  | .hbm, ⟨5, _⟩ => ⟨S4x64x128, .f32⟩
  | .hbm, ⟨6, _⟩ => ⟨S4x128, .f32⟩
  | .hbm, ⟨7, _⟩ => ⟨S4x128x64, .f32⟩
  | .hbm, ⟨8, _⟩ => ⟨S4x64, .f32⟩
  | .hbm, ⟨9, _⟩ => ⟨S8192x64, .f32⟩
  | .hbm, ⟨10, _⟩ => ⟨S8192x64, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x64, .f32⟩
  | .local _ .vmem, ⟨7, _⟩ => ⟨S1024x64, .f32⟩
  | .local _ .vmem, ⟨8, _⟩ => ⟨S1024x64, .f32⟩
  | .local _ .vmem, ⟨9, _⟩ => ⟨S1024x64, .f32⟩
  | .local _ .vmem, ⟨10, _⟩ => ⟨S4x64x128, .f32⟩
  | .local _ .vmem, ⟨11, _⟩ => ⟨S4x128, .f32⟩
  | .local _ .vmem, ⟨12, _⟩ => ⟨S4x128x64, .f32⟩
  | .local _ .vmem, ⟨13, _⟩ => ⟨S4x64, .f32⟩
  | .local _ .vmem, ⟨14, _⟩ => ⟨S1024x64, .f32⟩
  | .local _ .vmem, ⟨15, _⟩ => ⟨S1024x64, .f32⟩
  | .local _ .vmem, ⟨16, _⟩ => ⟨S1024x64, .f32⟩
  | .local _ .vmem, ⟨17, _⟩ => ⟨S1024x64, .f32⟩
  | .local _ .vmem, ⟨18, _⟩ => ⟨S1024x64, .f32⟩
  | _, _ => ⟨S8192x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v30 : BitVec 1 := Scalar.cmpi .eq arg1 c7_i32
  let v31 : BitVec 32 := Scalar.extui v30
  let c0_i32_22 : BitVec 32 := 0#32
  let v32 : BitVec 1 := Scalar.cmpi .ne v31 c0_i32_22
  v32

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S4x64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x128x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

class Facts₀ : Prop where
  concatenates_S8192x48_S8192x16_S8192x64_d1 : Shape.Concatenates [S8192x48, S8192x16] S8192x64 1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S4x64x128_S1x64x128_0_0_0 : ∀ a, (![0, 0, 0] : Fin 3 → Nat) a + S1x64x128.size a ≤ S4x64x128.size a
  h_S1x64x128 : 0 < S1x64x128.numel
  shapeCasts_S1x64x128_S64x128 : S1x64x128.ShapeCasts S64x128
  inb_S4x128_S1x128_0_0 : ∀ a, (![0, 0] : Fin 2 → Nat) a + S1x128.size a ≤ S4x128.size a
  h_S1x128 : 0 < S1x128.numel
  shapeCasts_S1x128_S128 : S1x128.ShapeCasts S128
  shapeCasts_S128_S1x128 : S128.ShapeCasts S1x128
  broadcasts_S1x128_S1024x128 : S1x128.Broadcasts S1024x128
  inb_S4x128x64_S1x128x64_0_0_0 : ∀ a, (![0, 0, 0] : Fin 3 → Nat) a + S1x128x64.size a ≤ S4x128x64.size a
  h_S1x128x64 : 0 < S1x128x64.numel
  shapeCasts_S1x128x64_S128x64 : S1x128x64.ShapeCasts S128x64
  inb_S4x64_S1x64_0_0 : ∀ a, (![0, 0] : Fin 2 → Nat) a + S1x64.size a ≤ S4x64.size a
  h_S1x64 : 0 < S1x64.numel
  shapeCasts_S1x64_S64 : S1x64.ShapeCasts S64
  shapeCasts_S64_S1x64 : S64.ShapeCasts S1x64
  broadcasts_S1x64_S1024x64 : S1x64.Broadcasts S1024x64
  inb_S4x64x128_S1x64x128_1_0_0 : ∀ a, (![1, 0, 0] : Fin 3 → Nat) a + S1x64x128.size a ≤ S4x64x128.size a
  inb_S4x128_S1x128_1_0 : ∀ a, (![1, 0] : Fin 2 → Nat) a + S1x128.size a ≤ S4x128.size a
  inb_S4x128x64_S1x128x64_1_0_0 : ∀ a, (![1, 0, 0] : Fin 3 → Nat) a + S1x128x64.size a ≤ S4x128x64.size a
  inb_S4x64_S1x64_1_0 : ∀ a, (![1, 0] : Fin 2 → Nat) a + S1x64.size a ≤ S4x64.size a
  inb_S4x64x128_S1x64x128_2_0_0 : ∀ a, (![2, 0, 0] : Fin 3 → Nat) a + S1x64x128.size a ≤ S4x64x128.size a
  inb_S4x128_S1x128_2_0 : ∀ a, (![2, 0] : Fin 2 → Nat) a + S1x128.size a ≤ S4x128.size a
  inb_S4x128x64_S1x128x64_2_0_0 : ∀ a, (![2, 0, 0] : Fin 3 → Nat) a + S1x128x64.size a ≤ S4x128x64.size a
  inb_S4x64_S1x64_2_0 : ∀ a, (![2, 0] : Fin 2 → Nat) a + S1x64.size a ≤ S4x64.size a
  inb_S4x64x128_S1x64x128_3_0_0 : ∀ a, (![3, 0, 0] : Fin 3 → Nat) a + S1x64x128.size a ≤ S4x64x128.size a
  inb_S4x128_S1x128_3_0 : ∀ a, (![3, 0] : Fin 2 → Nat) a + S1x128.size a ≤ S4x128.size a
  inb_S4x128x64_S1x128x64_3_0_0 : ∀ a, (![3, 0, 0] : Fin 3 → Nat) a + S1x128x64.size a ≤ S4x128x64.size a
  inb_S4x64_S1x64_3_0 : ∀ a, (![3, 0] : Fin 2 → Nat) a + S1x64.size a ≤ S4x64.size a
  dot_S1024x1024_S1024x64_S1024x64_1_0_0_1_n_n_wf : DotDims.WF S1024x1024 S1024x64 S1024x64 [1] [0] [0] [1] [] []
  dot_S1024x64_S64x128_S1024x128_1_0_0_1_n_n_wf : DotDims.WF S1024x64 S64x128 S1024x128 [1] [0] [0] [1] [] []
  dot_S1024x128_S128x64_S1024x64_1_0_0_1_n_n_wf : DotDims.WF S1024x128 S128x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x8192.size a
  hwx0_0 : ∀ i : grid0.Coords, EltTy.bits .f32 = 32 ∨ (Rect.block (s := S8192x8192) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x8192.size a
  hwx0_1 : ∀ i : grid0.Coords, EltTy.bits .f32 = 32 ∨ (Rect.block (s := S8192x8192) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .f32 = 32 ∨ (Rect.block (s := S8192x8192) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S8192x64.size a
  hwx0_3 : ∀ i : grid0.Coords, EltTy.bits .f32 = 32 ∨ (Rect.block (s := S8192x64) S1024x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x64.size a ≤ S8192x64.size a
  hwx0_4 : ∀ i : grid0.Coords, EltTy.bits .f32 = 32 ∨ (Rect.block (s := S8192x64) S1024x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x64x128.size a ≤ S4x64x128.size a
  hwx0_5 : ∀ i : grid0.Coords, EltTy.bits .f32 = 32 ∨ (Rect.block (s := S4x64x128) S4x64x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4x128.size a ≤ S4x128.size a
  hwx0_6 : ∀ i : grid0.Coords, EltTy.bits .f32 = 32 ∨ (Rect.block (s := S4x128) S4x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4x128x64.size a ≤ S4x128x64.size a
  hwx0_7 : ∀ i : grid0.Coords, EltTy.bits .f32 = 32 ∨ (Rect.block (s := S4x128x64) S4x128x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S4x64.size a ≤ S4x64.size a
  hwx0_8 : ∀ i : grid0.Coords, EltTy.bits .f32 = 32 ∨ (Rect.block (s := S4x64) S4x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x64.size a ≤ S8192x64.size a
  hwx0_9 : ∀ i : grid0.Coords, EltTy.bits .f32 = 32 ∨ (Rect.block (s := S8192x64) S1024x64.size (cc0_transform_9 i) (hinb0_9 i)).WholeWords (EltTy.packing .f32)

variable [Facts₀]

def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S1024x64_S64x128_S1024x128_1_0_0_1_n_n : DotDims S1024x64 S64x128 S1024x128 where
  lhsContracting := [1]
  rhsContracting := [0]
  lhsNonContracting := [0]
  rhsNonContracting := [1]
  lhsBatch := []
  rhsBatch := []
  wf := dot_S1024x64_S64x128_S1024x128_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf

abbrev win0_0 : Pipeline.Window sig grid0 :=
  Pipeline.Window.ofSpec (Memref.whole main_arg2) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1024x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S4x64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S4x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S4x128x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S4x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v1) S1024x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond2 i == 1#1) | ⟨_ + 10, h⟩ => absurd h (Nat.not_lt.2 (Nat.le_add_left _ _))

class Facts : Prop extends Facts₀ where

variable [Facts]
-- ==== ReferenceIdeal.lean ====
abbrev S8192x48 : Shape := ⟨2, ![8192, 48]⟩
abbrev S8192x16 : Shape := ⟨2, ![8192, 16]⟩
abbrev S8192x8192 : Shape := ⟨2, ![8192, 8192]⟩
abbrev S4x64x128 : Shape := ⟨3, ![4, 64, 128]⟩
abbrev S4x128 : Shape := ⟨2, ![4, 128]⟩
abbrev S4x128x64 : Shape := ⟨3, ![4, 128, 64]⟩
abbrev S4x64 : Shape := ⟨2, ![4, 64]⟩
abbrev S8192x64 : Shape := ⟨2, ![8192, 64]⟩
abbrev S1x8192x64 : Shape := ⟨3, ![1, 8192, 64]⟩
abbrev S4x8192x64 : Shape := ⟨3, ![4, 8192, 64]⟩
abbrev S4x8192x128 : Shape := ⟨3, ![4, 8192, 128]⟩
abbrev S4x1x128 : Shape := ⟨3, ![4, 1, 128]⟩
abbrev S_ : Shape := ⟨0, ![]⟩
abbrev S4x1x64 : Shape := ⟨3, ![4, 1, 64]⟩

abbrev nBuf : Space → Nat
  | .hbm => 31
  | .vmem => 0
  | .smem => 0
  | _ => 0

abbrev bufTy : (tb : Table) → Fin (tcTables nBuf tb) → BufTy
  | .hbm, ⟨0, _⟩ => ⟨S8192x48, .f32⟩
  | .hbm, ⟨1, _⟩ => ⟨S8192x16, .f32⟩
  | .hbm, ⟨2, _⟩ => ⟨S8192x8192, .f32⟩
  | .hbm, ⟨3, _⟩ => ⟨S8192x8192, .f32⟩
  | .hbm, ⟨4, _⟩ => ⟨S8192x8192, .f32⟩
  | .hbm, ⟨5, _⟩ => ⟨S4x64x128, .f32⟩
  | .hbm, ⟨6, _⟩ => ⟨S4x128, .f32⟩
  | .hbm, ⟨7, _⟩ => ⟨S4x128x64, .f32⟩
  | .hbm, ⟨8, _⟩ => ⟨S4x64, .f32⟩
  | .hbm, ⟨9, _⟩ => ⟨S8192x64, .f32⟩
  | .hbm, ⟨10, _⟩ => ⟨S8192x64, .f32⟩
  | .hbm, ⟨11, _⟩ => ⟨S8192x64, .f32⟩
  | .hbm, ⟨12, _⟩ => ⟨S8192x64, .f32⟩
  | .hbm, ⟨13, _⟩ => ⟨S1x8192x64, .f32⟩
  | .hbm, ⟨14, _⟩ => ⟨S1x8192x64, .f32⟩
  | .hbm, ⟨15, _⟩ => ⟨S1x8192x64, .f32⟩
  | .hbm, ⟨16, _⟩ => ⟨S1x8192x64, .f32⟩
  | .hbm, ⟨17, _⟩ => ⟨S4x8192x64, .f32⟩
  | .hbm, ⟨18, _⟩ => ⟨S4x8192x128, .f32⟩
  | .hbm, ⟨19, _⟩ => ⟨S4x1x128, .f32⟩
  | .hbm, ⟨20, _⟩ => ⟨S4x8192x128, .f32⟩
  | .hbm, ⟨21, _⟩ => ⟨S4x8192x128, .f32⟩
  | .hbm, ⟨22, _⟩ => ⟨S_, .f32⟩
  | .hbm, ⟨23, _⟩ => ⟨S4x8192x128, .f32⟩
  | .hbm, ⟨24, _⟩ => ⟨S4x8192x128, .f32⟩
  | .hbm, ⟨25, _⟩ => ⟨S4x8192x64, .f32⟩
  | .hbm, ⟨26, _⟩ => ⟨S4x1x64, .f32⟩
  | .hbm, ⟨27, _⟩ => ⟨S4x8192x64, .f32⟩
  | .hbm, ⟨28, _⟩ => ⟨S4x8192x64, .f32⟩
  | .hbm, ⟨29, _⟩ => ⟨S_, .f32⟩
  | .hbm, ⟨30, _⟩ => ⟨S8192x64, .f32⟩
  | _, _ => ⟨S8192x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call0_cst : Ref sig .tc := ⟨.hbm, 22, rfl⟩
abbrev main_call0_v0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst : Ref sig .tc := ⟨.hbm, 29, rfl⟩
abbrev main_v18 : Ref sig .tc := ⟨.hbm, 30, rfl⟩

abbrev nD : Nat := 1
abbrev τ : Topo := Topo.v7x

variable {F : FTy → Type} [FloatOps F]

class Facts₀ : Prop where
  concatenates_S8192x48_S8192x16_S8192x64_d1 : Shape.Concatenates [S8192x48, S8192x16] S8192x64 1
  bcast_S8192x64_S1x8192x64_1_2 : S8192x64.BroadcastsInDim S1x8192x64 (![1, 2] : Fin 2 → Fin S1x8192x64.rank)
  concatenates_S1x8192x64_S1x8192x64_S1x8192x64_S1x8192x64_S4x8192x64_d0 : Shape.Concatenates [S1x8192x64, S1x8192x64, S1x8192x64, S1x8192x64] S4x8192x64 0
  bcast_S4x128_S4x1x128_0_2 : S4x128.BroadcastsInDim S4x1x128 (![0, 2] : Fin 2 → Fin S4x1x128.rank)
  bcast_S4x1x128_S4x8192x128_0_1_2 : S4x1x128.BroadcastsInDim S4x8192x128 (![0, 1, 2] : Fin 3 → Fin S4x8192x128.rank)
  bcast_S_S4x8192x128 : S_.BroadcastsInDim S4x8192x128 (![] : Fin 0 → Fin S4x8192x128.rank)
  bcast_S4x64_S4x1x64_0_2 : S4x64.BroadcastsInDim S4x1x64 (![0, 2] : Fin 2 → Fin S4x1x64.rank)
  bcast_S4x1x64_S4x8192x64_0_1_2 : S4x1x64.BroadcastsInDim S4x8192x64 (![0, 1, 2] : Fin 3 → Fin S4x8192x64.rank)
  reducesTo_S4x8192x64_S8192x64_d0 : S4x8192x64.ReducesTo [0] S8192x64
  h_S_ : 0 < S_.numel
  dot_S8192x8192_S8192x64_S8192x64_1_0_0_1_n_n_wf : DotDims.WF S8192x8192 S8192x64 S8192x64 [1] [0] [0] [1] [] []
  dot_S4x8192x64_S4x64x128_S4x8192x128_2_1_1_2_0_0_wf : DotDims.WF S4x8192x64 S4x64x128 S4x8192x128 [2] [1] [1] [2] [0] [0]
  dot_S4x8192x128_S4x128x64_S4x8192x64_2_1_1_2_0_0_wf : DotDims.WF S4x8192x128 S4x128x64 S4x8192x64 [2] [1] [1] [2] [0] [0]

variable [Facts₀]

def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf
def dot_S4x8192x64_S4x64x128_S4x8192x128_2_1_1_2_0_0 : DotDims S4x8192x64 S4x64x128 S4x8192x128 where
  lhsContracting := [2]
  rhsContracting := [1]
  lhsNonContracting := [1]
  rhsNonContracting := [2]
  lhsBatch := [0]
  rhsBatch := [0]
  wf := dot_S4x8192x64_S4x64x128_S4x8192x128_2_1_1_2_0_0_wf
def dot_S4x8192x128_S4x128x64_S4x8192x64_2_1_1_2_0_0 : DotDims S4x8192x128 S4x128x64 S4x8192x64 where
  lhsContracting := [2]
  rhsContracting := [1]
  lhsNonContracting := [1]
  rhsNonContracting := [2]
  lhsBatch := [0]
  rhsBatch := [0]
  wf := dot_S4x8192x128_S4x128x64_S4x8192x64_2_1_1_2_0_0_wf

class Facts : Prop extends Facts₀ where

variable [Facts]
-- ==== Proof.KI.Base.lean ====
/-
  What the three runs of the kernel body and the frame share.

  The program's one host operation before the kernel region concatenates the two feature arrays into the node-feature
  matrix; the region then runs the body at the 64 points (i, k) of an 8 x 8 grid, k fastest.  Two windows read that
  one matrix: window 3 its k-th tile of 1024 rows (the right factor of the three tile products), window 4 its i-th
  tile (the rows of the identity branch).  The body branches twice on k: at k = 0 it clears three accumulators, at
  k = 7 it runs the four perceptrons and stores the output tile.  So a point is in one of three cases: first
  (k = 0), middle (0 < k < 7), last (k = 7).
-/
import proofs.«154867_j70961449664572_1_alg».proof.Proof.Gen.KernelIdeal.Launch
import proofs.«154867_j70961449664572_1_alg».proof.Proof.Gen.KernelIdeal.Skeleton
import proofs.«154867_j70961449664572_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core c's buffer contents when the region is entered: the launch contents after the concatenation. -/
abbrev V (c : Dev nD) (b : Ref sig .tc) : Buf (Elt F) ((c : Thread nD τ).loc b) :=
  StableHlo.after (List.flatten [hostOps0]) (fun b => m (c, b)) b

theorem hostOps0_fresh : (hostOps0 : List (HloOp τ sig (Elt F))).Forall fun op => op.fresh = ∅ := by
  simp only [List.Forall]; repeat' constructor

/-- The program is the concatenation, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- The concatenation writes only its own result: argument 0 is found as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.binary_writes, Finset.mem_singleton]
    exact StableHlo.devRef_ne_of_ne (by decide)))
/-- The concatenation writes only its own result: argument 1 is found as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.binary_writes, Finset.mem_singleton]
    exact StableHlo.devRef_ne_of_ne (by decide)))
/-- The concatenation writes only its own result: argument 2 is found as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.binary_writes, Finset.mem_singleton]
    exact StableHlo.devRef_ne_of_ne (by decide)))
/-- The concatenation writes only its own result: argument 3 is found as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.binary_writes, Finset.mem_singleton]
    exact StableHlo.devRef_ne_of_ne (by decide)))
/-- The concatenation writes only its own result: argument 4 is found as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.binary_writes, Finset.mem_singleton]
    exact StableHlo.devRef_ne_of_ne (by decide)))
/-- The concatenation writes only its own result: argument 5 is found as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.binary_writes, Finset.mem_singleton]
    exact StableHlo.devRef_ne_of_ne (by decide)))
/-- The concatenation writes only its own result: argument 6 is found as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.binary_writes, Finset.mem_singleton]
    exact StableHlo.devRef_ne_of_ne (by decide)))
/-- The concatenation writes only its own result: argument 7 is found as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.binary_writes, Finset.mem_singleton]
    exact StableHlo.devRef_ne_of_ne (by decide)))
/-- The concatenation writes only its own result: argument 8 is found as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.binary_writes, Finset.mem_singleton]
    exact StableHlo.devRef_ne_of_ne (by decide)))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: where it is not
    fetched its block index has not moved, and the body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not: where it is not
    fetched its block index has not moved, and the body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not: where it is not
    fetched its block index has not moved, and the body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not: where it is not
    fetched its block index has not moved, and the body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not: where it is not
    fetched its block index has not moved, and the body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not: where it is not
    fetched its block index has not moved, and the body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not: where it is not
    fetched its block index has not moved, and the body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not: where it is not
    fetched its block index has not moved, and the body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not: where it is not
    fetched its block index has not moved, and the body leaves the block in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions, in closed form over the grid -/

/-- "k = 0", as the body computes it from the second grid coordinate. -/
abbrev cond0_0 (i : grid0.Coords) : Prop := (Scalar.cmpi .ne (Scalar.extui (Scalar.cmpi .eq (BitVec.ofNat 32 (i 1).val) 0#32)) 0#32) = 1#1
/-- It holds at the points whose number is a multiple of 8. -/
theorem hcond0_0 : ∀ t : Fin cfg0.N, cond0_0 (grid0.coords t) ↔ t.val % 8 = 0 :=
  (by decide +kernel : ∀ t : Fin grid0.N, cond0_0 (grid0.coords t) ↔ t.val % 8 = 0)

/-- "k = 7", as the body computes it. -/
abbrev cond0_1 (i : grid0.Coords) : Prop := k0_cond2 i = 1#1
/-- It holds at the points whose number is 7 modulo 8. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem liveAt0_8 : ∀ t : Fin cfg0.N, cfg0.idle 8 (grid0.coords t) = false := by decide +kernel
/-- Where k is not 7 the body stores nothing into the output's buffer, and the pipeline does not write it back there. -/
theorem idleAt0_9 : ∀ t : Fin cfg0.N, ¬cond0_1 (grid0.coords t) → cfg0.idle 9 (grid0.coords t) = true := by decide +kernel
theorem noFlush0_9 : ∀ t : Fin cfg0.N, ¬cond0_1 (grid0.coords t) → (cfg0.win 9).flush t = false := by decide +kernel
/-- Where k = 7 the output's buffer is stored whole. -/
theorem liveAt0_9 : ∀ t : Fin cfg0.N, cond0_1 (grid0.coords t) → cfg0.idle 9 (grid0.coords t) = false := by decide +kernel

/-! ## The memrefs the body is called with -/

/-- One staging buffer of the output window, through which its contents are stated. -/
abbrev VO0_9 : View sig .tc .vmem S1024x64 .f32 := (Memref.whole cc0_stg9_0 : Memref sig .tc .vmem S1024x64 .f32).view
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4x64x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S4x128x64 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S4x64 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x64 .f32 := win0_9.stage (cfg0.slots t 9)
abbrev hs0_9 (t : Fin cfg0.N) : (ms0_9 t).IsWhole := hstage0_9 ((cfg0.slots t 9).cast nbuf0_9)
/-- Accumulator 0: a whole scratch buffer of the kernel's own, carried from point to point. -/
abbrev scM0_0 : Memref sig .tc .vmem S1024x64 .f32 := Memref.whole cc0_scratch0
abbrev VS0_0 : View sig .tc .vmem S1024x64 .f32 := scM0_0.view
/-- Accumulator 1: a whole scratch buffer of the kernel's own, carried from point to point. -/
abbrev scM0_1 : Memref sig .tc .vmem S1024x64 .f32 := Memref.whole cc0_scratch1
abbrev VS0_1 : View sig .tc .vmem S1024x64 .f32 := scM0_1.view
/-- Accumulator 2: a whole scratch buffer of the kernel's own, carried from point to point. -/
abbrev scM0_2 : Memref sig .tc .vmem S1024x64 .f32 := Memref.whole cc0_scratch2
abbrev VS0_2 : View sig .tc .vmem S1024x64 .f32 := scM0_2.view

/-- What the launch hands the region besides the windows: the three accumulators, each at some contents. -/
theorem scopedRest_eq (c : Dev nD) :
    (Pipeline.scopedRest spec0 c : sProp 𝕄)
      = iprop((∃ d, owns (c : Thread nD τ) scM0_0 fullShare d) ∗ (∃ d, owns (c : Thread nD τ) scM0_1 fullShare d) ∗ (∃ d, owns (c : Thread nD τ) scM0_2 fullShare d)) := by
  rw [scopedRest0_eq]; simp only [scM0_0, scM0_1, scM0_2, owns_whole]; try rfl

end Cert.KernelIdeal.Fr

end
-- ==== Proof.KI.RunFirst.lean ====
/-
  The kernel body run once, symbolically, in the case k = 0: the three accumulators, found at anything, are cleared and then take the first tile product; the output's buffer is handed back untouched.
  The run is over arbitrary whole memrefs holding arbitrary contents; what each store leaves is recorded as the
  list of pieces written, which the run itself finds.
-/
import proofs.«154867_j70961449664572_1_alg».proof.Proof.KI.Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the three accumulators in this case, with the proof that from the
    input buffers at their contents, the accumulators at anything and the output's buffer at any contents (handed back as found) the body runs, without fault, to a state
    holding the inputs as they were and each stored buffer with its pieces written. -/
noncomputable def kernelRun0_A (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S4x64x128 .f32) (harg7 : arg7.IsWhole) (arg8 : Memref sig .tc .vmem S4x128 .f32) (harg8 : arg8.IsWhole) (arg9 : Memref sig .tc .vmem S4x128x64 .f32) (harg9 : arg9.IsWhole) (arg10 : Memref sig .tc .vmem S4x64 .f32) (harg10 : arg10.IsWhole) (arg11 : Memref sig .tc .vmem S1024x64 .f32) (harg11 : arg11.IsWhole) (arg12 : Memref sig .tc .vmem S1024x64 .f32) (harg12 : arg12.IsWhole) (arg13 : Memref sig .tc .vmem S1024x64 .f32) (harg13 : arg13.IsWhole) (arg14 : Memref sig .tc .vmem S1024x64 .f32) (harg14 : arg14.IsWhole) (hc0 : cond0_0 i) (hc1 : ¬cond0_1 i)
    (x0 : Vec F S1024x1024 .f32) (x1 : Vec F S1024x1024 .f32) (x2 : Vec F S1024x1024 .f32) (x3 : Vec F S1024x64 .f32) (x4 : Vec F S1024x64 .f32) (x5 : Vec F S4x64x128 .f32) (x6 : Vec F S4x128 .f32) (x7 : Vec F S4x128x64 .f32) (x8 : Vec F S4x64 .f32) :
    Σ' (LS0 : List (View.Piece (Elt F) S1024x64 .f32)) (LS1 : List (View.Piece (Elt F) S1024x64 .f32)), { LS2 : List (View.Piece (Elt F) S1024x64 .f32) //
      ∀ (xi9 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun xi9 E K => ?run⟩
  case run =>
    simp only [cc0__fused_kernel_eq_skeleton]; unfold cc0__fused_kernel_skel
    simp only [k0_part3_eq_skeleton, k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [HS0]; · iexists _; iexact HS0
    isplitl [HS1]; · iexists _; iexact HS1
    iexists _; iexact HS2

end Cert.KernelIdeal.Fr

end
-- ==== Proof.KI.RunMid.lean ====
/-
  The kernel body run once, symbolically, in the case 0 < k < 7: each accumulator, found at what the point before left, takes one more tile product; the output's buffer is handed back untouched.
  The run is over arbitrary whole memrefs holding arbitrary contents; what each store leaves is recorded as the
  list of pieces written, which the run itself finds.
-/
import proofs.«154867_j70961449664572_1_alg».proof.Proof.KI.RunFirst

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the three accumulators in this case, with the proof that from the
    input buffers at their contents, the accumulators at the contents handed in and the output's buffer at any contents (handed back as found) the body runs, without fault, to a state
    holding the inputs as they were and each stored buffer with its pieces written. -/
noncomputable def kernelRun0_B (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S4x64x128 .f32) (harg7 : arg7.IsWhole) (arg8 : Memref sig .tc .vmem S4x128 .f32) (harg8 : arg8.IsWhole) (arg9 : Memref sig .tc .vmem S4x128x64 .f32) (harg9 : arg9.IsWhole) (arg10 : Memref sig .tc .vmem S4x64 .f32) (harg10 : arg10.IsWhole) (arg11 : Memref sig .tc .vmem S1024x64 .f32) (harg11 : arg11.IsWhole) (arg12 : Memref sig .tc .vmem S1024x64 .f32) (harg12 : arg12.IsWhole) (arg13 : Memref sig .tc .vmem S1024x64 .f32) (harg13 : arg13.IsWhole) (arg14 : Memref sig .tc .vmem S1024x64 .f32) (harg14 : arg14.IsWhole) (hc0 : ¬cond0_0 i) (hc1 : ¬cond0_1 i)
    (x0 : Vec F S1024x1024 .f32) (x1 : Vec F S1024x1024 .f32) (x2 : Vec F S1024x1024 .f32) (x3 : Vec F S1024x64 .f32) (x4 : Vec F S1024x64 .f32) (x5 : Vec F S4x64x128 .f32) (x6 : Vec F S4x128 .f32) (x7 : Vec F S4x128x64 .f32) (x8 : Vec F S4x64 .f32) (xs0 xs1 xs2 : Vec F S1024x64 .f32) :
    Σ' (LS0 : List (View.Piece (Elt F) S1024x64 .f32)) (LS1 : List (View.Piece (Elt F) S1024x64 .f32)), { LS2 : List (View.Piece (Elt F) S1024x64 .f32) //
      ∀ (xi9 : Vec F S1024x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ owns (c : Thread nD τ) arg12 fullShare xs0 ∗ owns (c : Thread nD τ) arg13 fullShare xs1 ∗ owns (c : Thread nD τ) arg14 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi9 ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun xi9 E K => ?run⟩
  case run =>
    simp only [cc0__fused_kernel_eq_skeleton]; unfold cc0__fused_kernel_skel
    simp only [k0_part3_eq_skeleton, k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hfs0; obtain rfl := harg13.eq_unread hfs1; obtain rfl := harg14.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [HS0]; · iexists _; iexact HS0
    isplitl [HS1]; · iexists _; iexact HS1
    iexists _; iexact HS2

end Cert.KernelIdeal.Fr

end
-- ==== Proof.KI.RunLast.lean ====
/-
  The kernel body run once, symbolically, in the case k = 7: the accumulators take the last tile product, and the four perceptrons' sum is stored over the whole output buffer.
  The run is over arbitrary whole memrefs holding arbitrary contents; what each store leaves is recorded as the
  list of pieces written, which the run itself finds.
-/
import proofs.«154867_j70961449664572_1_alg».proof.Proof.KI.RunMid

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the three accumulators and in the output's buffer in this case, with the proof that from the
    input buffers at their contents, the accumulators at the contents handed in and the output's buffer at anything the body runs, without fault, to a state
    holding the inputs as they were and each stored buffer with its pieces written. -/
noncomputable def kernelRun0_C (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S4x64x128 .f32) (harg7 : arg7.IsWhole) (arg8 : Memref sig .tc .vmem S4x128 .f32) (harg8 : arg8.IsWhole) (arg9 : Memref sig .tc .vmem S4x128x64 .f32) (harg9 : arg9.IsWhole) (arg10 : Memref sig .tc .vmem S4x64 .f32) (harg10 : arg10.IsWhole) (arg11 : Memref sig .tc .vmem S1024x64 .f32) (harg11 : arg11.IsWhole) (arg12 : Memref sig .tc .vmem S1024x64 .f32) (harg12 : arg12.IsWhole) (arg13 : Memref sig .tc .vmem S1024x64 .f32) (harg13 : arg13.IsWhole) (arg14 : Memref sig .tc .vmem S1024x64 .f32) (harg14 : arg14.IsWhole) (hc0 : ¬cond0_0 i) (hc1 : cond0_1 i)
    (x0 : Vec F S1024x1024 .f32) (x1 : Vec F S1024x1024 .f32) (x2 : Vec F S1024x1024 .f32) (x3 : Vec F S1024x64 .f32) (x4 : Vec F S1024x64 .f32) (x5 : Vec F S4x64x128 .f32) (x6 : Vec F S4x128 .f32) (x7 : Vec F S4x128x64 .f32) (x8 : Vec F S4x64 .f32) (xs0 xs1 xs2 : Vec F S1024x64 .f32) :
    Σ' (L9 : List (View.Piece (Elt F) S1024x64 .f32)) (LS0 : List (View.Piece (Elt F) S1024x64 .f32)) (LS1 : List (View.Piece (Elt F) S1024x64 .f32)), { LS2 : List (View.Piece (Elt F) S1024x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare xs0 ∗ owns (c : Thread nD τ) arg13 fullShare xs1 ∗ owns (c : Thread nD τ) arg14 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun E K => ?run⟩
  case run =>
    simp only [cc0__fused_kernel_eq_skeleton]; unfold cc0__fused_kernel_skel
    simp only [k0_part3_eq_skeleton, k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hfs0; obtain rfl := harg13.eq_unread hfs1; obtain rfl := harg14.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [HS0]; · iexists _; iexact HS0
    isplitl [HS1]; · iexists _; iexact HS1
    iexists _; iexact HS2

end Cert.KernelIdeal.Fr

end
-- ==== Proof.KI.Data.lean ====
/-
  What the body leaves at each point, and the region's invariant.

  Each of the three cases leaves, in every buffer it stores into, the pieces its run found; read back, these are the
  buffer's contents.  Following the 64 points in order gives what the output's buffer and the three accumulators
  hold after each point: an accumulator is started afresh at k = 0 and otherwise continues from what the point
  before left.  Between points the invariant holds the three accumulators at exactly those contents.
-/
import proofs.«154867_j70961449664572_1_alg».proof.Proof.KI.RunLast

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
-- The share each input window holds of its array (which shares, the launch says; nothing here depends on it).
variable (q : Fin cfg0.W → PosShare TreeShare)

/-! ## Each case's run at a point's own memrefs -/

/-- The first case (k = 0) at point t. -/
abbrev runA (c : Dev nD) (t : Fin cfg0.N) (h0 : t.val % 8 = 0) (x0 : Vec F S1024x1024 .f32) (x1 : Vec F S1024x1024 .f32) (x2 : Vec F S1024x1024 .f32) (x3 : Vec F S1024x64 .f32) (x4 : Vec F S1024x64 .f32) (x5 : Vec F S4x64x128 .f32) (x6 : Vec F S4x128 .f32) (x7 : Vec F S4x128x64 .f32) (x8 : Vec F S4x64 .f32) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => absurd ((hcond0_1 t).mp h) (by omega)) x0 x1 x2 x3 x4 x5 x6 x7 x8
/-- The middle case (0 < k < 7) at point t, the accumulators handed in at xs. -/
abbrev runB (c : Dev nD) (t : Fin cfg0.N) (h0 : ¬t.val % 8 = 0) (h1 : ¬t.val % 8 = 7) (x0 : Vec F S1024x1024 .f32) (x1 : Vec F S1024x1024 .f32) (x2 : Vec F S1024x1024 .f32) (x3 : Vec F S1024x64 .f32) (x4 : Vec F S1024x64 .f32) (x5 : Vec F S4x64x128 .f32) (x6 : Vec F S4x128 .f32) (x7 : Vec F S4x128x64 .f32) (x8 : Vec F S4x64 .f32) (xs0 xs1 xs2 : Vec F S1024x64 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) x0 x1 x2 x3 x4 x5 x6 x7 x8 xs0 xs1 xs2
/-- The last case (k = 7) at point t. -/
abbrev runC (c : Dev nD) (t : Fin cfg0.N) (h1 : t.val % 8 = 7) (x0 : Vec F S1024x1024 .f32) (x1 : Vec F S1024x1024 .f32) (x2 : Vec F S1024x1024 .f32) (x3 : Vec F S1024x64 .f32) (x4 : Vec F S1024x64 .f32) (x5 : Vec F S4x64x128 .f32) (x6 : Vec F S4x128 .f32) (x7 : Vec F S4x128x64 .f32) (x8 : Vec F S4x64 .f32) (xs0 xs1 xs2 : Vec F S1024x64 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => absurd ((hcond0_0 t).mp h) (by omega)) ((hcond0_1 t).mpr h1) x0 x1 x2 x3 x4 x5 x6 x7 x8 xs0 xs1 xs2

/-- What the first case leaves in accumulator 0. -/
def accA_0 (c : Dev nD) (t : Fin cfg0.N) (h0 : t.val % 8 = 0) (x0 : Vec F S1024x1024 .f32) (x1 : Vec F S1024x1024 .f32) (x2 : Vec F S1024x1024 .f32) (x3 : Vec F S1024x64 .f32) (x4 : Vec F S1024x64 .f32) (x5 : Vec F S4x64x128 .f32) (x6 : Vec F S4x128 .f32) (x7 : Vec F S4x128x64 .f32) (x8 : Vec F S4x64 .f32) : Vec F S1024x64 .f32 :=
  VS0_0.read (Elt F) (VS0_0.writes (Elt F) VS0_0.junk (runA c t h0 x0 x1 x2 x3 x4 x5 x6 x7 x8).1)
theorem coverA_0 (c : Dev nD) (t : Fin cfg0.N) (h0 : t.val % 8 = 0) (x0 : Vec F S1024x1024 .f32) (x1 : Vec F S1024x1024 .f32) (x2 : Vec F S1024x1024 .f32) (x3 : Vec F S1024x64 .f32) (x4 : Vec F S1024x64 .f32) (x5 : Vec F S4x64x128 .f32) (x6 : Vec F S4x128 .f32) (x7 : Vec F S4x128x64 .f32) (x8 : Vec F S4x64 .f32) (y : S1024x64.Idx) :
    ∃ pc ∈ (runA (F := F) c t h0 x0 x1 x2 x3 x4 x5 x6 x7 x8).1, y ∈ pc.1.set :=
  View.cover_of_tiledL (runA (F := F) c t h0 x0 x1 x2 x3 x4 x5 x6 x7 x8).1 S1024x64.size (by sl_kernel_rfl) y
/-- What the middle case leaves in accumulator 0. -/
def accB_0 (c : Dev nD) (t : Fin cfg0.N) (h0 : ¬t.val % 8 = 0) (h1 : ¬t.val % 8 = 7) (x0 : Vec F S1024x1024 .f32) (x1 : Vec F S1024x1024 .f32) (x2 : Vec F S1024x1024 .f32) (x3 : Vec F S1024x64 .f32) (x4 : Vec F S1024x64 .f32) (x5 : Vec F S4x64x128 .f32) (x6 : Vec F S4x128 .f32) (x7 : Vec F S4x128x64 .f32) (x8 : Vec F S4x64 .f32) (xs0 xs1 xs2 : Vec F S1024x64 .f32) : Vec F S1024x64 .f32 :=
  VS0_0.read (Elt F) (VS0_0.writes (Elt F) VS0_0.junk (runB c t h0 h1 x0 x1 x2 x3 x4 x5 x6 x7 x8 xs0 xs1 xs2).1)
theorem coverB_0 (c : Dev nD) (t : Fin cfg0.N) (h0 : ¬t.val % 8 = 0) (h1 : ¬t.val % 8 = 7) (x0 : Vec F S1024x1024 .f32) (x1 : Vec F S1024x1024 .f32) (x2 : Vec F S1024x1024 .f32) (x3 : Vec F S1024x64 .f32) (x4 : Vec F S1024x64 .f32) (x5 : Vec F S4x64x128 .f32) (x6 : Vec F S4x128 .f32) (x7 : Vec F S4x128x64 .f32) (x8 : Vec F S4x64 .f32) (xs0 xs1 xs2 : Vec F S1024x64 .f32) (y : S1024x64.Idx) :
    ∃ pc ∈ (runB (F := F) c t h0 h1 x0 x1 x2 x3 x4 x5 x6 x7 x8 xs0 xs1 xs2).1, y ∈ pc.1.set :=
  View.cover_of_tiledL (runB (F := F) c t h0 h1 x0 x1 x2 x3 x4 x5 x6 x7 x8 xs0 xs1 xs2).1 S1024x64.size (by sl_kernel_rfl) y
/-- What the last case leaves in accumulator 0. -/
def accC_0 (c : Dev nD) (t : Fin cfg0.N) (h1 : t.val % 8 = 7) (x0 : Vec F S1024x1024 .f32) (x1 : Vec F S1024x1024 .f32) (x2 : Vec F S1024x1024 .f32) (x3 : Vec F S1024x64 .f32) (x4 : Vec F S1024x64 .f32) (x5 : Vec F S4x64x128 .f32) (x6 : Vec F S4x128 .f32) (x7 : Vec F S4x128x64 .f32) (x8 : Vec F S4x64 .f32) (xs0 xs1 xs2 : Vec F S1024x64 .f32) : Vec F S1024x64 .f32 :=
  VS0_0.read (Elt F) (VS0_0.writes (Elt F) VS0_0.junk (runC c t h1 x0 x1 x2 x3 x4 x5 x6 x7 x8 xs0 xs1 xs2).2.1)
theorem coverC_0 (c : Dev nD) (t : Fin cfg0.N) (h1 : t.val % 8 = 7) (x0 : Vec F S1024x1024 .f32) (x1 : Vec F S1024x1024 .f32) (x2 : Vec F S1024x1024 .f32) (x3 : Vec F S1024x64 .f32) (x4 : Vec F S1024x64 .f32) (x5 : Vec F S4x64x128 .f32) (x6 : Vec F S4x128 .f32) (x7 : Vec F S4x128x64 .f32) (x8 : Vec F S4x64 .f32) (xs0 xs1 xs2 : Vec F S1024x64 .f32) (y : S1024x64.Idx) :
    ∃ pc ∈ (runC (F := F) c t h1 x0 x1 x2 x3 x4 x5 x6 x7 x8 xs0 xs1 xs2).2.1, y ∈ pc.1.set :=
  View.cover_of_tiledL (runC (F := F) c t h1 x0 x1 x2 x3 x4 x5 x6 x7 x8 xs0 xs1 xs2).2.1 S1024x64.size (by sl_kernel_rfl) y
/-- What the first case leaves in accumulator 1. -/
def accA_1 (c : Dev nD) (t : Fin cfg0.N) (h0 : t.val % 8 = 0) (x0 : Vec F S1024x1024 .f32) (x1 : Vec F S1024x1024 .f32) (x2 : Vec F S1024x1024 .f32) (x3 : Vec F S1024x64 .f32) (x4 : Vec F S1024x64 .f32) (x5 : Vec F S4x64x128 .f32) (x6 : Vec F S4x128 .f32) (x7 : Vec F S4x128x64 .f32) (x8 : Vec F S4x64 .f32) : Vec F S1024x64 .f32 :=
  VS0_1.read (Elt F) (VS0_1.writes (Elt F) VS0_1.junk (runA c t h0 x0 x1 x2 x3 x4 x5 x6 x7 x8).2.1)
theorem coverA_1 (c : Dev nD) (t : Fin cfg0.N) (h0 : t.val % 8 = 0) (x0 : Vec F S1024x1024 .f32) (x1 : Vec F S1024x1024 .f32) (x2 : Vec F S1024x1024 .f32) (x3 : Vec F S1024x64 .f32) (x4 : Vec F S1024x64 .f32) (x5 : Vec F S4x64x128 .f32) (x6 : Vec F S4x128 .f32) (x7 : Vec F S4x128x64 .f32) (x8 : Vec F S4x64 .f32) (y : S1024x64.Idx) :
    ∃ pc ∈ (runA (F := F) c t h0 x0 x1 x2 x3 x4 x5 x6 x7 x8).2.1, y ∈ pc.1.set :=
  View.cover_of_tiledL (runA (F := F) c t h0 x0 x1 x2 x3 x4 x5 x6 x7 x8).2.1 S1024x64.size (by sl_kernel_rfl) y
/-- What the middle case leaves in accumulator 1. -/
def accB_1 (c : Dev nD) (t : Fin cfg0.N) (h0 : ¬t.val % 8 = 0) (h1 : ¬t.val % 8 = 7) (x0 : Vec F S1024x1024 .f32) (x1 : Vec F S1024x1024 .f32) (x2 : Vec F S1024x1024 .f32) (x3 : Vec F S1024x64 .f32) (x4 : Vec F S1024x64 .f32) (x5 : Vec F S4x64x128 .f32) (x6 : Vec F S4x128 .f32) (x7 : Vec F S4x128x64 .f32) (x8 : Vec F S4x64 .f32) (xs0 xs1 xs2 : Vec F S1024x64 .f32) : Vec F S1024x64 .f32 :=
  VS0_1.read (Elt F) (VS0_1.writes (Elt F) VS0_1.junk (runB c t h0 h1 x0 x1 x2 x3 x4 x5 x6 x7 x8 xs0 xs1 xs2).2.1)
theorem coverB_1 (c : Dev nD) (t : Fin cfg0.N) (h0 : ¬t.val % 8 = 0) (h1 : ¬t.val % 8 = 7) (x0 : Vec F S1024x1024 .f32) (x1 : Vec F S1024x1024 .f32) (x2 : Vec F S1024x1024 .f32) (x3 : Vec F S1024x64 .f32) (x4 : Vec F S1024x64 .f32) (x5 : Vec F S4x64x128 .f32) (x6 : Vec F S4x128 .f32) (x7 : Vec F S4x128x64 .f32) (x8 : Vec F S4x64 .f32) (xs0 xs1 xs2 : Vec F S1024x64 .f32) (y : S1024x64.Idx) :
    ∃ pc ∈ (runB (F := F) c t h0 h1 x0 x1 x2 x3 x4 x5 x6 x7 x8 xs0 xs1 xs2).2.1, y ∈ pc.1.set :=
  View.cover_of_tiledL (runB (F := F) c t h0 h1 x0 x1 x2 x3 x4 x5 x6 x7 x8 xs0 xs1 xs2).2.1 S1024x64.size (by sl_kernel_rfl) y
/-- What the last case leaves in accumulator 1. -/
def accC_1 (c : Dev nD) (t : Fin cfg0.N) (h1 : t.val % 8 = 7) (x0 : Vec F S1024x1024 .f32) (x1 : Vec F S1024x1024 .f32) (x2 : Vec F S1024x1024 .f32) (x3 : Vec F S1024x64 .f32) (x4 : Vec F S1024x64 .f32) (x5 : Vec F S4x64x128 .f32) (x6 : Vec F S4x128 .f32) (x7 : Vec F S4x128x64 .f32) (x8 : Vec F S4x64 .f32) (xs0 xs1 xs2 : Vec F S1024x64 .f32) : Vec F S1024x64 .f32 :=
  VS0_1.read (Elt F) (VS0_1.writes (Elt F) VS0_1.junk (runC c t h1 x0 x1 x2 x3 x4 x5 x6 x7 x8 xs0 xs1 xs2).2.2.1)
theorem coverC_1 (c : Dev nD) (t : Fin cfg0.N) (h1 : t.val % 8 = 7) (x0 : Vec F S1024x1024 .f32) (x1 : Vec F S1024x1024 .f32) (x2 : Vec F S1024x1024 .f32) (x3 : Vec F S1024x64 .f32) (x4 : Vec F S1024x64 .f32) (x5 : Vec F S4x64x128 .f32) (x6 : Vec F S4x128 .f32) (x7 : Vec F S4x128x64 .f32) (x8 : Vec F S4x64 .f32) (xs0 xs1 xs2 : Vec F S1024x64 .f32) (y : S1024x64.Idx) :
    ∃ pc ∈ (runC (F := F) c t h1 x0 x1 x2 x3 x4 x5 x6 x7 x8 xs0 xs1 xs2).2.2.1, y ∈ pc.1.set :=
  View.cover_of_tiledL (runC (F := F) c t h1 x0 x1 x2 x3 x4 x5 x6 x7 x8 xs0 xs1 xs2).2.2.1 S1024x64.size (by sl_kernel_rfl) y
/-- What the first case leaves in accumulator 2. -/
def accA_2 (c : Dev nD) (t : Fin cfg0.N) (h0 : t.val % 8 = 0) (x0 : Vec F S1024x1024 .f32) (x1 : Vec F S1024x1024 .f32) (x2 : Vec F S1024x1024 .f32) (x3 : Vec F S1024x64 .f32) (x4 : Vec F S1024x64 .f32) (x5 : Vec F S4x64x128 .f32) (x6 : Vec F S4x128 .f32) (x7 : Vec F S4x128x64 .f32) (x8 : Vec F S4x64 .f32) : Vec F S1024x64 .f32 :=
  VS0_2.read (Elt F) (VS0_2.writes (Elt F) VS0_2.junk (runA c t h0 x0 x1 x2 x3 x4 x5 x6 x7 x8).2.2.1)
theorem coverA_2 (c : Dev nD) (t : Fin cfg0.N) (h0 : t.val % 8 = 0) (x0 : Vec F S1024x1024 .f32) (x1 : Vec F S1024x1024 .f32) (x2 : Vec F S1024x1024 .f32) (x3 : Vec F S1024x64 .f32) (x4 : Vec F S1024x64 .f32) (x5 : Vec F S4x64x128 .f32) (x6 : Vec F S4x128 .f32) (x7 : Vec F S4x128x64 .f32) (x8 : Vec F S4x64 .f32) (y : S1024x64.Idx) :
    ∃ pc ∈ (runA (F := F) c t h0 x0 x1 x2 x3 x4 x5 x6 x7 x8).2.2.1, y ∈ pc.1.set :=
  View.cover_of_tiledL (runA (F := F) c t h0 x0 x1 x2 x3 x4 x5 x6 x7 x8).2.2.1 S1024x64.size (by sl_kernel_rfl) y
/-- What the middle case leaves in accumulator 2. -/
def accB_2 (c : Dev nD) (t : Fin cfg0.N) (h0 : ¬t.val % 8 = 0) (h1 : ¬t.val % 8 = 7) (x0 : Vec F S1024x1024 .f32) (x1 : Vec F S1024x1024 .f32) (x2 : Vec F S1024x1024 .f32) (x3 : Vec F S1024x64 .f32) (x4 : Vec F S1024x64 .f32) (x5 : Vec F S4x64x128 .f32) (x6 : Vec F S4x128 .f32) (x7 : Vec F S4x128x64 .f32) (x8 : Vec F S4x64 .f32) (xs0 xs1 xs2 : Vec F S1024x64 .f32) : Vec F S1024x64 .f32 :=
  VS0_2.read (Elt F) (VS0_2.writes (Elt F) VS0_2.junk (runB c t h0 h1 x0 x1 x2 x3 x4 x5 x6 x7 x8 xs0 xs1 xs2).2.2.1)
theorem coverB_2 (c : Dev nD) (t : Fin cfg0.N) (h0 : ¬t.val % 8 = 0) (h1 : ¬t.val % 8 = 7) (x0 : Vec F S1024x1024 .f32) (x1 : Vec F S1024x1024 .f32) (x2 : Vec F S1024x1024 .f32) (x3 : Vec F S1024x64 .f32) (x4 : Vec F S1024x64 .f32) (x5 : Vec F S4x64x128 .f32) (x6 : Vec F S4x128 .f32) (x7 : Vec F S4x128x64 .f32) (x8 : Vec F S4x64 .f32) (xs0 xs1 xs2 : Vec F S1024x64 .f32) (y : S1024x64.Idx) :
    ∃ pc ∈ (runB (F := F) c t h0 h1 x0 x1 x2 x3 x4 x5 x6 x7 x8 xs0 xs1 xs2).2.2.1, y ∈ pc.1.set :=
  View.cover_of_tiledL (runB (F := F) c t h0 h1 x0 x1 x2 x3 x4 x5 x6 x7 x8 xs0 xs1 xs2).2.2.1 S1024x64.size (by sl_kernel_rfl) y
/-- What the last case leaves in accumulator 2. -/
def accC_2 (c : Dev nD) (t : Fin cfg0.N) (h1 : t.val % 8 = 7) (x0 : Vec F S1024x1024 .f32) (x1 : Vec F S1024x1024 .f32) (x2 : Vec F S1024x1024 .f32) (x3 : Vec F S1024x64 .f32) (x4 : Vec F S1024x64 .f32) (x5 : Vec F S4x64x128 .f32) (x6 : Vec F S4x128 .f32) (x7 : Vec F S4x128x64 .f32) (x8 : Vec F S4x64 .f32) (xs0 xs1 xs2 : Vec F S1024x64 .f32) : Vec F S1024x64 .f32 :=
  VS0_2.read (Elt F) (VS0_2.writes (Elt F) VS0_2.junk (runC c t h1 x0 x1 x2 x3 x4 x5 x6 x7 x8 xs0 xs1 xs2).2.2.2.1)
theorem coverC_2 (c : Dev nD) (t : Fin cfg0.N) (h1 : t.val % 8 = 7) (x0 : Vec F S1024x1024 .f32) (x1 : Vec F S1024x1024 .f32) (x2 : Vec F S1024x1024 .f32) (x3 : Vec F S1024x64 .f32) (x4 : Vec F S1024x64 .f32) (x5 : Vec F S4x64x128 .f32) (x6 : Vec F S4x128 .f32) (x7 : Vec F S4x128x64 .f32) (x8 : Vec F S4x64 .f32) (xs0 xs1 xs2 : Vec F S1024x64 .f32) (y : S1024x64.Idx) :
    ∃ pc ∈ (runC (F := F) c t h1 x0 x1 x2 x3 x4 x5 x6 x7 x8 xs0 xs1 xs2).2.2.2.1, y ∈ pc.1.set :=
  View.cover_of_tiledL (runC (F := F) c t h1 x0 x1 x2 x3 x4 x5 x6 x7 x8 xs0 xs1 xs2).2.2.2.1 S1024x64.size (by sl_kernel_rfl) y
/-- What the last case leaves in the output's buffer. -/
def outC (c : Dev nD) (t : Fin cfg0.N) (h1 : t.val % 8 = 7) (x0 : Vec F S1024x1024 .f32) (x1 : Vec F S1024x1024 .f32) (x2 : Vec F S1024x1024 .f32) (x3 : Vec F S1024x64 .f32) (x4 : Vec F S1024x64 .f32) (x5 : Vec F S4x64x128 .f32) (x6 : Vec F S4x128 .f32) (x7 : Vec F S4x128x64 .f32) (x8 : Vec F S4x64 .f32) (xs0 xs1 xs2 : Vec F S1024x64 .f32) : Vec F S1024x64 .f32 :=
  VO0_9.read (Elt F) (VO0_9.writes (Elt F) VO0_9.junk (runC c t h1 x0 x1 x2 x3 x4 x5 x6 x7 x8 xs0 xs1 xs2).1)
theorem coverC_out (c : Dev nD) (t : Fin cfg0.N) (h1 : t.val % 8 = 7) (x0 : Vec F S1024x1024 .f32) (x1 : Vec F S1024x1024 .f32) (x2 : Vec F S1024x1024 .f32) (x3 : Vec F S1024x64 .f32) (x4 : Vec F S1024x64 .f32) (x5 : Vec F S4x64x128 .f32) (x6 : Vec F S4x128 .f32) (x7 : Vec F S4x128x64 .f32) (x8 : Vec F S4x64 .f32) (xs0 xs1 xs2 : Vec F S1024x64 .f32) (y : S1024x64.Idx) :
    ∃ pc ∈ (runC (F := F) c t h1 x0 x1 x2 x3 x4 x5 x6 x7 x8 xs0 xs1 xs2).1, y ∈ pc.1.set :=
  View.cover_of_tiledL (runC (F := F) c t h1 x0 x1 x2 x3 x4 x5 x6 x7 x8 xs0 xs1 xs2).1 S1024x64.size (by sl_kernel_rfl) y
/-- Where k is not 7 nothing is stored into the output's buffer: a placeholder nothing consults (the window is idle
    there and not written back). -/
def outIdle : Vec F S1024x64 .f32 := VO0_9.read (Elt F) (VO0_9.writes (Elt F) VO0_9.junk [])

/-! ## What the buffers hold after each point -/

/-- After the body at position n: the output's buffer, then the three accumulators.  The case is the one n's
    remainder modulo 8 selects; where k is not 0 the accumulators continue from what position n - 1 left. -/
def outsAt0 (c : Dev nD) : (n : ℕ) → n < cfg0.N → Vec F S1024x64 .f32 × Vec F S1024x64 .f32 × Vec F S1024x64 .f32 × Vec F S1024x64 .f32
  | 0, hn => (outIdle, accA_0 c ⟨0, hn⟩ (Nat.zero_mod _) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), accA_1 c ⟨0, hn⟩ (Nat.zero_mod _) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), accA_2 c ⟨0, hn⟩ (Nat.zero_mod _) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩))
  | n + 1, hn =>
    if h0 : (n + 1) % 8 = 0 then
      (outIdle, accA_0 c ⟨n + 1, hn⟩ h0 (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), accA_1 c ⟨n + 1, hn⟩ h0 (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), accA_2 c ⟨n + 1, hn⟩ h0 (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩))
    else
      if h1 : (n + 1) % 8 = 7 then
        (outC c ⟨n + 1, hn⟩ h1 (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.1 (outsAt0 c n (Nat.lt_of_succ_lt hn)).2.2.1 (outsAt0 c n (Nat.lt_of_succ_lt hn)).2.2.2,
         accC_0 c ⟨n + 1, hn⟩ h1 (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.1 (outsAt0 c n (Nat.lt_of_succ_lt hn)).2.2.1 (outsAt0 c n (Nat.lt_of_succ_lt hn)).2.2.2,
         accC_1 c ⟨n + 1, hn⟩ h1 (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.1 (outsAt0 c n (Nat.lt_of_succ_lt hn)).2.2.1 (outsAt0 c n (Nat.lt_of_succ_lt hn)).2.2.2,
         accC_2 c ⟨n + 1, hn⟩ h1 (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.1 (outsAt0 c n (Nat.lt_of_succ_lt hn)).2.2.1 (outsAt0 c n (Nat.lt_of_succ_lt hn)).2.2.2)
      else
        (outIdle,
         accB_0 c ⟨n + 1, hn⟩ h0 h1 (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.1 (outsAt0 c n (Nat.lt_of_succ_lt hn)).2.2.1 (outsAt0 c n (Nat.lt_of_succ_lt hn)).2.2.2,
         accB_1 c ⟨n + 1, hn⟩ h0 h1 (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.1 (outsAt0 c n (Nat.lt_of_succ_lt hn)).2.2.1 (outsAt0 c n (Nat.lt_of_succ_lt hn)).2.2.2,
         accB_2 c ⟨n + 1, hn⟩ h0 h1 (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.1 (outsAt0 c n (Nat.lt_of_succ_lt hn)).2.2.1 (outsAt0 c n (Nat.lt_of_succ_lt hn)).2.2.2)

/-- What the point before t left (used only where t is not the first point). -/
abbrev prevAt (c : Dev nD) (t : Fin cfg0.N) := outsAt0 m c (t.val - 1) (Nat.lt_of_le_of_lt (Nat.sub_le _ _) t.isLt)

/-- At a point with k = 0: the first case's contents. -/
theorem outsAt0_A (c : Dev nD) (t : Fin cfg0.N) (h0 : t.val % 8 = 0) :
    outsAt0 m c t.val t.isLt = (outIdle, accA_0 c t h0 (iblk m c 0 t) (iblk m c 1 t) (iblk m c 2 t) (iblk m c 3 t) (iblk m c 4 t) (iblk m c 5 t) (iblk m c 6 t) (iblk m c 7 t) (iblk m c 8 t), accA_1 c t h0 (iblk m c 0 t) (iblk m c 1 t) (iblk m c 2 t) (iblk m c 3 t) (iblk m c 4 t) (iblk m c 5 t) (iblk m c 6 t) (iblk m c 7 t) (iblk m c 8 t), accA_2 c t h0 (iblk m c 0 t) (iblk m c 1 t) (iblk m c 2 t) (iblk m c 3 t) (iblk m c 4 t) (iblk m c 5 t) (iblk m c 6 t) (iblk m c 7 t) (iblk m c 8 t)) := by
  obtain ⟨n, hn⟩ := t
  cases n with
  | zero => exact rfl
  | succ n => exact (dif_pos h0).trans rfl

/-- At a point with 0 < k < 7: the middle case's contents, over what the point before left. -/
theorem outsAt0_B (c : Dev nD) (t : Fin cfg0.N) (h0 : ¬t.val % 8 = 0) (h1 : ¬t.val % 8 = 7) :
    outsAt0 m c t.val t.isLt = (outIdle,
      accB_0 c t h0 h1 (iblk m c 0 t) (iblk m c 1 t) (iblk m c 2 t) (iblk m c 3 t) (iblk m c 4 t) (iblk m c 5 t) (iblk m c 6 t) (iblk m c 7 t) (iblk m c 8 t) (prevAt m c t).2.1 (prevAt m c t).2.2.1 (prevAt m c t).2.2.2,
      accB_1 c t h0 h1 (iblk m c 0 t) (iblk m c 1 t) (iblk m c 2 t) (iblk m c 3 t) (iblk m c 4 t) (iblk m c 5 t) (iblk m c 6 t) (iblk m c 7 t) (iblk m c 8 t) (prevAt m c t).2.1 (prevAt m c t).2.2.1 (prevAt m c t).2.2.2,
      accB_2 c t h0 h1 (iblk m c 0 t) (iblk m c 1 t) (iblk m c 2 t) (iblk m c 3 t) (iblk m c 4 t) (iblk m c 5 t) (iblk m c 6 t) (iblk m c 7 t) (iblk m c 8 t) (prevAt m c t).2.1 (prevAt m c t).2.2.1 (prevAt m c t).2.2.2) := by
  obtain ⟨n, hn⟩ := t
  cases n with
  | zero => exact absurd (Nat.zero_mod _) h0
  | succ n => exact (dif_neg h0).trans ((dif_neg h1).trans rfl)

/-- At a point with k = 7: the last case's contents, over what the point before left. -/
theorem outsAt0_C (c : Dev nD) (t : Fin cfg0.N) (h1 : t.val % 8 = 7) :
    outsAt0 m c t.val t.isLt = (outC c t h1 (iblk m c 0 t) (iblk m c 1 t) (iblk m c 2 t) (iblk m c 3 t) (iblk m c 4 t) (iblk m c 5 t) (iblk m c 6 t) (iblk m c 7 t) (iblk m c 8 t) (prevAt m c t).2.1 (prevAt m c t).2.2.1 (prevAt m c t).2.2.2,
      accC_0 c t h1 (iblk m c 0 t) (iblk m c 1 t) (iblk m c 2 t) (iblk m c 3 t) (iblk m c 4 t) (iblk m c 5 t) (iblk m c 6 t) (iblk m c 7 t) (iblk m c 8 t) (prevAt m c t).2.1 (prevAt m c t).2.2.1 (prevAt m c t).2.2.2,
      accC_1 c t h1 (iblk m c 0 t) (iblk m c 1 t) (iblk m c 2 t) (iblk m c 3 t) (iblk m c 4 t) (iblk m c 5 t) (iblk m c 6 t) (iblk m c 7 t) (iblk m c 8 t) (prevAt m c t).2.1 (prevAt m c t).2.2.1 (prevAt m c t).2.2.2,
      accC_2 c t h1 (iblk m c 0 t) (iblk m c 1 t) (iblk m c 2 t) (iblk m c 3 t) (iblk m c 4 t) (iblk m c 5 t) (iblk m c 6 t) (iblk m c 7 t) (iblk m c 8 t) (prevAt m c t).2.1 (prevAt m c t).2.2.1 (prevAt m c t).2.2.2) := by
  obtain ⟨n, hn⟩ := t
  cases n with
  | zero => exact absurd (show (0 : ℕ) % 8 = 7 from h1) (by decide)
  | succ n =>
    have h1' : (n + 1) % 8 = 7 := h1
    exact (dif_neg (fun h => by omega)).trans ((dif_pos h1').trans rfl)

/-! ## The invariant between points -/

/-- Before position n: at the very start the accumulators hold anything; afterwards exactly what position n - 1 left. -/
def PhiS (c : Dev nD) : (n : ℕ) → n ≤ cfg0.N → sProp 𝕄
  | 0, _ => Pipeline.scopedRest spec0 c
  | n + 1, hn => iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2))

theorem PhiS_zero (c : Dev nD) (n : ℕ) (h : n ≤ cfg0.N) (hz : n = 0) : PhiS m c n h = Pipeline.scopedRest spec0 c := by
  subst hz; rfl

theorem PhiS_succ (c : Dev nD) (n : ℕ) (hn : n < cfg0.N) :
    PhiS m c (n + 1) hn = iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) := rfl

theorem PhiS_pos (c : Dev nD) (n : ℕ) (h : n ≤ cfg0.N) (hz : n ≠ 0) :
    PhiS m c n h = iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2)) := by
  cases n with
  | zero => exact absurd rfl hz
  | succ n => rfl

/-! ## The proof data -/

/-- The pipeline's proof data on core c: the arrays as the region finds them; after the body each input's buffer at
    its block and the output's at what the accumulation says; the invariant above; each input array held at the share q names; nothing
    owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt0 m c t.val t.isLt).1
  Φ t := PhiS m c t.val (Nat.le_of_lt_succ t.isLt)
  q := q
  owed _ := 0

theorem A_eq (c : Dev nD) (w : Fin cfg0.W) : (dats m q 0 c).A w = V m c (Pipeline.arrRef spec0 w) := by
  dsimp only [dats]

theorem PhiS_castSucc (c : Dev nD) (t : Fin cfg0.N) :
    (dats m q 0 c).Φ t.castSucc = PhiS m c t.val (Nat.le_of_lt t.isLt) := by
  dsimp only [dats]; simp only [Fin.coe_castSucc]

theorem after0_0 (c : Dev nD) (t : Fin cfg0.N) : (dats m q 0 c).after 0 t = iblk m c 0 t := by dsimp only [dats]
theorem after0_1 (c : Dev nD) (t : Fin cfg0.N) : (dats m q 0 c).after 1 t = iblk m c 1 t := by dsimp only [dats]
theorem after0_2 (c : Dev nD) (t : Fin cfg0.N) : (dats m q 0 c).after 2 t = iblk m c 2 t := by dsimp only [dats]
theorem after0_3 (c : Dev nD) (t : Fin cfg0.N) : (dats m q 0 c).after 3 t = iblk m c 3 t := by dsimp only [dats]
theorem after0_4 (c : Dev nD) (t : Fin cfg0.N) : (dats m q 0 c).after 4 t = iblk m c 4 t := by dsimp only [dats]
theorem after0_5 (c : Dev nD) (t : Fin cfg0.N) : (dats m q 0 c).after 5 t = iblk m c 5 t := by dsimp only [dats]
theorem after0_6 (c : Dev nD) (t : Fin cfg0.N) : (dats m q 0 c).after 6 t = iblk m c 6 t := by dsimp only [dats]
theorem after0_7 (c : Dev nD) (t : Fin cfg0.N) : (dats m q 0 c).after 7 t = iblk m c 7 t := by dsimp only [dats]
theorem after0_8 (c : Dev nD) (t : Fin cfg0.N) : (dats m q 0 c).after 8 t = iblk m c 8 t := by dsimp only [dats]
theorem after0_9 (c : Dev nD) (t : Fin cfg0.N) : (dats m q 0 c).after 9 t = (outsAt0 m c t.val t.isLt).1 := by dsimp only [dats]

theorem before0_0 (c : Dev nD) (t : Fin cfg0.N) (d) : (dats m q 0 c).before 0 t d = iblk m c 0 t :=
  before0_0_of m (dats m q 0 c) (A_eq m q c 0) (after0_0 m q c) t d
theorem before0_1 (c : Dev nD) (t : Fin cfg0.N) (d) : (dats m q 0 c).before 1 t d = iblk m c 1 t :=
  before0_1_of m (dats m q 0 c) (A_eq m q c 1) (after0_1 m q c) t d
theorem before0_2 (c : Dev nD) (t : Fin cfg0.N) (d) : (dats m q 0 c).before 2 t d = iblk m c 2 t :=
  before0_2_of m (dats m q 0 c) (A_eq m q c 2) (after0_2 m q c) t d
theorem before0_3 (c : Dev nD) (t : Fin cfg0.N) (d) : (dats m q 0 c).before 3 t d = iblk m c 3 t :=
  before0_3_of m (dats m q 0 c) (A_eq m q c 3) (after0_3 m q c) t d
theorem before0_4 (c : Dev nD) (t : Fin cfg0.N) (d) : (dats m q 0 c).before 4 t d = iblk m c 4 t :=
  before0_4_of m (dats m q 0 c) (A_eq m q c 4) (after0_4 m q c) t d
theorem before0_5 (c : Dev nD) (t : Fin cfg0.N) (d) : (dats m q 0 c).before 5 t d = iblk m c 5 t :=
  before0_5_of m (dats m q 0 c) (A_eq m q c 5) (after0_5 m q c) t d
theorem before0_6 (c : Dev nD) (t : Fin cfg0.N) (d) : (dats m q 0 c).before 6 t d = iblk m c 6 t :=
  before0_6_of m (dats m q 0 c) (A_eq m q c 6) (after0_6 m q c) t d
theorem before0_7 (c : Dev nD) (t : Fin cfg0.N) (d) : (dats m q 0 c).before 7 t d = iblk m c 7 t :=
  before0_7_of m (dats m q 0 c) (A_eq m q c 7) (after0_7 m q c) t d
theorem before0_8 (c : Dev nD) (t : Fin cfg0.N) (d) : (dats m q 0 c).before 8 t d = iblk m c 8 t :=
  before0_8_of m (dats m q 0 c) (A_eq m q c 8) (after0_8 m q c) t d

/-! ## The body obligation, at a generic point -/

/-- What the body is called with at point t: the invariant, nothing owed, and every window's current buffer. -/
def bodyPre (c : Dev nD) (t : Fin cfg0.N) : sProp 𝕄 :=
  iprop((dats m q 0 c).Φ t.castSucc ∗ (dats m q 0 c).owesAt () t.castSucc
    ∗ (∃ d, owns (c : Thread nD τ) (ms0_0 t) fullShare ((dats m q 0 c).before 0 t d))
    ∗ (∃ d, owns (c : Thread nD τ) (ms0_1 t) fullShare ((dats m q 0 c).before 1 t d))
    ∗ (∃ d, owns (c : Thread nD τ) (ms0_2 t) fullShare ((dats m q 0 c).before 2 t d))
    ∗ (∃ d, owns (c : Thread nD τ) (ms0_3 t) fullShare ((dats m q 0 c).before 3 t d))
    ∗ (∃ d, owns (c : Thread nD τ) (ms0_4 t) fullShare ((dats m q 0 c).before 4 t d))
    ∗ (∃ d, owns (c : Thread nD τ) (ms0_5 t) fullShare ((dats m q 0 c).before 5 t d))
    ∗ (∃ d, owns (c : Thread nD τ) (ms0_6 t) fullShare ((dats m q 0 c).before 6 t d))
    ∗ (∃ d, owns (c : Thread nD τ) (ms0_7 t) fullShare ((dats m q 0 c).before 7 t d))
    ∗ (∃ d, owns (c : Thread nD τ) (ms0_8 t) fullShare ((dats m q 0 c).before 8 t d))
    ∗ (∃ d, owns (c : Thread nD τ) (ms0_9 t) fullShare ((dats m q 0 c).before 9 t d)))

/-- What it returns. -/
def bodyPost (c : Dev nD) (t : Fin cfg0.N) : sProp 𝕄 :=
  iprop((dats m q 0 c).Φ t.succ ∗ (dats m q 0 c).owesAt () t.succ
    ∗ (dats m q 0 c).leavesExact 0 t
    ∗ (dats m q 0 c).leavesExact 1 t
    ∗ (dats m q 0 c).leavesExact 2 t
    ∗ (dats m q 0 c).leavesExact 3 t
    ∗ (dats m q 0 c).leavesExact 4 t
    ∗ (dats m q 0 c).leavesExact 5 t
    ∗ (dats m q 0 c).leavesExact 6 t
    ∗ (dats m q 0 c).leavesExact 7 t
    ∗ (dats m q 0 c).leavesExact 8 t
    ∗ (dats m q 0 c).leavesExact 9 t)

set_option maxHeartbeats 8000000 in
/-- The body at any point.  Every input's buffer holds its block; the remainder of the point's number modulo 8 says
    which case applies; the invariant hands in the accumulators (at anything at the very first point, else at what the
    point before left) and takes them back at this point's contents; where k is not 7 the output's buffer goes back
    as found, at k = 7 it is stored whole. -/
theorem sound_body (c : Dev nD) (t : Fin cfg0.N) :
    bodyPre m q c t ⊢ wp frame (wpE (defs₀ (F := F)) Variants.none c none) Set.univ (bodyAt0 t) (fun _ => bodyPost m q c t) := by
  unfold bodyPre bodyPost bodyAt0
  simp only [before0_0, before0_1, before0_2, before0_3, before0_4, before0_5, before0_6, before0_7, before0_8]
  rw [show (dats m q 0 c).owesAt () t.succ = (dats m q 0 c).owesAt () t.castSucc from rfl]
  rw [show (dats m q 0 c).Φ t.succ = PhiS m c (t.val + 1) t.isLt from rfl, PhiS_succ]
  have hN : t.val < 64 := lt_of_lt_of_eq t.isLt (show cfg0.N = 64 from N_0)
  rw [show (dats m q 0 c).leavesExact 0 t = owns (c : Thread nD τ) (ms0_0 t) fullShare ((dats m q 0 c).after 0 t) from by
    unfold Dat.leavesExact; rw [liveAt0_0 t], after0_0]
  rw [show (dats m q 0 c).leavesExact 1 t = owns (c : Thread nD τ) (ms0_1 t) fullShare ((dats m q 0 c).after 1 t) from by
    unfold Dat.leavesExact; rw [liveAt0_1 t], after0_1]
  rw [show (dats m q 0 c).leavesExact 2 t = owns (c : Thread nD τ) (ms0_2 t) fullShare ((dats m q 0 c).after 2 t) from by
    unfold Dat.leavesExact; rw [liveAt0_2 t], after0_2]
  rw [show (dats m q 0 c).leavesExact 3 t = owns (c : Thread nD τ) (ms0_3 t) fullShare ((dats m q 0 c).after 3 t) from by
    unfold Dat.leavesExact; rw [liveAt0_3 t], after0_3]
  rw [show (dats m q 0 c).leavesExact 4 t = owns (c : Thread nD τ) (ms0_4 t) fullShare ((dats m q 0 c).after 4 t) from by
    unfold Dat.leavesExact; rw [liveAt0_4 t], after0_4]
  rw [show (dats m q 0 c).leavesExact 5 t = owns (c : Thread nD τ) (ms0_5 t) fullShare ((dats m q 0 c).after 5 t) from by
    unfold Dat.leavesExact; rw [liveAt0_5 t], after0_5]
  rw [show (dats m q 0 c).leavesExact 6 t = owns (c : Thread nD τ) (ms0_6 t) fullShare ((dats m q 0 c).after 6 t) from by
    unfold Dat.leavesExact; rw [liveAt0_6 t], after0_6]
  rw [show (dats m q 0 c).leavesExact 7 t = owns (c : Thread nD τ) (ms0_7 t) fullShare ((dats m q 0 c).after 7 t) from by
    unfold Dat.leavesExact; rw [liveAt0_7 t], after0_7]
  rw [show (dats m q 0 c).leavesExact 8 t = owns (c : Thread nD τ) (ms0_8 t) fullShare ((dats m q 0 c).after 8 t) from by
    unfold Dat.leavesExact; rw [liveAt0_8 t], after0_8]
  by_cases h0 : t.val % 8 = 0
  · have hn1 : ¬cond0_1 (grid0.coords t) := fun h => absurd ((hcond0_1 t).mp h) (by omega)
    rw [Dat.leavesExact_idle (dats m q 0 c) 9 t (idleAt0_9 t hn1) (noFlush0_9 t hn1)]
    rw [outsAt0_A m c t h0]
    unfold accA_0 accA_1 accA_2; (try dsimp only)
    by_cases hz : t.val = 0
    · rw [PhiS_castSucc m q c t, PhiS_zero m c _ _ hz, scopedRest_eq]
      iintro ⟨⟨HS0, HS1, HS2⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runA c t h0 (iblk m c 0 t) (iblk m c 1 t) (iblk m c 2 t) (iblk m c 3 t) (iblk m c 4 t) (iblk m c 5 t) (iblk m c 6 t) (iblk m c 7 t) (iblk m c 8 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      isplitl [HS2]; · iexact HS2
      iintro ⟨H0, H1, H2, H3, H4, H5, H6, H7, H8, H9, ⟨%es0, HS0⟩, ⟨%es1, HS1⟩, ⟨%es2, HS2⟩⟩
      isplitl [HS0 HS1 HS2]
      · isplitl [HS0]
        · unfold owns; iexists _; isplitr
          swap; · iexact HS0
          ipureintro; exact View.read_writes_of_cover _ _ _ _ _ (coverA_0 c t h0 _ _ _ _ _ _ _ _ _)
        isplitl [HS1]
        · unfold owns; iexists _; isplitr
          swap; · iexact HS1
          ipureintro; exact View.read_writes_of_cover _ _ _ _ _ (coverA_1 c t h0 _ _ _ _ _ _ _ _ _)
        · unfold owns; iexists _; isplitr
          swap; · iexact HS2
          ipureintro; exact View.read_writes_of_cover _ _ _ _ _ (coverA_2 c t h0 _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9
    · rw [PhiS_castSucc m q c t, PhiS_pos m c _ _ hz]
      iintro ⟨⟨HS0, HS1, HS2⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runA c t h0 (iblk m c 0 t) (iblk m c 1 t) (iblk m c 2 t) (iblk m c 3 t) (iblk m c 4 t) (iblk m c 5 t) (iblk m c 6 t) (iblk m c 7 t) (iblk m c 8 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexists _; iexact HS0
      isplitl [HS1]; · iexists _; iexact HS1
      isplitl [HS2]; · iexists _; iexact HS2
      iintro ⟨H0, H1, H2, H3, H4, H5, H6, H7, H8, H9, ⟨%es0, HS0⟩, ⟨%es1, HS1⟩, ⟨%es2, HS2⟩⟩
      isplitl [HS0 HS1 HS2]
      · isplitl [HS0]
        · unfold owns; iexists _; isplitr
          swap; · iexact HS0
          ipureintro; exact View.read_writes_of_cover _ _ _ _ _ (coverA_0 c t h0 _ _ _ _ _ _ _ _ _)
        isplitl [HS1]
        · unfold owns; iexists _; isplitr
          swap; · iexact HS1
          ipureintro; exact View.read_writes_of_cover _ _ _ _ _ (coverA_1 c t h0 _ _ _ _ _ _ _ _ _)
        · unfold owns; iexists _; isplitr
          swap; · iexact HS2
          ipureintro; exact View.read_writes_of_cover _ _ _ _ _ (coverA_2 c t h0 _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9
  · have hz : t.val ≠ 0 := fun h => h0 (by rw [h])
    by_cases h1 : t.val % 8 = 7
    · rw [show (dats m q 0 c).leavesExact 9 t = owns (c : Thread nD τ) (ms0_9 t) fullShare ((dats m q 0 c).after 9 t) from by
        unfold Dat.leavesExact; rw [liveAt0_9 t ((hcond0_1 t).mpr h1)], after0_9]
      rw [outsAt0_C m c t h1]
      unfold outC accC_0 accC_1 accC_2; (try dsimp only)
      rw [PhiS_castSucc m q c t, PhiS_pos m c _ _ hz]
      iintro ⟨⟨HS0, HS1, HS2⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runC c t h1 (iblk m c 0 t) (iblk m c 1 t) (iblk m c 2 t) (iblk m c 3 t) (iblk m c 4 t) (iblk m c 5 t) (iblk m c 6 t) (iblk m c 7 t) (iblk m c 8 t) _ _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS0]; · iexact HS0
      isplitl [HS1]; · iexact HS1
      isplitl [HS2]; · iexact HS2
      iintro ⟨H0, H1, H2, H3, H4, H5, H6, H7, H8, ⟨%e9, H9⟩, ⟨%es0, HS0⟩, ⟨%es1, HS1⟩, ⟨%es2, HS2⟩⟩
      isplitl [HS0 HS1 HS2]
      · isplitl [HS0]
        · unfold owns; iexists _; isplitr
          swap; · iexact HS0
          ipureintro; exact View.read_writes_of_cover _ _ _ _ _ (coverC_0 c t h1 _ _ _ _ _ _ _ _ _ _ _ _)
        isplitl [HS1]
        · unfold owns; iexists _; isplitr
          swap; · iexact HS1
          ipureintro; exact View.read_writes_of_cover _ _ _ _ _ (coverC_1 c t h1 _ _ _ _ _ _ _ _ _ _ _ _)
        · unfold owns; iexists _; isplitr
          swap; · iexact HS2
          ipureintro; exact View.read_writes_of_cover _ _ _ _ _ (coverC_2 c t h1 _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      unfold owns; iexists _; isplitr
      swap; · iexact H9
      ipureintro; exact View.read_writes_of_cover _ _ _ _ _ (coverC_out c t h1 _ _ _ _ _ _ _ _ _ _ _ _)
    · have hn1 : ¬cond0_1 (grid0.coords t) := fun h => h1 ((hcond0_1 t).mp h)
      rw [Dat.leavesExact_idle (dats m q 0 c) 9 t (idleAt0_9 t hn1) (noFlush0_9 t hn1)]
      rw [outsAt0_B m c t h0 h1]
      unfold accB_0 accB_1 accB_2; (try dsimp only)
      rw [PhiS_castSucc m q c t, PhiS_pos m c _ _ hz]
      iintro ⟨⟨HS0, HS1, HS2⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runB c t h0 h1 (iblk m c 0 t) (iblk m c 1 t) (iblk m c 2 t) (iblk m c 3 t) (iblk m c 4 t) (iblk m c 5 t) (iblk m c 6 t) (iblk m c 7 t) (iblk m c 8 t) _ _ _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      isplitl [HS2]; · iexact HS2
      iintro ⟨H0, H1, H2, H3, H4, H5, H6, H7, H8, H9, ⟨%es0, HS0⟩, ⟨%es1, HS1⟩, ⟨%es2, HS2⟩⟩
      isplitl [HS0 HS1 HS2]
      · isplitl [HS0]
        · unfold owns; iexists _; isplitr
          swap; · iexact HS0
          ipureintro; exact View.read_writes_of_cover _ _ _ _ _ (coverB_0 c t h0 h1 _ _ _ _ _ _ _ _ _ _ _ _)
        isplitl [HS1]
        · unfold owns; iexists _; isplitr
          swap; · iexact HS1
          ipureintro; exact View.read_writes_of_cover _ _ _ _ _ (coverB_1 c t h0 h1 _ _ _ _ _ _ _ _ _ _ _ _)
        · unfold owns; iexists _; isplitr
          swap; · iexact HS2
          ipureintro; exact View.read_writes_of_cover _ _ _ _ _ (coverB_2 c t h0 h1 _ _ _ _ _ _ _ _ _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9

/-- The library's body obligation, at every point. -/
theorem body_obligation (c : Dev nD) : BodyObligation (dats (F := F) m q 0 c) (defs₀ (F := F)) Variants.none () Set.univ := fun t => by
  rw [bigSep_W0, bigSep_W0]
  exact sound_body m q c t

/-- What the launch hands the region besides the windows is the invariant before the first point. -/
theorem hin (c : Dev nD) : (iprop(emp ∗ Pipeline.scopedRest spec0 c) : sProp 𝕄) ⊢ (dats m q 0 c).Φ 0 := by
  rw [show (dats m q 0 c).Φ 0 = PhiS m c 0 (Nat.zero_le _) from rfl, PhiS_zero m c 0 _ rfl]
  iintro ⟨-, H⟩; iexact H

/-- After the last point the invariant gives the accumulators back, their contents forgotten. -/
theorem hout (c : Dev nD) : (dats m q 0 c).Φ (Fin.last cfg0.N) ⊢ (iprop(emp ∗ Pipeline.scopedRest spec0 c) : sProp 𝕄) := by
  rw [show (dats m q 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), scopedRest_eq]
  iintro ⟨HS0, HS1, HS2⟩
  isplitr; · iempintro
  isplitl [HS0]; · iexists _; iexact HS0
  isplitl [HS1]; · iexists _; iexact HS1
  iexists _; iexact HS2

end Cert.KernelIdeal.Fr

end
-- ==== Proof.KI.Pieces.lean ====
/-
  What each case's stores leave, as the body's own arithmetic.

  An accumulator ends a point at one step of the tile product — the X tile times the hop tile added to what the
  accumulator held: the zero vector just stored where k = 0, else what the point before left.  At k = 7 the output's
  buffer ends at the epilogue's sum over the four branches, computed from the identity tile, the three accumulators
  as just updated, and the four slices of each weight array.
-/
import proofs.«154867_j70961449664572_1_alg».proof.Proof.KI.RunLast
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → ℕ) = fun _ => 0 := by funext a; fin_cases a <;> rfl

/-- The epilogue's result: from the identity tile x4, the three updated accumulators a0 a1 a2 and the weight arrays. -/
def outTerm (x4 a0 a1 a2 : Vec F S1024x64 .f32) (x5 : Vec F S4x64x128 .f32) (x6 : Vec F S4x128 .f32) (x7 : Vec F S4x128x64 .f32) (x8 : Vec F S4x64 .f32) : Vec F S1024x64 .f32 :=
  k0_pay1 a2
    (k0_pay4 (k0_pay2 x4 (View.ld x5 (Rect.unit ![0, 0, 0] ![1, 64, 128] inb_S4x64x128_S1x64x128_0_0_0)) (View.ld x6 (Rect.unit ![0, 0] ![1, 128] inb_S4x128_S1x128_0_0)) (View.ld x7 (Rect.unit ![0, 0, 0] ![1, 128, 64] inb_S4x128x64_S1x128x64_0_0_0)) (View.ld x8 (Rect.unit ![0, 0] ![1, 64] inb_S4x64_S1x64_0_0)))
      (k0_pay3 a0 (View.ld x5 (Rect.unit ![1, 0, 0] ![1, 64, 128] inb_S4x64x128_S1x64x128_1_0_0))) (View.ld x6 (Rect.unit ![1, 0] ![1, 128] inb_S4x128_S1x128_1_0)) (View.ld x7 (Rect.unit ![1, 0, 0] ![1, 128, 64] inb_S4x128x64_S1x128x64_1_0_0)) (View.ld x8 (Rect.unit ![1, 0] ![1, 64] inb_S4x64_S1x64_1_0)))
    (k0_pay5 a1 (View.ld x5 (Rect.unit ![2, 0, 0] ![1, 64, 128] inb_S4x64x128_S1x64x128_2_0_0)) (View.ld x6 (Rect.unit ![2, 0] ![1, 128] inb_S4x128_S1x128_2_0)) (View.ld x7 (Rect.unit ![2, 0, 0] ![1, 128, 64] inb_S4x128x64_S1x128x64_2_0_0)))
    (k0_pay6 (View.ld x8 (Rect.unit ![2, 0] ![1, 64] inb_S4x64_S1x64_2_0)))
    (View.ld x5 (Rect.unit ![3, 0, 0] ![1, 64, 128] inb_S4x64x128_S1x64x128_3_0_0)) (View.ld x6 (Rect.unit ![3, 0] ![1, 128] inb_S4x128_S1x128_3_0)) (View.ld x7 (Rect.unit ![3, 0, 0] ![1, 128, 64] inb_S4x128x64_S1x128x64_3_0_0)) (View.ld x8 (Rect.unit ![3, 0] ![1, 64] inb_S4x64_S1x64_3_0))

set_option maxHeartbeats 2000000 in
/-- First case, accumulator 0: cleared, then one step. -/
theorem pieceA_0 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S4x64x128 .f32) (harg7 : arg7.IsWhole) (arg8 : Memref sig .tc .vmem S4x128 .f32) (harg8 : arg8.IsWhole) (arg9 : Memref sig .tc .vmem S4x128x64 .f32) (harg9 : arg9.IsWhole) (arg10 : Memref sig .tc .vmem S4x64 .f32) (harg10 : arg10.IsWhole) (arg11 : Memref sig .tc .vmem S1024x64 .f32) (harg11 : arg11.IsWhole) (arg12 : Memref sig .tc .vmem S1024x64 .f32) (harg12 : arg12.IsWhole) (arg13 : Memref sig .tc .vmem S1024x64 .f32) (harg13 : arg13.IsWhole) (arg14 : Memref sig .tc .vmem S1024x64 .f32) (harg14 : arg14.IsWhole) (hc0 : cond0_0 i) (hc1 : ¬cond0_1 i)
    (x0 : Vec F S1024x1024 .f32) (x1 : Vec F S1024x1024 .f32) (x2 : Vec F S1024x1024 .f32) (x3 : Vec F S1024x64 .f32) (x4 : Vec F S1024x64 .f32) (x5 : Vec F S4x64x128 .f32) (x6 : Vec F S4x128 .f32) (x7 : Vec F S4x128x64 .f32) (x8 : Vec F S4x64 .f32) :
    VS0_0.read (Elt F) (VS0_0.writes (Elt F) VS0_0.junk (kernelRun0_A (F := F) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).1)
      = k0_pay11 x3 (k0_pay7 (F := F)) x0 := by
  rw [View.read_writes_eq_canon _ _ _ (fun y => View.cover_of_tiledL _ S1024x64.size (by sl_kernel_rfl) y)]
  unfold kernelRun0_A
  dsimp only
  sl_unfold_words
  rw [View.canon_cons_unit_zero (S := S1024x64) hz2]
  simp only [View.readAt_eq_ld, Memref.IsWhole.read_unread, View.ld_unit_zero (S := S1024x64) hz2, View.ld_unit_zero (S := S1024x1024) hz2, View.readCov_unit_zero (S := S1024x64) _ hz2]

set_option maxHeartbeats 2000000 in
/-- Middle case, accumulator 0: one step over what was handed in. -/
theorem pieceB_0 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S4x64x128 .f32) (harg7 : arg7.IsWhole) (arg8 : Memref sig .tc .vmem S4x128 .f32) (harg8 : arg8.IsWhole) (arg9 : Memref sig .tc .vmem S4x128x64 .f32) (harg9 : arg9.IsWhole) (arg10 : Memref sig .tc .vmem S4x64 .f32) (harg10 : arg10.IsWhole) (arg11 : Memref sig .tc .vmem S1024x64 .f32) (harg11 : arg11.IsWhole) (arg12 : Memref sig .tc .vmem S1024x64 .f32) (harg12 : arg12.IsWhole) (arg13 : Memref sig .tc .vmem S1024x64 .f32) (harg13 : arg13.IsWhole) (arg14 : Memref sig .tc .vmem S1024x64 .f32) (harg14 : arg14.IsWhole) (hc0 : ¬cond0_0 i) (hc1 : ¬cond0_1 i)
    (x0 : Vec F S1024x1024 .f32) (x1 : Vec F S1024x1024 .f32) (x2 : Vec F S1024x1024 .f32) (x3 : Vec F S1024x64 .f32) (x4 : Vec F S1024x64 .f32) (x5 : Vec F S4x64x128 .f32) (x6 : Vec F S4x128 .f32) (x7 : Vec F S4x128x64 .f32) (x8 : Vec F S4x64 .f32) (xs0 xs1 xs2 : Vec F S1024x64 .f32) :
    VS0_0.read (Elt F) (VS0_0.writes (Elt F) VS0_0.junk (kernelRun0_B (F := F) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).1)
      = k0_pay11 x3 xs0 x0 := by
  rw [View.read_writes_eq_canon _ _ _ (fun y => View.cover_of_tiledL _ S1024x64.size (by sl_kernel_rfl) y)]
  unfold kernelRun0_B
  dsimp only
  sl_unfold_words
  rw [View.canon_cons_unit_zero (S := S1024x64) hz2]
  simp only [View.readAt_eq_ld, Memref.IsWhole.read_unread, View.ld_unit_zero (S := S1024x64) hz2, View.ld_unit_zero (S := S1024x1024) hz2, View.readCov_unit_zero (S := S1024x64) _ hz2]

set_option maxHeartbeats 2000000 in
/-- Last case, accumulator 0: one step over what was handed in. -/
theorem pieceC_0 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S4x64x128 .f32) (harg7 : arg7.IsWhole) (arg8 : Memref sig .tc .vmem S4x128 .f32) (harg8 : arg8.IsWhole) (arg9 : Memref sig .tc .vmem S4x128x64 .f32) (harg9 : arg9.IsWhole) (arg10 : Memref sig .tc .vmem S4x64 .f32) (harg10 : arg10.IsWhole) (arg11 : Memref sig .tc .vmem S1024x64 .f32) (harg11 : arg11.IsWhole) (arg12 : Memref sig .tc .vmem S1024x64 .f32) (harg12 : arg12.IsWhole) (arg13 : Memref sig .tc .vmem S1024x64 .f32) (harg13 : arg13.IsWhole) (arg14 : Memref sig .tc .vmem S1024x64 .f32) (harg14 : arg14.IsWhole) (hc0 : ¬cond0_0 i) (hc1 : cond0_1 i)
    (x0 : Vec F S1024x1024 .f32) (x1 : Vec F S1024x1024 .f32) (x2 : Vec F S1024x1024 .f32) (x3 : Vec F S1024x64 .f32) (x4 : Vec F S1024x64 .f32) (x5 : Vec F S4x64x128 .f32) (x6 : Vec F S4x128 .f32) (x7 : Vec F S4x128x64 .f32) (x8 : Vec F S4x64 .f32) (xs0 xs1 xs2 : Vec F S1024x64 .f32) :
    VS0_0.read (Elt F) (VS0_0.writes (Elt F) VS0_0.junk (kernelRun0_C (F := F) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.1)
      = k0_pay11 x3 xs0 x0 := by
  rw [View.read_writes_eq_canon _ _ _ (fun y => View.cover_of_tiledL _ S1024x64.size (by sl_kernel_rfl) y)]
  unfold kernelRun0_C
  dsimp only
  sl_unfold_words
  rw [View.canon_cons_unit_zero (S := S1024x64) hz2]
  simp only [View.readAt_eq_ld, Memref.IsWhole.read_unread, View.ld_unit_zero (S := S1024x64) hz2, View.ld_unit_zero (S := S1024x1024) hz2, View.readCov_unit_zero (S := S1024x64) _ hz2]

set_option maxHeartbeats 2000000 in
/-- First case, accumulator 1: cleared, then one step. -/
theorem pieceA_1 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S4x64x128 .f32) (harg7 : arg7.IsWhole) (arg8 : Memref sig .tc .vmem S4x128 .f32) (harg8 : arg8.IsWhole) (arg9 : Memref sig .tc .vmem S4x128x64 .f32) (harg9 : arg9.IsWhole) (arg10 : Memref sig .tc .vmem S4x64 .f32) (harg10 : arg10.IsWhole) (arg11 : Memref sig .tc .vmem S1024x64 .f32) (harg11 : arg11.IsWhole) (arg12 : Memref sig .tc .vmem S1024x64 .f32) (harg12 : arg12.IsWhole) (arg13 : Memref sig .tc .vmem S1024x64 .f32) (harg13 : arg13.IsWhole) (arg14 : Memref sig .tc .vmem S1024x64 .f32) (harg14 : arg14.IsWhole) (hc0 : cond0_0 i) (hc1 : ¬cond0_1 i)
    (x0 : Vec F S1024x1024 .f32) (x1 : Vec F S1024x1024 .f32) (x2 : Vec F S1024x1024 .f32) (x3 : Vec F S1024x64 .f32) (x4 : Vec F S1024x64 .f32) (x5 : Vec F S4x64x128 .f32) (x6 : Vec F S4x128 .f32) (x7 : Vec F S4x128x64 .f32) (x8 : Vec F S4x64 .f32) :
    VS0_1.read (Elt F) (VS0_1.writes (Elt F) VS0_1.junk (kernelRun0_A (F := F) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.1)
      = k0_pay12 x3 (k0_pay8 (F := F)) x1 := by
  rw [View.read_writes_eq_canon _ _ _ (fun y => View.cover_of_tiledL _ S1024x64.size (by sl_kernel_rfl) y)]
  unfold kernelRun0_A
  dsimp only
  sl_unfold_words
  rw [View.canon_cons_unit_zero (S := S1024x64) hz2]
  simp only [View.readAt_eq_ld, Memref.IsWhole.read_unread, View.ld_unit_zero (S := S1024x64) hz2, View.ld_unit_zero (S := S1024x1024) hz2, View.readCov_unit_zero (S := S1024x64) _ hz2]

set_option maxHeartbeats 2000000 in
/-- Middle case, accumulator 1: one step over what was handed in. -/
theorem pieceB_1 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S4x64x128 .f32) (harg7 : arg7.IsWhole) (arg8 : Memref sig .tc .vmem S4x128 .f32) (harg8 : arg8.IsWhole) (arg9 : Memref sig .tc .vmem S4x128x64 .f32) (harg9 : arg9.IsWhole) (arg10 : Memref sig .tc .vmem S4x64 .f32) (harg10 : arg10.IsWhole) (arg11 : Memref sig .tc .vmem S1024x64 .f32) (harg11 : arg11.IsWhole) (arg12 : Memref sig .tc .vmem S1024x64 .f32) (harg12 : arg12.IsWhole) (arg13 : Memref sig .tc .vmem S1024x64 .f32) (harg13 : arg13.IsWhole) (arg14 : Memref sig .tc .vmem S1024x64 .f32) (harg14 : arg14.IsWhole) (hc0 : ¬cond0_0 i) (hc1 : ¬cond0_1 i)
    (x0 : Vec F S1024x1024 .f32) (x1 : Vec F S1024x1024 .f32) (x2 : Vec F S1024x1024 .f32) (x3 : Vec F S1024x64 .f32) (x4 : Vec F S1024x64 .f32) (x5 : Vec F S4x64x128 .f32) (x6 : Vec F S4x128 .f32) (x7 : Vec F S4x128x64 .f32) (x8 : Vec F S4x64 .f32) (xs0 xs1 xs2 : Vec F S1024x64 .f32) :
    VS0_1.read (Elt F) (VS0_1.writes (Elt F) VS0_1.junk (kernelRun0_B (F := F) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.1)
      = k0_pay12 x3 xs1 x1 := by
  rw [View.read_writes_eq_canon _ _ _ (fun y => View.cover_of_tiledL _ S1024x64.size (by sl_kernel_rfl) y)]
  unfold kernelRun0_B
  dsimp only
  sl_unfold_words
  rw [View.canon_cons_unit_zero (S := S1024x64) hz2]
  simp only [View.readAt_eq_ld, Memref.IsWhole.read_unread, View.ld_unit_zero (S := S1024x64) hz2, View.ld_unit_zero (S := S1024x1024) hz2, View.readCov_unit_zero (S := S1024x64) _ hz2]

set_option maxHeartbeats 2000000 in
/-- Last case, accumulator 1: one step over what was handed in. -/
theorem pieceC_1 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S4x64x128 .f32) (harg7 : arg7.IsWhole) (arg8 : Memref sig .tc .vmem S4x128 .f32) (harg8 : arg8.IsWhole) (arg9 : Memref sig .tc .vmem S4x128x64 .f32) (harg9 : arg9.IsWhole) (arg10 : Memref sig .tc .vmem S4x64 .f32) (harg10 : arg10.IsWhole) (arg11 : Memref sig .tc .vmem S1024x64 .f32) (harg11 : arg11.IsWhole) (arg12 : Memref sig .tc .vmem S1024x64 .f32) (harg12 : arg12.IsWhole) (arg13 : Memref sig .tc .vmem S1024x64 .f32) (harg13 : arg13.IsWhole) (arg14 : Memref sig .tc .vmem S1024x64 .f32) (harg14 : arg14.IsWhole) (hc0 : ¬cond0_0 i) (hc1 : cond0_1 i)
    (x0 : Vec F S1024x1024 .f32) (x1 : Vec F S1024x1024 .f32) (x2 : Vec F S1024x1024 .f32) (x3 : Vec F S1024x64 .f32) (x4 : Vec F S1024x64 .f32) (x5 : Vec F S4x64x128 .f32) (x6 : Vec F S4x128 .f32) (x7 : Vec F S4x128x64 .f32) (x8 : Vec F S4x64 .f32) (xs0 xs1 xs2 : Vec F S1024x64 .f32) :
    VS0_1.read (Elt F) (VS0_1.writes (Elt F) VS0_1.junk (kernelRun0_C (F := F) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.1)
      = k0_pay12 x3 xs1 x1 := by
  rw [View.read_writes_eq_canon _ _ _ (fun y => View.cover_of_tiledL _ S1024x64.size (by sl_kernel_rfl) y)]
  unfold kernelRun0_C
  dsimp only
  sl_unfold_words
  rw [View.canon_cons_unit_zero (S := S1024x64) hz2]
  simp only [View.readAt_eq_ld, Memref.IsWhole.read_unread, View.ld_unit_zero (S := S1024x64) hz2, View.ld_unit_zero (S := S1024x1024) hz2, View.readCov_unit_zero (S := S1024x64) _ hz2]

set_option maxHeartbeats 2000000 in
/-- First case, accumulator 2: cleared, then one step. -/
theorem pieceA_2 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S4x64x128 .f32) (harg7 : arg7.IsWhole) (arg8 : Memref sig .tc .vmem S4x128 .f32) (harg8 : arg8.IsWhole) (arg9 : Memref sig .tc .vmem S4x128x64 .f32) (harg9 : arg9.IsWhole) (arg10 : Memref sig .tc .vmem S4x64 .f32) (harg10 : arg10.IsWhole) (arg11 : Memref sig .tc .vmem S1024x64 .f32) (harg11 : arg11.IsWhole) (arg12 : Memref sig .tc .vmem S1024x64 .f32) (harg12 : arg12.IsWhole) (arg13 : Memref sig .tc .vmem S1024x64 .f32) (harg13 : arg13.IsWhole) (arg14 : Memref sig .tc .vmem S1024x64 .f32) (harg14 : arg14.IsWhole) (hc0 : cond0_0 i) (hc1 : ¬cond0_1 i)
    (x0 : Vec F S1024x1024 .f32) (x1 : Vec F S1024x1024 .f32) (x2 : Vec F S1024x1024 .f32) (x3 : Vec F S1024x64 .f32) (x4 : Vec F S1024x64 .f32) (x5 : Vec F S4x64x128 .f32) (x6 : Vec F S4x128 .f32) (x7 : Vec F S4x128x64 .f32) (x8 : Vec F S4x64 .f32) :
    VS0_2.read (Elt F) (VS0_2.writes (Elt F) VS0_2.junk (kernelRun0_A (F := F) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.1)
      = k0_pay13 x3 (k0_pay9 (F := F)) x2 := by
  rw [View.read_writes_eq_canon _ _ _ (fun y => View.cover_of_tiledL _ S1024x64.size (by sl_kernel_rfl) y)]
  unfold kernelRun0_A
  dsimp only
  sl_unfold_words
  rw [View.canon_cons_unit_zero (S := S1024x64) hz2]
  simp only [View.readAt_eq_ld, Memref.IsWhole.read_unread, View.ld_unit_zero (S := S1024x64) hz2, View.ld_unit_zero (S := S1024x1024) hz2, View.readCov_unit_zero (S := S1024x64) _ hz2]

set_option maxHeartbeats 2000000 in
/-- Middle case, accumulator 2: one step over what was handed in. -/
theorem pieceB_2 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S4x64x128 .f32) (harg7 : arg7.IsWhole) (arg8 : Memref sig .tc .vmem S4x128 .f32) (harg8 : arg8.IsWhole) (arg9 : Memref sig .tc .vmem S4x128x64 .f32) (harg9 : arg9.IsWhole) (arg10 : Memref sig .tc .vmem S4x64 .f32) (harg10 : arg10.IsWhole) (arg11 : Memref sig .tc .vmem S1024x64 .f32) (harg11 : arg11.IsWhole) (arg12 : Memref sig .tc .vmem S1024x64 .f32) (harg12 : arg12.IsWhole) (arg13 : Memref sig .tc .vmem S1024x64 .f32) (harg13 : arg13.IsWhole) (arg14 : Memref sig .tc .vmem S1024x64 .f32) (harg14 : arg14.IsWhole) (hc0 : ¬cond0_0 i) (hc1 : ¬cond0_1 i)
    (x0 : Vec F S1024x1024 .f32) (x1 : Vec F S1024x1024 .f32) (x2 : Vec F S1024x1024 .f32) (x3 : Vec F S1024x64 .f32) (x4 : Vec F S1024x64 .f32) (x5 : Vec F S4x64x128 .f32) (x6 : Vec F S4x128 .f32) (x7 : Vec F S4x128x64 .f32) (x8 : Vec F S4x64 .f32) (xs0 xs1 xs2 : Vec F S1024x64 .f32) :
    VS0_2.read (Elt F) (VS0_2.writes (Elt F) VS0_2.junk (kernelRun0_B (F := F) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.1)
      = k0_pay13 x3 xs2 x2 := by
  rw [View.read_writes_eq_canon _ _ _ (fun y => View.cover_of_tiledL _ S1024x64.size (by sl_kernel_rfl) y)]
  unfold kernelRun0_B
  dsimp only
  sl_unfold_words
  rw [View.canon_cons_unit_zero (S := S1024x64) hz2]
  simp only [View.readAt_eq_ld, Memref.IsWhole.read_unread, View.ld_unit_zero (S := S1024x64) hz2, View.ld_unit_zero (S := S1024x1024) hz2, View.readCov_unit_zero (S := S1024x64) _ hz2]

set_option maxHeartbeats 2000000 in
/-- Last case, accumulator 2: one step over what was handed in. -/
theorem pieceC_2 (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S4x64x128 .f32) (harg7 : arg7.IsWhole) (arg8 : Memref sig .tc .vmem S4x128 .f32) (harg8 : arg8.IsWhole) (arg9 : Memref sig .tc .vmem S4x128x64 .f32) (harg9 : arg9.IsWhole) (arg10 : Memref sig .tc .vmem S4x64 .f32) (harg10 : arg10.IsWhole) (arg11 : Memref sig .tc .vmem S1024x64 .f32) (harg11 : arg11.IsWhole) (arg12 : Memref sig .tc .vmem S1024x64 .f32) (harg12 : arg12.IsWhole) (arg13 : Memref sig .tc .vmem S1024x64 .f32) (harg13 : arg13.IsWhole) (arg14 : Memref sig .tc .vmem S1024x64 .f32) (harg14 : arg14.IsWhole) (hc0 : ¬cond0_0 i) (hc1 : cond0_1 i)
    (x0 : Vec F S1024x1024 .f32) (x1 : Vec F S1024x1024 .f32) (x2 : Vec F S1024x1024 .f32) (x3 : Vec F S1024x64 .f32) (x4 : Vec F S1024x64 .f32) (x5 : Vec F S4x64x128 .f32) (x6 : Vec F S4x128 .f32) (x7 : Vec F S4x128x64 .f32) (x8 : Vec F S4x64 .f32) (xs0 xs1 xs2 : Vec F S1024x64 .f32) :
    VS0_2.read (Elt F) (VS0_2.writes (Elt F) VS0_2.junk (kernelRun0_C (F := F) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.2.1)
      = k0_pay13 x3 xs2 x2 := by
  rw [View.read_writes_eq_canon _ _ _ (fun y => View.cover_of_tiledL _ S1024x64.size (by sl_kernel_rfl) y)]
  unfold kernelRun0_C
  dsimp only
  sl_unfold_words
  rw [View.canon_cons_unit_zero (S := S1024x64) hz2]
  simp only [View.readAt_eq_ld, Memref.IsWhole.read_unread, View.ld_unit_zero (S := S1024x64) hz2, View.ld_unit_zero (S := S1024x1024) hz2, View.readCov_unit_zero (S := S1024x64) _ hz2]

set_option maxHeartbeats 2000000 in
/-- Last case, the output's buffer: the epilogue over the accumulators as this point has just updated them. -/
theorem pieceC_out (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x64 .f32) (harg5 : arg5.IsWhole) (arg6 : Memref sig .tc .vmem S1024x64 .f32) (harg6 : arg6.IsWhole) (arg7 : Memref sig .tc .vmem S4x64x128 .f32) (harg7 : arg7.IsWhole) (arg8 : Memref sig .tc .vmem S4x128 .f32) (harg8 : arg8.IsWhole) (arg9 : Memref sig .tc .vmem S4x128x64 .f32) (harg9 : arg9.IsWhole) (arg10 : Memref sig .tc .vmem S4x64 .f32) (harg10 : arg10.IsWhole) (arg11 : Memref sig .tc .vmem S1024x64 .f32) (harg11 : arg11.IsWhole) (arg12 : Memref sig .tc .vmem S1024x64 .f32) (harg12 : arg12.IsWhole) (arg13 : Memref sig .tc .vmem S1024x64 .f32) (harg13 : arg13.IsWhole) (arg14 : Memref sig .tc .vmem S1024x64 .f32) (harg14 : arg14.IsWhole) (hc0 : ¬cond0_0 i) (hc1 : cond0_1 i)
    (x0 : Vec F S1024x1024 .f32) (x1 : Vec F S1024x1024 .f32) (x2 : Vec F S1024x1024 .f32) (x3 : Vec F S1024x64 .f32) (x4 : Vec F S1024x64 .f32) (x5 : Vec F S4x64x128 .f32) (x6 : Vec F S4x128 .f32) (x7 : Vec F S4x128x64 .f32) (x8 : Vec F S4x64 .f32) (xs0 xs1 xs2 : Vec F S1024x64 .f32) :
    VO0_9.read (Elt F) (VO0_9.writes (Elt F) VO0_9.junk (kernelRun0_C (F := F) c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).1)
      = outTerm x4 (k0_pay11 x3 xs0 x0) (k0_pay12 x3 xs1 x1) (k0_pay13 x3 xs2 x2) x5 x6 x7 x8 := by
  unfold outTerm
  rw [View.read_writes_eq_canon _ _ _ (fun y => View.cover_of_tiledL _ S1024x64.size (by sl_kernel_rfl) y)]
  unfold kernelRun0_C
  dsimp only
  sl_unfold_words
  rw [View.canon_cons_unit_zero (S := S1024x64) hz2]
  simp only [View.readAt_eq_ld, Memref.IsWhole.read_unread, View.ld_unit_zero (S := S1024x64) hz2, View.ld_unit_zero (S := S1024x1024) hz2, View.readCov_unit_zero (S := S1024x64) _ hz2]

end Cert.KernelIdeal.Fr

end
-- ==== Proof.KI.Contents.lean ====
/-
  The buffers' contents after each point, as a plain recursion over the body's arithmetic.

  Accumulator j after point t is one step — the X tile times the j-th hop tile, added — over the zero vector where
  k = 0 and over what the point before left otherwise; at k = 7 the output's buffer holds the epilogue over the
  identity tile, this point's accumulators and the weights.
-/
import proofs.«154867_j70961449664572_1_alg».proof.Proof.KI.Data
import proofs.«154867_j70961449664572_1_alg».proof.Proof.KI.Pieces

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Accumulator 0 after a point with k = 0. -/
theorem acc0_first (c : Dev nD) (t : Fin cfg0.N) (h0 : t.val % 8 = 0) :
    (outsAt0 m c t.val t.isLt).2.1 = k0_pay11 (iblk m c 3 t) (k0_pay7 (F := F)) (iblk m c 0 t) := by
  rw [outsAt0_A m c t h0]; dsimp only; unfold accA_0
  exact pieceA_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => absurd ((hcond0_1 t).mp h) (by omega)) (iblk m c 0 t) (iblk m c 1 t) (iblk m c 2 t) (iblk m c 3 t) (iblk m c 4 t) (iblk m c 5 t) (iblk m c 6 t) (iblk m c 7 t) (iblk m c 8 t)

/-- Accumulator 0 after a point with 0 < k < 7. -/
theorem acc0_mid (c : Dev nD) (t : Fin cfg0.N) (h0 : ¬t.val % 8 = 0) (h1 : ¬t.val % 8 = 7) :
    (outsAt0 m c t.val t.isLt).2.1 = k0_pay11 (iblk m c 3 t) (prevAt m c t).2.1 (iblk m c 0 t) := by
  rw [outsAt0_B m c t h0 h1]; dsimp only; unfold accB_0
  exact pieceB_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (prevAt m c t).2.1 (prevAt m c t).2.2.1 (prevAt m c t).2.2.2

/-- Accumulator 0 after a point with k = 7. -/
theorem acc0_last (c : Dev nD) (t : Fin cfg0.N) (h1 : t.val % 8 = 7) :
    (outsAt0 m c t.val t.isLt).2.1 = k0_pay11 (iblk m c 3 t) (prevAt m c t).2.1 (iblk m c 0 t) := by
  rw [outsAt0_C m c t h1]; dsimp only; unfold accC_0
  exact pieceC_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => absurd ((hcond0_0 t).mp h) (by omega)) ((hcond0_1 t).mpr h1) (iblk m c 0 t) (iblk m c 1 t) (iblk m c 2 t) (iblk m c 3 t) (iblk m c 4 t) (iblk m c 5 t) (iblk m c 6 t) (iblk m c 7 t) (iblk m c 8 t) (prevAt m c t).2.1 (prevAt m c t).2.2.1 (prevAt m c t).2.2.2

/-- Accumulator 0 after any point but those with k = 0: one step over what the point before left. -/
theorem acc0_step (c : Dev nD) (t : Fin cfg0.N) (h0 : ¬t.val % 8 = 0) :
    (outsAt0 m c t.val t.isLt).2.1 = k0_pay11 (iblk m c 3 t) (prevAt m c t).2.1 (iblk m c 0 t) := by
  by_cases h1 : t.val % 8 = 7
  · exact acc0_last m c t h1
  · exact acc0_mid m c t h0 h1

/-- Accumulator 1 after a point with k = 0. -/
theorem acc1_first (c : Dev nD) (t : Fin cfg0.N) (h0 : t.val % 8 = 0) :
    (outsAt0 m c t.val t.isLt).2.2.1 = k0_pay12 (iblk m c 3 t) (k0_pay8 (F := F)) (iblk m c 1 t) := by
  rw [outsAt0_A m c t h0]; dsimp only; unfold accA_1
  exact pieceA_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => absurd ((hcond0_1 t).mp h) (by omega)) (iblk m c 0 t) (iblk m c 1 t) (iblk m c 2 t) (iblk m c 3 t) (iblk m c 4 t) (iblk m c 5 t) (iblk m c 6 t) (iblk m c 7 t) (iblk m c 8 t)

/-- Accumulator 1 after a point with 0 < k < 7. -/
theorem acc1_mid (c : Dev nD) (t : Fin cfg0.N) (h0 : ¬t.val % 8 = 0) (h1 : ¬t.val % 8 = 7) :
    (outsAt0 m c t.val t.isLt).2.2.1 = k0_pay12 (iblk m c 3 t) (prevAt m c t).2.2.1 (iblk m c 1 t) := by
  rw [outsAt0_B m c t h0 h1]; dsimp only; unfold accB_1
  exact pieceB_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (prevAt m c t).2.1 (prevAt m c t).2.2.1 (prevAt m c t).2.2.2

/-- Accumulator 1 after a point with k = 7. -/
theorem acc1_last (c : Dev nD) (t : Fin cfg0.N) (h1 : t.val % 8 = 7) :
    (outsAt0 m c t.val t.isLt).2.2.1 = k0_pay12 (iblk m c 3 t) (prevAt m c t).2.2.1 (iblk m c 1 t) := by
  rw [outsAt0_C m c t h1]; dsimp only; unfold accC_1
  exact pieceC_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => absurd ((hcond0_0 t).mp h) (by omega)) ((hcond0_1 t).mpr h1) (iblk m c 0 t) (iblk m c 1 t) (iblk m c 2 t) (iblk m c 3 t) (iblk m c 4 t) (iblk m c 5 t) (iblk m c 6 t) (iblk m c 7 t) (iblk m c 8 t) (prevAt m c t).2.1 (prevAt m c t).2.2.1 (prevAt m c t).2.2.2

/-- Accumulator 1 after any point but those with k = 0: one step over what the point before left. -/
theorem acc1_step (c : Dev nD) (t : Fin cfg0.N) (h0 : ¬t.val % 8 = 0) :
    (outsAt0 m c t.val t.isLt).2.2.1 = k0_pay12 (iblk m c 3 t) (prevAt m c t).2.2.1 (iblk m c 1 t) := by
  by_cases h1 : t.val % 8 = 7
  · exact acc1_last m c t h1
  · exact acc1_mid m c t h0 h1

/-- Accumulator 2 after a point with k = 0. -/
theorem acc2_first (c : Dev nD) (t : Fin cfg0.N) (h0 : t.val % 8 = 0) :
    (outsAt0 m c t.val t.isLt).2.2.2 = k0_pay13 (iblk m c 3 t) (k0_pay9 (F := F)) (iblk m c 2 t) := by
  rw [outsAt0_A m c t h0]; dsimp only; unfold accA_2
  exact pieceA_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => absurd ((hcond0_1 t).mp h) (by omega)) (iblk m c 0 t) (iblk m c 1 t) (iblk m c 2 t) (iblk m c 3 t) (iblk m c 4 t) (iblk m c 5 t) (iblk m c 6 t) (iblk m c 7 t) (iblk m c 8 t)

/-- Accumulator 2 after a point with 0 < k < 7. -/
theorem acc2_mid (c : Dev nD) (t : Fin cfg0.N) (h0 : ¬t.val % 8 = 0) (h1 : ¬t.val % 8 = 7) :
    (outsAt0 m c t.val t.isLt).2.2.2 = k0_pay13 (iblk m c 3 t) (prevAt m c t).2.2.2 (iblk m c 2 t) := by
  rw [outsAt0_B m c t h0 h1]; dsimp only; unfold accB_2
  exact pieceB_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (prevAt m c t).2.1 (prevAt m c t).2.2.1 (prevAt m c t).2.2.2

/-- Accumulator 2 after a point with k = 7. -/
theorem acc2_last (c : Dev nD) (t : Fin cfg0.N) (h1 : t.val % 8 = 7) :
    (outsAt0 m c t.val t.isLt).2.2.2 = k0_pay13 (iblk m c 3 t) (prevAt m c t).2.2.2 (iblk m c 2 t) := by
  rw [outsAt0_C m c t h1]; dsimp only; unfold accC_2
  exact pieceC_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => absurd ((hcond0_0 t).mp h) (by omega)) ((hcond0_1 t).mpr h1) (iblk m c 0 t) (iblk m c 1 t) (iblk m c 2 t) (iblk m c 3 t) (iblk m c 4 t) (iblk m c 5 t) (iblk m c 6 t) (iblk m c 7 t) (iblk m c 8 t) (prevAt m c t).2.1 (prevAt m c t).2.2.1 (prevAt m c t).2.2.2

/-- Accumulator 2 after any point but those with k = 0: one step over what the point before left. -/
theorem acc2_step (c : Dev nD) (t : Fin cfg0.N) (h0 : ¬t.val % 8 = 0) :
    (outsAt0 m c t.val t.isLt).2.2.2 = k0_pay13 (iblk m c 3 t) (prevAt m c t).2.2.2 (iblk m c 2 t) := by
  by_cases h1 : t.val % 8 = 7
  · exact acc2_last m c t h1
  · exact acc2_mid m c t h0 h1

/-- The output's buffer after a point with k = 7: the epilogue over this point's accumulators. -/
theorem out_last (c : Dev nD) (t : Fin cfg0.N) (h1 : t.val % 8 = 7) :
    (outsAt0 m c t.val t.isLt).1
      = outTerm (iblk m c 4 t) (outsAt0 m c t.val t.isLt).2.1 (outsAt0 m c t.val t.isLt).2.2.1 (outsAt0 m c t.val t.isLt).2.2.2
          (iblk m c 5 t) (iblk m c 6 t) (iblk m c 7 t) (iblk m c 8 t) := by
  rw [acc0_last m c t h1, acc1_last m c t h1, acc2_last m c t h1]
  rw [outsAt0_C m c t h1]; dsimp only; unfold outC
  exact pieceC_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => absurd ((hcond0_0 t).mp h) (by omega)) ((hcond0_1 t).mpr h1) (iblk m c 0 t) (iblk m c 1 t) (iblk m c 2 t) (iblk m c 3 t) (iblk m c 4 t) (iblk m c 5 t) (iblk m c 6 t) (iblk m c 7 t) (iblk m c 8 t) (prevAt m c t).2.1 (prevAt m c t).2.2.1 (prevAt m c t).2.2.2

end Cert.KernelIdeal.Fr

end
-- ==== Proof.KI.BlockReads.lean ====
/-
  What each input window's block holds, read at an index of the array it is cut from, and the slices of the four
  weight arrays the body loads.

  A block's coordinate on an axis is its block index times the block's extent plus the coordinate inside the block.
  At point t = 8 i + k the three hop matrices' blocks are the (i, k) tiles, the node-feature matrix is read through
  its k-th tile of 1024 rows (window 3) and its i-th tile (window 4), and the weight arrays are held whole.
-/
import proofs.«154867_j70961449664572_1_alg».proof.Proof.KI.Base
import Idealize.ShloMosaic.Lib.ValueIdx
import Idealize.ShloMosaic.Lib.Pipeline.Value
import Idealize.ShloMosaic.Lib.StableHlo.Run

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

variable {F : FTy → Type} [FloatOps F]

variable (m : (ℓ : Loc nD τ sig) → Buf (Elt F) ℓ)

/-- The grid has 64 points. -/
theorem pt_lt (t : Fin cfg0.N) : t.val < 64 := lt_of_lt_of_eq t.isLt N_0

/-! ## The index maps -/

/-- The printed index maps, decided over the grid: at point t the hop windows sit at block (t / 8, t % 8), the two
    feature windows at blocks (t % 8, 0) and (t / 8, 0), the weight windows at block 0 on every axis. -/
theorem idx_facts : ∀ t : Fin cfg0.N,
      win0_0.index t (0 : Fin 2) = t.val / 8 ∧ win0_0.index t (1 : Fin 2) = t.val % 8
    ∧ win0_1.index t (0 : Fin 2) = t.val / 8 ∧ win0_1.index t (1 : Fin 2) = t.val % 8
    ∧ win0_2.index t (0 : Fin 2) = t.val / 8 ∧ win0_2.index t (1 : Fin 2) = t.val % 8
    ∧ win0_3.index t (0 : Fin 2) = t.val % 8 ∧ win0_3.index t (1 : Fin 2) = 0
    ∧ win0_4.index t (0 : Fin 2) = t.val / 8 ∧ win0_4.index t (1 : Fin 2) = 0
    ∧ win0_5.index t (0 : Fin 3) = 0 ∧ win0_5.index t (1 : Fin 3) = 0 ∧ win0_5.index t (2 : Fin 3) = 0
    ∧ win0_6.index t (0 : Fin 2) = 0 ∧ win0_6.index t (1 : Fin 2) = 0
    ∧ win0_7.index t (0 : Fin 3) = 0 ∧ win0_7.index t (1 : Fin 3) = 0 ∧ win0_7.index t (2 : Fin 3) = 0
    ∧ win0_8.index t (0 : Fin 2) = 0 ∧ win0_8.index t (1 : Fin 2) = 0 :=
  (by decide +kernel : ∀ t : Fin grid0.N, _)

/-! ## The blocks, read at an index -/

/-- Hop window 0's block at point t is the (t / 8, t % 8) tile of its matrix. -/
theorem hop_read0 (c : Dev nD) (t : Fin cfg0.N) (r l : Fin 1024) :
    iblk m c 0 t (ix2 r l) = V m c main_arg2 (ix2 ⟨1024 * (t.val / 8) + r.val, by have := pt_lt t; omega⟩ ⟨1024 * (t.val % 8) + l.val, by omega⟩) := by
  have e := idx_facts t
  show V m c main_arg2 (((cfg0.win 0).blk t).view.emb (ix2 r l)) = V m c main_arg2 _
  congr 1
  funext a; apply Fin.ext
  match a with
  | ⟨0, _⟩ => show win0_0.index t (0 : Fin 2) * 1024 + 1 * r.val = 1024 * (t.val / 8) + r.val; omega
  | ⟨1, _⟩ => show win0_0.index t (1 : Fin 2) * 1024 + 1 * l.val = 1024 * (t.val % 8) + l.val; omega

/-- Hop window 1's block at point t is the (t / 8, t % 8) tile of its matrix. -/
theorem hop_read1 (c : Dev nD) (t : Fin cfg0.N) (r l : Fin 1024) :
    iblk m c 1 t (ix2 r l) = V m c main_arg3 (ix2 ⟨1024 * (t.val / 8) + r.val, by have := pt_lt t; omega⟩ ⟨1024 * (t.val % 8) + l.val, by omega⟩) := by
  have e := idx_facts t
  show V m c main_arg3 (((cfg0.win 1).blk t).view.emb (ix2 r l)) = V m c main_arg3 _
  congr 1
  funext a; apply Fin.ext
  match a with
  | ⟨0, _⟩ => show win0_1.index t (0 : Fin 2) * 1024 + 1 * r.val = 1024 * (t.val / 8) + r.val; omega
  | ⟨1, _⟩ => show win0_1.index t (1 : Fin 2) * 1024 + 1 * l.val = 1024 * (t.val % 8) + l.val; omega

/-- Hop window 2's block at point t is the (t / 8, t % 8) tile of its matrix. -/
theorem hop_read2 (c : Dev nD) (t : Fin cfg0.N) (r l : Fin 1024) :
    iblk m c 2 t (ix2 r l) = V m c main_arg4 (ix2 ⟨1024 * (t.val / 8) + r.val, by have := pt_lt t; omega⟩ ⟨1024 * (t.val % 8) + l.val, by omega⟩) := by
  have e := idx_facts t
  show V m c main_arg4 (((cfg0.win 2).blk t).view.emb (ix2 r l)) = V m c main_arg4 _
  congr 1
  funext a; apply Fin.ext
  match a with
  | ⟨0, _⟩ => show win0_2.index t (0 : Fin 2) * 1024 + 1 * r.val = 1024 * (t.val / 8) + r.val; omega
  | ⟨1, _⟩ => show win0_2.index t (1 : Fin 2) * 1024 + 1 * l.val = 1024 * (t.val % 8) + l.val; omega

/-- Window 3's block at point t is the (t % 8)-th tile of 1024 rows of the node-feature matrix. -/
theorem xk_read (c : Dev nD) (t : Fin cfg0.N) (l : Fin 1024) (f : Fin 64) :
    iblk m c 3 t (ix2 l f) = V m c main_v0 (ix2 ⟨1024 * (t.val % 8) + l.val, by omega⟩ f) := by
  have e := idx_facts t
  show V m c main_v0 (((cfg0.win 3).blk t).view.emb (ix2 l f)) = V m c main_v0 _
  congr 1
  funext a; apply Fin.ext
  match a with
  | ⟨0, _⟩ => show win0_3.index t (0 : Fin 2) * 1024 + 1 * l.val = 1024 * (t.val % 8) + l.val; omega
  | ⟨1, _⟩ => show win0_3.index t (1 : Fin 2) * 64 + 1 * f.val = f.val; omega

/-- Window 4's block at point t is the (t / 8)-th tile of 1024 rows of the node-feature matrix. -/
theorem xm_read (c : Dev nD) (t : Fin cfg0.N) (r : Fin 1024) (f : Fin 64) :
    iblk m c 4 t (ix2 r f) = V m c main_v0 (ix2 ⟨1024 * (t.val / 8) + r.val, by have := pt_lt t; omega⟩ f) := by
  have e := idx_facts t
  show V m c main_v0 (((cfg0.win 4).blk t).view.emb (ix2 r f)) = V m c main_v0 _
  congr 1
  funext a; apply Fin.ext
  match a with
  | ⟨0, _⟩ => show win0_4.index t (0 : Fin 2) * 1024 + 1 * r.val = 1024 * (t.val / 8) + r.val; omega
  | ⟨1, _⟩ => show win0_4.index t (1 : Fin 2) * 64 + 1 * f.val = f.val; omega

/-- Window 5's block is the whole array of first-layer weights. -/
theorem w1_read (c : Dev nD) (t : Fin cfg0.N) (b : Fin 4) (f : Fin 64) (h : Fin 128) :
    iblk m c 5 t (ix3 b f h) = V m c main_arg5 (ix3 b f h) := by
  have e := idx_facts t
  show V m c main_arg5 (((cfg0.win 5).blk t).view.emb (ix3 b f h)) = V m c main_arg5 _
  congr 1
  funext a; apply Fin.ext
  match a with
  | ⟨0, _⟩ => show win0_5.index t (0 : Fin 3) * 4 + 1 * b.val = b.val; omega
  | ⟨1, _⟩ => show win0_5.index t (1 : Fin 3) * 64 + 1 * f.val = f.val; omega
  | ⟨2, _⟩ => show win0_5.index t (2 : Fin 3) * 128 + 1 * h.val = h.val; omega

/-- Window 6's block is the whole array of first-layer biases. -/
theorem b1_read (c : Dev nD) (t : Fin cfg0.N) (b : Fin 4) (h : Fin 128) :
    iblk m c 6 t (ix2 b h) = V m c main_arg6 (ix2 b h) := by
  have e := idx_facts t
  show V m c main_arg6 (((cfg0.win 6).blk t).view.emb (ix2 b h)) = V m c main_arg6 _
  congr 1
  funext a; apply Fin.ext
  match a with
  | ⟨0, _⟩ => show win0_6.index t (0 : Fin 2) * 4 + 1 * b.val = b.val; omega
  | ⟨1, _⟩ => show win0_6.index t (1 : Fin 2) * 128 + 1 * h.val = h.val; omega

/-- Window 7's block is the whole array of second-layer weights. -/
theorem w2_read (c : Dev nD) (t : Fin cfg0.N) (b : Fin 4) (h : Fin 128) (o : Fin 64) :
    iblk m c 7 t (ix3 b h o) = V m c main_arg7 (ix3 b h o) := by
  have e := idx_facts t
  show V m c main_arg7 (((cfg0.win 7).blk t).view.emb (ix3 b h o)) = V m c main_arg7 _
  congr 1
  funext a; apply Fin.ext
  match a with
  | ⟨0, _⟩ => show win0_7.index t (0 : Fin 3) * 4 + 1 * b.val = b.val; omega
  | ⟨1, _⟩ => show win0_7.index t (1 : Fin 3) * 128 + 1 * h.val = h.val; omega
  | ⟨2, _⟩ => show win0_7.index t (2 : Fin 3) * 64 + 1 * o.val = o.val; omega

/-- Window 8's block is the whole array of second-layer biases. -/
theorem b2_read (c : Dev nD) (t : Fin cfg0.N) (b : Fin 4) (o : Fin 64) :
    iblk m c 8 t (ix2 b o) = V m c main_arg8 (ix2 b o) := by
  have e := idx_facts t
  show V m c main_arg8 (((cfg0.win 8).blk t).view.emb (ix2 b o)) = V m c main_arg8 _
  congr 1
  funext a; apply Fin.ext
  match a with
  | ⟨0, _⟩ => show win0_8.index t (0 : Fin 2) * 4 + 1 * b.val = b.val; omega
  | ⟨1, _⟩ => show win0_8.index t (1 : Fin 2) * 64 + 1 * o.val = o.val; omega

/-! ## The weight slices the body loads -/

/-- Branch 0's first-layer weights: the slice at offset 0 of the leading axis. -/
theorem w1_slice_0 (x5 : Vec F S4x64x128 .f32) (f : Fin 64) (h : Fin 128) :
    View.ld x5 (Rect.unit ![0, 0, 0] ![1, 64, 128] inb_S4x64x128_S1x64x128_0_0_0) (ix3 0 f h) = x5 (ix3 0 f h) := by
  show x5 _ = x5 _
  congr 1
  funext a; apply Fin.ext
  match a with
  | ⟨0, _⟩ => rfl
  | ⟨1, _⟩ => show 0 + 1 * f.val = f.val; omega
  | ⟨2, _⟩ => show 0 + 1 * h.val = h.val; omega

/-- Branch 0's first-layer bias: the slice at offset 0 of the leading axis. -/
theorem b1_slice_0 (x6 : Vec F S4x128 .f32) (h : Fin 128) :
    View.ld x6 (Rect.unit ![0, 0] ![1, 128] inb_S4x128_S1x128_0_0) (ix2 0 h) = x6 (ix2 0 h) := by
  show x6 _ = x6 _
  congr 1
  funext a; apply Fin.ext
  match a with
  | ⟨0, _⟩ => rfl
  | ⟨1, _⟩ => show 0 + 1 * h.val = h.val; omega

/-- Branch 0's second-layer weights: the slice at offset 0 of the leading axis. -/
theorem w2_slice_0 (x7 : Vec F S4x128x64 .f32) (h : Fin 128) (o : Fin 64) :
    View.ld x7 (Rect.unit ![0, 0, 0] ![1, 128, 64] inb_S4x128x64_S1x128x64_0_0_0) (ix3 0 h o) = x7 (ix3 0 h o) := by
  show x7 _ = x7 _
  congr 1
  funext a; apply Fin.ext
  match a with
  | ⟨0, _⟩ => rfl
  | ⟨1, _⟩ => show 0 + 1 * h.val = h.val; omega
  | ⟨2, _⟩ => show 0 + 1 * o.val = o.val; omega

/-- Branch 0's second-layer bias: the slice at offset 0 of the leading axis. -/
theorem b2_slice_0 (x8 : Vec F S4x64 .f32) (o : Fin 64) :
    View.ld x8 (Rect.unit ![0, 0] ![1, 64] inb_S4x64_S1x64_0_0) (ix2 0 o) = x8 (ix2 0 o) := by
  show x8 _ = x8 _
  congr 1
  funext a; apply Fin.ext
  match a with
  | ⟨0, _⟩ => rfl
  | ⟨1, _⟩ => show 0 + 1 * o.val = o.val; omega

/-- Branch 1's first-layer weights: the slice at offset 1 of the leading axis. -/
theorem w1_slice_1 (x5 : Vec F S4x64x128 .f32) (f : Fin 64) (h : Fin 128) :
    View.ld x5 (Rect.unit ![1, 0, 0] ![1, 64, 128] inb_S4x64x128_S1x64x128_1_0_0) (ix3 0 f h) = x5 (ix3 1 f h) := by
  show x5 _ = x5 _
  congr 1
  funext a; apply Fin.ext
  match a with
  | ⟨0, _⟩ => rfl
  | ⟨1, _⟩ => show 0 + 1 * f.val = f.val; omega
  | ⟨2, _⟩ => show 0 + 1 * h.val = h.val; omega

/-- Branch 1's first-layer bias: the slice at offset 1 of the leading axis. -/
theorem b1_slice_1 (x6 : Vec F S4x128 .f32) (h : Fin 128) :
    View.ld x6 (Rect.unit ![1, 0] ![1, 128] inb_S4x128_S1x128_1_0) (ix2 0 h) = x6 (ix2 1 h) := by
  show x6 _ = x6 _
  congr 1
  funext a; apply Fin.ext
  match a with
  | ⟨0, _⟩ => rfl
  | ⟨1, _⟩ => show 0 + 1 * h.val = h.val; omega

/-- Branch 1's second-layer weights: the slice at offset 1 of the leading axis. -/
theorem w2_slice_1 (x7 : Vec F S4x128x64 .f32) (h : Fin 128) (o : Fin 64) :
    View.ld x7 (Rect.unit ![1, 0, 0] ![1, 128, 64] inb_S4x128x64_S1x128x64_1_0_0) (ix3 0 h o) = x7 (ix3 1 h o) := by
  show x7 _ = x7 _
  congr 1
  funext a; apply Fin.ext
  match a with
  | ⟨0, _⟩ => rfl
  | ⟨1, _⟩ => show 0 + 1 * h.val = h.val; omega
  | ⟨2, _⟩ => show 0 + 1 * o.val = o.val; omega

/-- Branch 1's second-layer bias: the slice at offset 1 of the leading axis. -/
theorem b2_slice_1 (x8 : Vec F S4x64 .f32) (o : Fin 64) :
    View.ld x8 (Rect.unit ![1, 0] ![1, 64] inb_S4x64_S1x64_1_0) (ix2 0 o) = x8 (ix2 1 o) := by
  show x8 _ = x8 _
  congr 1
  funext a; apply Fin.ext
  match a with
  | ⟨0, _⟩ => rfl
  | ⟨1, _⟩ => show 0 + 1 * o.val = o.val; omega

/-- Branch 2's first-layer weights: the slice at offset 2 of the leading axis. -/
theorem w1_slice_2 (x5 : Vec F S4x64x128 .f32) (f : Fin 64) (h : Fin 128) :
    View.ld x5 (Rect.unit ![2, 0, 0] ![1, 64, 128] inb_S4x64x128_S1x64x128_2_0_0) (ix3 0 f h) = x5 (ix3 2 f h) := by
  show x5 _ = x5 _
  congr 1
  funext a; apply Fin.ext
  match a with
  | ⟨0, _⟩ => rfl
  | ⟨1, _⟩ => show 0 + 1 * f.val = f.val; omega
  | ⟨2, _⟩ => show 0 + 1 * h.val = h.val; omega

/-- Branch 2's first-layer bias: the slice at offset 2 of the leading axis. -/
theorem b1_slice_2 (x6 : Vec F S4x128 .f32) (h : Fin 128) :
    View.ld x6 (Rect.unit ![2, 0] ![1, 128] inb_S4x128_S1x128_2_0) (ix2 0 h) = x6 (ix2 2 h) := by
  show x6 _ = x6 _
  congr 1
  funext a; apply Fin.ext
  match a with
  | ⟨0, _⟩ => rfl
  | ⟨1, _⟩ => show 0 + 1 * h.val = h.val; omega

/-- Branch 2's second-layer weights: the slice at offset 2 of the leading axis. -/
theorem w2_slice_2 (x7 : Vec F S4x128x64 .f32) (h : Fin 128) (o : Fin 64) :
    View.ld x7 (Rect.unit ![2, 0, 0] ![1, 128, 64] inb_S4x128x64_S1x128x64_2_0_0) (ix3 0 h o) = x7 (ix3 2 h o) := by
  show x7 _ = x7 _
  congr 1
  funext a; apply Fin.ext
  match a with
  | ⟨0, _⟩ => rfl
  | ⟨1, _⟩ => show 0 + 1 * h.val = h.val; omega
  | ⟨2, _⟩ => show 0 + 1 * o.val = o.val; omega

/-- Branch 2's second-layer bias: the slice at offset 2 of the leading axis. -/
theorem b2_slice_2 (x8 : Vec F S4x64 .f32) (o : Fin 64) :
    View.ld x8 (Rect.unit ![2, 0] ![1, 64] inb_S4x64_S1x64_2_0) (ix2 0 o) = x8 (ix2 2 o) := by
  show x8 _ = x8 _
  congr 1
  funext a; apply Fin.ext
  match a with
  | ⟨0, _⟩ => rfl
  | ⟨1, _⟩ => show 0 + 1 * o.val = o.val; omega

/-- Branch 3's first-layer weights: the slice at offset 3 of the leading axis. -/
theorem w1_slice_3 (x5 : Vec F S4x64x128 .f32) (f : Fin 64) (h : Fin 128) :
    View.ld x5 (Rect.unit ![3, 0, 0] ![1, 64, 128] inb_S4x64x128_S1x64x128_3_0_0) (ix3 0 f h) = x5 (ix3 3 f h) := by
  show x5 _ = x5 _
  congr 1
  funext a; apply Fin.ext
  match a with
  | ⟨0, _⟩ => rfl
  | ⟨1, _⟩ => show 0 + 1 * f.val = f.val; omega
  | ⟨2, _⟩ => show 0 + 1 * h.val = h.val; omega

/-- Branch 3's first-layer bias: the slice at offset 3 of the leading axis. -/
theorem b1_slice_3 (x6 : Vec F S4x128 .f32) (h : Fin 128) :
    View.ld x6 (Rect.unit ![3, 0] ![1, 128] inb_S4x128_S1x128_3_0) (ix2 0 h) = x6 (ix2 3 h) := by
  show x6 _ = x6 _
  congr 1
  funext a; apply Fin.ext
  match a with
  | ⟨0, _⟩ => rfl
  | ⟨1, _⟩ => show 0 + 1 * h.val = h.val; omega

/-- Branch 3's second-layer weights: the slice at offset 3 of the leading axis. -/
theorem w2_slice_3 (x7 : Vec F S4x128x64 .f32) (h : Fin 128) (o : Fin 64) :
    View.ld x7 (Rect.unit ![3, 0, 0] ![1, 128, 64] inb_S4x128x64_S1x128x64_3_0_0) (ix3 0 h o) = x7 (ix3 3 h o) := by
  show x7 _ = x7 _
  congr 1
  funext a; apply Fin.ext
  match a with
  | ⟨0, _⟩ => rfl
  | ⟨1, _⟩ => show 0 + 1 * h.val = h.val; omega
  | ⟨2, _⟩ => show 0 + 1 * o.val = o.val; omega

/-- Branch 3's second-layer bias: the slice at offset 3 of the leading axis. -/
theorem b2_slice_3 (x8 : Vec F S4x64 .f32) (o : Fin 64) :
    View.ld x8 (Rect.unit ![3, 0] ![1, 64] inb_S4x64_S1x64_3_0) (ix2 0 o) = x8 (ix2 3 o) := by
  show x8 _ = x8 _
  congr 1
  funext a; apply Fin.ext
  match a with
  | ⟨0, _⟩ => rfl
  | ⟨1, _⟩ => show 0 + 1 * o.val = o.val; omega

/-! ## The node-feature matrix as the region finds it -/

/-- The one host operation before the region writes the concatenation of the two launched feature arrays along the
    feature axis. -/
theorem V_main_v0 (c : Dev nD) :
    V m c main_v0 = concatenate S8192x64 1 [⟨S8192x48, m ((c : Thread nD τ).loc main_arg0)⟩, ⟨S8192x16, m ((c : Thread nD τ).loc main_arg1)⟩] concatenates_S8192x48_S8192x16_S8192x64_d1 := by
  dsimp only [V]
  simp only [hostOps0, List.flatten_cons, List.flatten_nil, List.append_nil]
  after_results

end Cert.KernelIdeal.Fr

end
-- ==== Proof.KI.Final.lean ====
/-
  From the output window's blocks to the whole output array.

  The output array has 8192 rows of 64 columns.  At grid point t = 8 i + k the output window's block is the tile of
  rows 1024 i, ..., 1024 i + 1023 with all 64 columns, and the block is written back exactly at the points with
  k = 7.  The eight written blocks therefore tile the array: row n lies in the block written at point
  8 (n / 1024) + 7.  So if every written block is the matching tile of one array Gf, the array ends holding Gf.
-/
import proofs.«154867_j70961449664572_1_alg».proof.Proof.KI.Data
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

variable {F : FTy → Type} [FloatOps F]

variable (m : (ℓ : Loc nD τ sig) → Buf (Elt F) ℓ)
variable (q : Fin cfg0.W → PosShare TreeShare)

/-! ## Where the output window's blocks lie -/

/-- The output window's block index at point t is (t / 8, 0). -/
theorem out_index : ∀ t : Fin cfg0.N, win0_9.index t (0 : Fin 2) = t.val / 8 ∧ win0_9.index t (1 : Fin 2) = 0 :=
  (by decide +kernel : ∀ t : Fin grid0.N, win0_9.index t (0 : Fin 2) = t.val / 8 ∧ win0_9.index t (1 : Fin 2) = 0)

/-- An index of the array is in point t's block iff each coordinate is in the block's range on its axis. -/
theorem mem_out_blk (t : Fin cfg0.N) (i : S8192x64.Idx) :
    i ∈ ((cfg0.win 9).blk t).view.set ↔ ∀ a : Fin 2, win0_9.index t a * S1024x64.size a ≤ (i a).val ∧ (i a).val < win0_9.index t a * S1024x64.size a + S1024x64.size a := by
  show i ∈ ((View.whole main_v1).slice (win0_9.rect t)).set ↔ _
  rw [View.set_slice_whole, Rect.mem_set_unit]
  exact Iff.rfl

/-- Every index of the array is in the block some point writes back: row n in that of point 8 (n / 1024) + 7. -/
theorem out_cover (i : S8192x64.Idx) :
    ∃ t : Fin cfg0.N, (cfg0.win 9).flush t = true ∧ i ∈ ((cfg0.win 9).blk t).view.set := by
  have hN : cfg0.N = 64 := N_0
  have hi0 : (i 0).val < 8192 := idx2_lt0 i
  have hi1 : (i 1).val < 64 := idx2_lt1 i
  obtain ⟨t, ht⟩ : ∃ t : Fin cfg0.N, t.val = 8 * ((i 0).val / 1024) + 7 := ⟨⟨8 * ((i 0).val / 1024) + 7, by omega⟩, rfl⟩
  obtain ⟨e0, e1⟩ := out_index t
  refine ⟨t, (flush0_9 t).mpr (by omega), ?_⟩
  rw [mem_out_blk]
  intro a
  match a with
  | ⟨0, _⟩ => show win0_9.index t (0 : Fin 2) * 1024 ≤ (i 0).val ∧ (i 0).val < win0_9.index t (0 : Fin 2) * 1024 + 1024; omega
  | ⟨1, _⟩ => show win0_9.index t (1 : Fin 2) * 64 ≤ (i 1).val ∧ (i 1).val < win0_9.index t (1 : Fin 2) * 64 + 64; omega

/-! ## What a point writes back -/

/-- What a point with k = 7 writes back is its block of Gf, when the output's buffer there holds that tile of Gf. -/
theorem flushed_out_eq (c : Dev nD) (Gf : Vec F S8192x64 .f32)
    (hblk : ∀ (t : Fin cfg0.N) (h7 : t.val % 8 = 7) (r : Fin 1024) (o : Fin 64),
        (outsAt0 m c t.val t.isLt).1 (ValueIdx.ix2 r o)
          = Gf (ValueIdx.ix2 (⟨1024 * (t.val / 8) + r.val, by have := t.isLt; have h64 : cfg0.N = 64 := N_0; omega⟩ : Fin 8192) o))
    (t : Fin cfg0.N) (hf : (cfg0.win 9).flush t = true) :
    (dats m q 0 c).flushed 9 t = ((cfg0.win 9).blk t).view.read (Elt F) Gf := by
  have h7 : t.val % 8 = 7 := (flush0_9 t).mp hf
  obtain ⟨e0, e1⟩ := out_index t
  show (cfg0.win 9).cut (grid0.coords t) ((dats m q 0 c).after 9 t) = _
  rw [after0_9]
  funext y
  obtain ⟨r, o, rfl⟩ : ∃ (r : Fin 1024) (o : Fin 64), y = ix2 r o := ⟨y 0, y 1, eq_ix2 y⟩
  show (outsAt0 m c t.val t.isLt).1 (ix2 r o) = Gf (((cfg0.win 9).blk t).view.emb (ix2 r o))
  rw [hblk t h7 r o]
  congr 1
  funext a; apply Fin.ext
  match a with
  | ⟨0, _⟩ => show 1024 * (t.val / 8) + r.val = win0_9.index t (0 : Fin 2) * 1024 + 1 * r.val; omega
  | ⟨1, _⟩ => show o.val = win0_9.index t (1 : Fin 2) * 64 + 1 * o.val; omega

/-! ## The array after the run -/

/-- The output array ends holding Gf. -/
theorem final_of_blocks (c : Dev nD) (Gf : Vec F S8192x64 .f32)
    (hblk : ∀ (t : Fin cfg0.N) (h7 : t.val % 8 = 7) (r : Fin 1024) (o : Fin 64),
        (outsAt0 m c t.val t.isLt).1 (ValueIdx.ix2 r o)
          = Gf (ValueIdx.ix2 (⟨1024 * (t.val / 8) + r.val, by have := t.isLt; have h64 : cfg0.N = 64 := N_0; omega⟩ : Fin 8192) o)) :
    (dats m q 0 c).arrAt 9 cfg0.N = Gf :=
  (dats m q 0 c).arrAt_eq_of_cover 9 Gf (flushed_out_eq m q c Gf hblk) out_cover

end Cert.KernelIdeal.Fr

end
-- ==== Proof.SharedSplit.lean ====
import proofs.«154867_j70961449664572_1_alg».proof.Proof.Gen.KernelIdeal.Launch
import Idealize.ShloMosaic.Lib.Pipeline.Launch
import Idealize.ShloMosaic.Lib.Pipeline.Kit

/-
  One array read through two windows: how its buffer is dealt among them at launch.

  The pipeline has ten windows over nine distinct arrays: windows 3 and 4 both read the array `main_v0`, every
  other window an array of its own. At launch each of the nine buffers is held whole, at the full share. The
  pipeline's precondition wants one points-to per WINDOW, at the share that window holds. A points-to at a share
  `q` is the separating conjunction of the same points-to at the two halves `q.left` and `q.right`
  (`pointsTo_share`), so the buffer of `main_v0` at the full share is its left half, given to window 3, beside
  its right half, given to window 4; each other buffer goes to its one window as it is. Every window's array is a
  whole buffer, so a window's view of its array is all of the buffer, and its contents at entry are the launch
  contents of the buffer.
-/

noncomputable section

namespace Cert.KernelIdeal.SharedSplit

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The share each input window holds of its array: windows 3 and 4 read one array and hold a half each;
    every other window its own array whole. -/
def qOf : Fin cfg0.W → PosShare TreeShare
  | ⟨0, _⟩ => fullShare
  | ⟨1, _⟩ => fullShare
  | ⟨2, _⟩ => fullShare
  | ⟨3, _⟩ => fullShare.left
  | ⟨4, _⟩ => fullShare.right
  | ⟨5, _⟩ => fullShare
  | ⟨6, _⟩ => fullShare
  | ⟨7, _⟩ => fullShare
  | ⟨8, _⟩ => fullShare
  | ⟨9, _⟩ => fullShare

/-- The distinct arrays behind the ten windows: nine, the fourth of them behind windows 3 and 4 both. -/
private theorem image_arrRef : Finset.univ.image (Pipeline.arrRef spec0)
    = [main_arg2, main_arg3, main_arg4, main_v0, main_arg5, main_arg6, main_arg7, main_arg8, main_v1].toFinset := by decide

section

variable {c : Dev nD} (dat : Pipeline.Dat τ (Elt F) Unit ℕ (UR sig nD τ) ℕ cfg0 c)
  (hq : ∀ w, dat.q w = qOf w)
  (V : (b : Ref sig .tc) → Buf (Elt F) ((c : Thread nD τ).loc b))
  (hA : ∀ w, dat.A w = V (Pipeline.arrRef spec0 w))

include hq in
/-- Every window holds its array at the share `qOf` names: the output window's is the full share either way. -/
private theorem share_eq (w : Fin cfg0.W) : dat.share w = qOf w := by
  unfold Pipeline.Dat.share
  rw [hq]
  match w with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨9, _⟩ => rfl

include hq hA in
/-- One window's conjunct of the pipeline's arrays at entry: its array is a whole buffer, so the conjunct is the
    buffer at the window's share, at the launch contents. -/
private theorem win_eq (w : Fin cfg0.W) :
    ((cfg0.win w).arr.view.loc (c : Thread nD τ) ↦[(cfg0.win w).arr.view.set]{dat.share w} dat.arrAt w 0 : sProp 𝕄)
      = (((c : Thread nD τ).loc (Pipeline.arrRef spec0 w)) ↦{qOf w} V (Pipeline.arrRef spec0 w)) := by
  rw [(arr_whole0 w).set_eq_univ, share_eq dat hq w]
  show (_ ↦{_} dat.A w) = _
  rw [hA]

end

/-- The launch's buffers behind the windows' arrays, each whole at the full share at the launch contents, make the
    pipeline's arrays at entry, one conjunct per window at the share `qOf` names: the buffer of the array windows 3
    and 4 both read is halved between them, every other buffer handed to its one window. -/
theorem hsplit_shared {c : Dev nD} (dat : Pipeline.Dat τ (Elt F) Unit ℕ (UR sig nD τ) ℕ cfg0 c)
    (hq : ∀ w, dat.q w = qOf w)
    (V : (b : Ref sig .tc) → Buf (Elt F) ((c : Thread nD τ).loc b))
    (hA : ∀ w, dat.A w = V (Pipeline.arrRef spec0 w)) :
    (Pipeline.arrBufs spec0 c V : sProp 𝕄) ⊢ dat.arrays (dat.arrAt · 0) := by
  unfold Pipeline.arrBufs
  rw [bigSep_eq_bigSepL_of_eq _ image_arrRef (by decide)]
  unfold Pipeline.Dat.arrays
  rw [Gen.bigSep_W0]
  beta_reduce
  rw [win_eq dat hq V hA 0, win_eq dat hq V hA 1, win_eq dat hq V hA 2, win_eq dat hq V hA 3, win_eq dat hq V hA 4,
    win_eq dat hq V hA 5, win_eq dat hq V hA 6, win_eq dat hq V hA 7, win_eq dat hq V hA 8, win_eq dat hq V hA 9]
  show iprop((((c : Thread nD τ).loc main_arg2) ↦{fullShare} V main_arg2) ∗ (((c : Thread nD τ).loc main_arg3) ↦{fullShare} V main_arg3)
      ∗ (((c : Thread nD τ).loc main_arg4) ↦{fullShare} V main_arg4) ∗ (((c : Thread nD τ).loc main_v0) ↦{fullShare} V main_v0)
      ∗ (((c : Thread nD τ).loc main_arg5) ↦{fullShare} V main_arg5) ∗ (((c : Thread nD τ).loc main_arg6) ↦{fullShare} V main_arg6)
      ∗ (((c : Thread nD τ).loc main_arg7) ↦{fullShare} V main_arg7) ∗ (((c : Thread nD τ).loc main_arg8) ↦{fullShare} V main_arg8)
      ∗ (((c : Thread nD τ).loc main_v1) ↦{fullShare} V main_v1))
    ⊢ (iprop((((c : Thread nD τ).loc main_arg2) ↦{fullShare} V main_arg2) ∗ (((c : Thread nD τ).loc main_arg3) ↦{fullShare} V main_arg3)
      ∗ (((c : Thread nD τ).loc main_arg4) ↦{fullShare} V main_arg4)
      ∗ (((c : Thread nD τ).loc main_v0) ↦{fullShare.left} V main_v0) ∗ (((c : Thread nD τ).loc main_v0) ↦{fullShare.right} V main_v0)
      ∗ (((c : Thread nD τ).loc main_arg5) ↦{fullShare} V main_arg5) ∗ (((c : Thread nD τ).loc main_arg6) ↦{fullShare} V main_arg6)
      ∗ (((c : Thread nD τ).loc main_arg7) ↦{fullShare} V main_arg7) ∗ (((c : Thread nD τ).loc main_arg8) ↦{fullShare} V main_arg8)
      ∗ (((c : Thread nD τ).loc main_v1) ↦{fullShare} V main_v1)) : sProp 𝕄)
  iintro ⟨H0, H1, H2, Hv, H5, H6, H7, H8, H9⟩
  -- the one array behind windows 3 and 4, dealt in two halves
  ihave Hv := (pointsTo_share (PosShare.mem_left_op_right fullShare)).1 $$ Hv
  icases Hv with ⟨H3, H4⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

end Cert.KernelIdeal.SharedSplit
end
-- ==== Proof.KI.Launch.lean ====
/-
  The launch: from the body obligation to the run of the whole program.

  One array — the node-feature matrix the concatenation wrote — reaches the pipeline through two input windows, so
  the launch deals that array's full share between them (a half each) and every other array whole.  The body's
  invariant takes the kernel's three accumulators from the scoped buffers the launch hands over and returns them
  at the end.  The two feature arrays the concatenation read are no window's array: they pass the region by and are
  read back afterwards as they were.
-/
import proofs.«154867_j70961449664572_1_alg».proof.Proof.KI.Data
import proofs.«154867_j70961449664572_1_alg».proof.Proof.SharedSplit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The shares: the two windows on the node-feature matrix a half each, every other window whole. -/
abbrev qS : Fin cfg0.W → PosShare TreeShare := Cert.KernelIdeal.SharedSplit.qOf

/-- The proof's resource algebra: one copy of the rounds library's, the pipeline's. -/
abbrev EP : Emb (UR sig nD τ) (MT nD τ sig Unit (Elt F) ℕ (UR sig nD τ) ℕ) := emb₁

/-- The launch element: every staging cell's owner at round 0 and a duty token for every transfer the pipeline issues. -/
def u₀ : UR sig nD τ := initOf (Pipeline.cells cfgs cellOf_inj) (Pipeline.launchToks cfgs cellOf_inj)

/-- The output array after the run, as the library computes it from the proof data. -/
def finalOut (c : Dev nD) : Buf (Elt F) ((c : Thread nD τ).loc main_v1) := (dats m qS 0 c).arrAt 9 cfg0.N

set_option backward.isDefEq.respectTransparency.types false in
set_option maxHeartbeats 4000000 in
/-- From any memory with zero counters every weakly fair execution of the program terminates without fault; the
    output array then holds what the proof data say, and the nine argument arrays what they held at launch. -/
theorem run_main : θ_run defs (onTc (τ := τ) (main (F := F))) (s₀ m ρ) (fun r => ∀ c : Dev nD,
      r.2.mem ((c.tc : Thread nD τ).loc main_v1) = finalOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_region_noSem_shared cfgs (dats m qS) () cellOf_inj (0 : Fin 1) winFacts₀0 EP defs₀ Variants.none m ρ main
    (hbody := fun c => (body_obligation m qS c).loose)
    (hne := block_pos0) (harr := arr_whole0) (hstage := stage_whole0)
    (howed := fun _ _ => rfl)
    (u₀ := u₀) (hu₀ := BI.Entails.refl _)
    (V := V m)
    (hmain := hmain m Variants.none)
    (hsplit := fun c => Cert.KernelIdeal.SharedSplit.hsplit_shared (dats m qS 0 c) (fun _ => rfl) (V m c) (A_eq m qS c))
    (X := fun _ => iprop(emp)) (Y := fun _ => iprop(emp))
    (Z := fun c => Pipeline.unscopedRest spec0 c (V m c))
    (hX := fun c => by
      iintro H; isplitr; · iempintro
      iexact H)
    (hin := hin m qS) (hout := hout m qS)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1 9,
      ((h c).2 main_arg0 (Pipeline.mem_restRefs_of main_arg0 rfl (by decide))).trans (V_main_arg0 m c),
      ((h c).2 main_arg1 (Pipeline.mem_restRefs_of main_arg1 rfl (by decide))).trans (V_main_arg1 m c),
      ((h c).1 0).trans (((dats m qS 0 c).arrAt_in 0 rfl _).trans ((A_eq m qS c 0).trans (V_main_arg2 m c))),
      ((h c).1 1).trans (((dats m qS 0 c).arrAt_in 1 rfl _).trans ((A_eq m qS c 1).trans (V_main_arg3 m c))),
      ((h c).1 2).trans (((dats m qS 0 c).arrAt_in 2 rfl _).trans ((A_eq m qS c 2).trans (V_main_arg4 m c))),
      ((h c).1 5).trans (((dats m qS 0 c).arrAt_in 5 rfl _).trans ((A_eq m qS c 5).trans (V_main_arg5 m c))),
      ((h c).1 6).trans (((dats m qS 0 c).arrAt_in 6 rfl _).trans ((A_eq m qS c 6).trans (V_main_arg6 m c))),
      ((h c).1 7).trans (((dats m qS 0 c).arrAt_in 7 rfl _).trans ((A_eq m qS c 7).trans (V_main_arg7 m c))),
      ((h c).1 8).trans (((dats m qS 0 c).arrAt_in 8 rfl _).trans ((A_eq m qS c 8).trans (V_main_arg8 m c)))⟩)

/-- The frame: the program runs to the end without fault and leaves its nine argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => (h c).2) (run_main m ρ)

end Cert.KernelIdeal.Fr

end
-- ==== Proof.Spec.lean ====
/-
  The mathematics both programs compute, stated once, over the extended reals.

  X is the node-feature matrix (8192 rows, 64 features).  For each of three hop matrices H (8192 x 8192) the
  aggregated features are the plain matrix product H X.  Four branches — X itself and the three products — each
  go through their own two-layer perceptron: a 64 -> 128 linear map with bias, a maximum with the zero word, a
  128 -> 64 linear map with bias.  The result is the zero word plus the sum of the four branch outputs.

  Nothing here mentions a program: both sides are shown equal to G, index by index.
-/
import Idealize.ShloMosaic.PureOps.Ideal
import Idealize.ShloMosaic.PureOps.Ideal.Laws
import Idealize.ShloMosaic.Lib.ValueIdx

noncomputable section

namespace Cert.GnnSpec

open Idealize.ShloMosaic Idealize.ShloMosaic.ValueIdx

/-- The shapes of the arrays the specification reads. -/
abbrev SX : Shape := ⟨2, ![8192, 64]⟩
abbrev SH : Shape := ⟨2, ![8192, 8192]⟩
abbrev SW1 : Shape := ⟨3, ![4, 64, 128]⟩
abbrev SB1 : Shape := ⟨2, ![4, 128]⟩
abbrev SW2 : Shape := ⟨3, ![4, 128, 64]⟩
abbrev SB2 : Shape := ⟨2, ![4, 64]⟩

/-- The zero word of f32, kept as a word: it stands on both sides and is evaluated only where a sum starts from it. -/
abbrev z : EReal := Ideal.ofBits .f32 0x00000000#32

/-- Row n, feature f of the product H X: the sum over all 8192 nodes l of H[n, l] * X[l, f]. -/
def agg (H : SH.Idx → EReal) (X : SX.Idx → EReal) (n : Fin 8192) (f : Fin 64) : EReal :=
  ∑ l : Fin 8192, H (ix2 n l) * X (ix2 l f)

/-- The input row of branch b at node n: X's row for branch 0, the row of the b-th hop product otherwise. -/
def branchIn (X : SX.Idx → EReal) (H1 H2 H3 : SH.Idx → EReal) (b : Fin 4) (n : Fin 8192) (f : Fin 64) : EReal :=
  match b with
  | 0 => X (ix2 n f)
  | 1 => agg H1 X n f
  | 2 => agg H2 X n f
  | 3 => agg H3 X n f

/-- Hidden unit h of branch b on an input row: the first linear layer with its bias, then the maximum with zero. -/
def hidden (W1 : SW1.Idx → EReal) (b1 : SB1.Idx → EReal) (b : Fin 4) (inp : Fin 64 → EReal) (h : Fin 128) : EReal :=
  max ((∑ f : Fin 64, inp f * W1 (ix3 b f h)) + b1 (ix2 b h)) z

/-- Output unit o of branch b on an input row: the second linear layer over the hidden units, with its bias. -/
def branchOut (W1 : SW1.Idx → EReal) (b1 : SB1.Idx → EReal) (W2 : SW2.Idx → EReal) (b2 : SB2.Idx → EReal)
    (b : Fin 4) (inp : Fin 64 → EReal) (o : Fin 64) : EReal :=
  (∑ h : Fin 128, hidden W1 b1 b inp h * W2 (ix3 b h o)) + b2 (ix2 b o)

/-- The whole result at node n, output unit o. -/
def Gat (X : SX.Idx → EReal) (H1 H2 H3 : SH.Idx → EReal) (W1 : SW1.Idx → EReal) (b1 : SB1.Idx → EReal)
    (W2 : SW2.Idx → EReal) (b2 : SB2.Idx → EReal) (n : Fin 8192) (o : Fin 64) : EReal :=
  z + ∑ b : Fin 4, branchOut W1 b1 W2 b2 b (branchIn X H1 H2 H3 b n) o

/-- The whole result as an array. -/
def G (X : SX.Idx → EReal) (H1 H2 H3 : SH.Idx → EReal) (W1 : SW1.Idx → EReal) (b1 : SB1.Idx → EReal)
    (W2 : SW2.Idx → EReal) (b2 : SB2.Idx → EReal) : SX.Idx → EReal :=
  fun j => Gat X H1 H2 H3 W1 b1 W2 b2 (j 0) (j 1)

theorem G_apply (X : SX.Idx → EReal) (H1 H2 H3 : SH.Idx → EReal) (W1 : SW1.Idx → EReal) (b1 : SB1.Idx → EReal)
    (W2 : SW2.Idx → EReal) (b2 : SB2.Idx → EReal) (n : Fin 8192) (o : Fin 64) :
    G X H1 H2 H3 W1 b1 W2 b2 (ix2 n o) = Gat X H1 H2 H3 W1 b1 W2 b2 n o := rfl

/-- The four branches written out, grouped from the left as a running sum starting at the zero word. -/
theorem Gat_eq_left (X : SX.Idx → EReal) (H1 H2 H3 : SH.Idx → EReal) (W1 : SW1.Idx → EReal) (b1 : SB1.Idx → EReal)
    (W2 : SW2.Idx → EReal) (b2 : SB2.Idx → EReal) (n : Fin 8192) (o : Fin 64) :
    Gat X H1 H2 H3 W1 b1 W2 b2 n o
      = (((z + branchOut W1 b1 W2 b2 0 (branchIn X H1 H2 H3 0 n) o)
          + branchOut W1 b1 W2 b2 1 (branchIn X H1 H2 H3 1 n) o)
          + branchOut W1 b1 W2 b2 2 (branchIn X H1 H2 H3 2 n) o)
          + branchOut W1 b1 W2 b2 3 (branchIn X H1 H2 H3 3 n) o := by
  unfold Gat
  rw [Fin.sum_univ_four]
  simp only [add_assoc]

/-- A node index is a tile (one of 8) and a position inside the tile (one of 1024). -/
def tileEquiv : Fin 8 × Fin 1024 ≃ Fin 8192 where
  toFun p := ⟨p.1.val * 1024 + p.2.val, by omega⟩
  invFun l := (⟨l.val / 1024, by omega⟩, ⟨l.val % 1024, by omega⟩)
  left_inv p := by
    obtain ⟨⟨a, ha⟩, ⟨b, hb⟩⟩ := p
    refine Prod.ext (Fin.ext ?_) (Fin.ext ?_)
    · show (a * 1024 + b) / 1024 = a
      omega
    · show (a * 1024 + b) % 1024 = b
      omega
  right_inv l := by
    obtain ⟨l, hl⟩ := l
    refine Fin.ext ?_
    show l / 1024 * 1024 + l % 1024 = l
    omega

/-- A sum over the 8192 nodes is the sum over the 8 tiles of the sums inside each tile of 1024. -/
theorem sum_tiles (g : Fin 8192 → EReal) :
    ∑ l : Fin 8192, g l = ∑ k : Fin 8, ∑ i : Fin 1024, g ⟨k.val * 1024 + i.val, by omega⟩ := by
  rw [← Finset.sum_product', Finset.univ_product_univ]
  exact (Fintype.sum_equiv tileEquiv (fun p => g ⟨p.1.val * 1024 + p.2.val, by omega⟩) g (fun _ => rfl)).symm

end Cert.GnnSpec

end
-- ==== Proof.PayloadIdeal.lean ====
/-
  The arithmetic of the kernel body, read entry by entry over the extended reals.

  A change of float format is the identity there, a cast between equal shapes is the identity, and a matrix product
  into the zero accumulator is the plain sum over the contracted axis.  So each accumulation step adds, to the running
  tile, the product of a 1024 x 1024 hop block with a 1024 x 64 tile of X; a reset leaves the zero word everywhere; and
  the last step adds, to the zero word, the four two-layer perceptrons applied to the row of X and to the rows of the
  three accumulated products, in that order.
-/
import proofs.«154867_j70961449664572_1_alg».proof.Proof.Gen.KernelIdeal.Skeleton
import proofs.«154867_j70961449664572_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayloadIdeal

open Cert.KernelIdeal Cert.KernelIdeal.Gen Cert.GnnSpec Idealize.ShloMosaic Idealize.ShloMosaic.ValueIdx

/-! ## A hop block times a tile of X: [1024, 1024] x [1024, 64] -/

private theorem lhsHop_0 (i : S1024x64.Idx) (q : dot_S1024x1024_S1024x64_S1024x64_1_0_0_1_n_n.contr.Idx) :
    (dot_S1024x1024_S1024x64_S1024x64_1_0_0_1_n_n.lhsIdx i q 0).val = (i 0).val := by
  unfold DotDims.lhsIdx
  rw [dif_neg (show ¬(0 : Fin S1024x1024.rank) ∈ dot_S1024x1024_S1024x64_S1024x64_1_0_0_1_n_n.lhsBatch by decide), dif_pos (show (0 : Fin S1024x1024.rank) ∈ dot_S1024x1024_S1024x64_S1024x64_1_0_0_1_n_n.lhsNonContracting by decide)]
  rfl
private theorem lhsHop_1 (i : S1024x64.Idx) (q : dot_S1024x1024_S1024x64_S1024x64_1_0_0_1_n_n.contr.Idx) :
    (dot_S1024x1024_S1024x64_S1024x64_1_0_0_1_n_n.lhsIdx i q 1).val = (q ⟨0, by decide⟩).val :=
  dot_S1024x1024_S1024x64_S1024x64_1_0_0_1_n_n.lhsIdx_val_of_single rfl i q
private theorem rhsHop_0 (i : S1024x64.Idx) (q : dot_S1024x1024_S1024x64_S1024x64_1_0_0_1_n_n.contr.Idx) :
    (dot_S1024x1024_S1024x64_S1024x64_1_0_0_1_n_n.rhsIdx i q 0).val = (q ⟨0, by decide⟩).val :=
  dot_S1024x1024_S1024x64_S1024x64_1_0_0_1_n_n.rhsIdx_val_of_single rfl i q
private theorem rhsHop_1 (i : S1024x64.Idx) (q : dot_S1024x1024_S1024x64_S1024x64_1_0_0_1_n_n.contr.Idx) :
    (dot_S1024x1024_S1024x64_S1024x64_1_0_0_1_n_n.rhsIdx i q 1).val = (i 1).val := by
  unfold DotDims.rhsIdx
  rw [dif_neg (show ¬(1 : Fin S1024x64.rank) ∈ dot_S1024x1024_S1024x64_S1024x64_1_0_0_1_n_n.rhsBatch by decide), dif_pos (show (1 : Fin S1024x64.rank) ∈ dot_S1024x1024_S1024x64_S1024x64_1_0_0_1_n_n.rhsNonContracting by decide)]
  rfl

/-- Entry (p, c) of the product into the zero accumulator: the sum over the 1024 contracted positions k of
    left (p, k) times right (k, c). -/
private theorem matmulHop_apply {φ₁ φ₂ : FTy} (lhs : FVec Ideal S1024x1024 φ₁) (rhs : FVec Ideal S1024x64 φ₂) (p : Fin 1024) (c : Fin 64) :
    matmul dot_S1024x1024_S1024x64_S1024x64_1_0_0_1_n_n none lhs rhs (constant (F := Ideal) S1024x64 .f32 0x00000000#32) (ix2 p c)
      = ∑ k : Fin 1024, lhs (ix2 p k) * rhs (ix2 k c) := by
  simp only [matmul]
  rw [Ideal.matmul_constant_zero_apply, ← Equiv.sum_comp (contrEquiv1 dot_S1024x1024_S1024x64_S1024x64_1_0_0_1_n_n 1024 rfl rfl).symm]
  refine Finset.sum_congr rfl fun k _ => ?_
  have hk := contrEquiv1_symm_val dot_S1024x1024_S1024x64_S1024x64_1_0_0_1_n_n 1024 rfl rfl k
  have el : dot_S1024x1024_S1024x64_S1024x64_1_0_0_1_n_n.lhsIdx (ix2 p c) ((contrEquiv1 dot_S1024x1024_S1024x64_S1024x64_1_0_0_1_n_n 1024 rfl rfl).symm k) = ix2 p k := funext fun a => Fin.ext (by
    match a with
    | ⟨0, _⟩ => exact lhsHop_0 _ _
    | ⟨1, _⟩ => exact (lhsHop_1 _ _).trans hk)
  have er : dot_S1024x1024_S1024x64_S1024x64_1_0_0_1_n_n.rhsIdx (ix2 p c) ((contrEquiv1 dot_S1024x1024_S1024x64_S1024x64_1_0_0_1_n_n 1024 rfl rfl).symm k) = ix2 k c := funext fun a => Fin.ext (by
    match a with
    | ⟨0, _⟩ => exact (rhsHop_0 _ _).trans hk
    | ⟨1, _⟩ => exact rhsHop_1 _ _)
  rw [el, er]

/-! ## The first linear layer: [1024, 64] x [64, 128] -/

private theorem lhsIn_0 (i : S1024x128.Idx) (q : dot_S1024x64_S64x128_S1024x128_1_0_0_1_n_n.contr.Idx) :
    (dot_S1024x64_S64x128_S1024x128_1_0_0_1_n_n.lhsIdx i q 0).val = (i 0).val := by
  unfold DotDims.lhsIdx
  rw [dif_neg (show ¬(0 : Fin S1024x64.rank) ∈ dot_S1024x64_S64x128_S1024x128_1_0_0_1_n_n.lhsBatch by decide), dif_pos (show (0 : Fin S1024x64.rank) ∈ dot_S1024x64_S64x128_S1024x128_1_0_0_1_n_n.lhsNonContracting by decide)]
  rfl
private theorem lhsIn_1 (i : S1024x128.Idx) (q : dot_S1024x64_S64x128_S1024x128_1_0_0_1_n_n.contr.Idx) :
    (dot_S1024x64_S64x128_S1024x128_1_0_0_1_n_n.lhsIdx i q 1).val = (q ⟨0, by decide⟩).val :=
  dot_S1024x64_S64x128_S1024x128_1_0_0_1_n_n.lhsIdx_val_of_single rfl i q
private theorem rhsIn_0 (i : S1024x128.Idx) (q : dot_S1024x64_S64x128_S1024x128_1_0_0_1_n_n.contr.Idx) :
    (dot_S1024x64_S64x128_S1024x128_1_0_0_1_n_n.rhsIdx i q 0).val = (q ⟨0, by decide⟩).val :=
  dot_S1024x64_S64x128_S1024x128_1_0_0_1_n_n.rhsIdx_val_of_single rfl i q
private theorem rhsIn_1 (i : S1024x128.Idx) (q : dot_S1024x64_S64x128_S1024x128_1_0_0_1_n_n.contr.Idx) :
    (dot_S1024x64_S64x128_S1024x128_1_0_0_1_n_n.rhsIdx i q 1).val = (i 1).val := by
  unfold DotDims.rhsIdx
  rw [dif_neg (show ¬(1 : Fin S64x128.rank) ∈ dot_S1024x64_S64x128_S1024x128_1_0_0_1_n_n.rhsBatch by decide), dif_pos (show (1 : Fin S64x128.rank) ∈ dot_S1024x64_S64x128_S1024x128_1_0_0_1_n_n.rhsNonContracting by decide)]
  rfl

/-- Entry (p, c) of the product into the zero accumulator: the sum over the 64 contracted positions k of
    left (p, k) times right (k, c). -/
private theorem matmulIn_apply {φ₁ φ₂ : FTy} (lhs : FVec Ideal S1024x64 φ₁) (rhs : FVec Ideal S64x128 φ₂) (p : Fin 1024) (c : Fin 128) :
    matmul dot_S1024x64_S64x128_S1024x128_1_0_0_1_n_n none lhs rhs (constant (F := Ideal) S1024x128 .f32 0x00000000#32) (ix2 p c)
      = ∑ k : Fin 64, lhs (ix2 p k) * rhs (ix2 k c) := by
  simp only [matmul]
  rw [Ideal.matmul_constant_zero_apply, ← Equiv.sum_comp (contrEquiv1 dot_S1024x64_S64x128_S1024x128_1_0_0_1_n_n 64 rfl rfl).symm]
  refine Finset.sum_congr rfl fun k _ => ?_
  have hk := contrEquiv1_symm_val dot_S1024x64_S64x128_S1024x128_1_0_0_1_n_n 64 rfl rfl k
  have el : dot_S1024x64_S64x128_S1024x128_1_0_0_1_n_n.lhsIdx (ix2 p c) ((contrEquiv1 dot_S1024x64_S64x128_S1024x128_1_0_0_1_n_n 64 rfl rfl).symm k) = ix2 p k := funext fun a => Fin.ext (by
    match a with
    | ⟨0, _⟩ => exact lhsIn_0 _ _
    | ⟨1, _⟩ => exact (lhsIn_1 _ _).trans hk)
  have er : dot_S1024x64_S64x128_S1024x128_1_0_0_1_n_n.rhsIdx (ix2 p c) ((contrEquiv1 dot_S1024x64_S64x128_S1024x128_1_0_0_1_n_n 64 rfl rfl).symm k) = ix2 k c := funext fun a => Fin.ext (by
    match a with
    | ⟨0, _⟩ => exact (rhsIn_0 _ _).trans hk
    | ⟨1, _⟩ => exact rhsIn_1 _ _)
  rw [el, er]

/-! ## The second linear layer: [1024, 128] x [128, 64] -/

private theorem lhsOut_0 (i : S1024x64.Idx) (q : dot_S1024x128_S128x64_S1024x64_1_0_0_1_n_n.contr.Idx) :
    (dot_S1024x128_S128x64_S1024x64_1_0_0_1_n_n.lhsIdx i q 0).val = (i 0).val := by
  unfold DotDims.lhsIdx
  rw [dif_neg (show ¬(0 : Fin S1024x128.rank) ∈ dot_S1024x128_S128x64_S1024x64_1_0_0_1_n_n.lhsBatch by decide), dif_pos (show (0 : Fin S1024x128.rank) ∈ dot_S1024x128_S128x64_S1024x64_1_0_0_1_n_n.lhsNonContracting by decide)]
  rfl
private theorem lhsOut_1 (i : S1024x64.Idx) (q : dot_S1024x128_S128x64_S1024x64_1_0_0_1_n_n.contr.Idx) :
    (dot_S1024x128_S128x64_S1024x64_1_0_0_1_n_n.lhsIdx i q 1).val = (q ⟨0, by decide⟩).val :=
  dot_S1024x128_S128x64_S1024x64_1_0_0_1_n_n.lhsIdx_val_of_single rfl i q
private theorem rhsOut_0 (i : S1024x64.Idx) (q : dot_S1024x128_S128x64_S1024x64_1_0_0_1_n_n.contr.Idx) :
    (dot_S1024x128_S128x64_S1024x64_1_0_0_1_n_n.rhsIdx i q 0).val = (q ⟨0, by decide⟩).val :=
  dot_S1024x128_S128x64_S1024x64_1_0_0_1_n_n.rhsIdx_val_of_single rfl i q
private theorem rhsOut_1 (i : S1024x64.Idx) (q : dot_S1024x128_S128x64_S1024x64_1_0_0_1_n_n.contr.Idx) :
    (dot_S1024x128_S128x64_S1024x64_1_0_0_1_n_n.rhsIdx i q 1).val = (i 1).val := by
  unfold DotDims.rhsIdx
  rw [dif_neg (show ¬(1 : Fin S128x64.rank) ∈ dot_S1024x128_S128x64_S1024x64_1_0_0_1_n_n.rhsBatch by decide), dif_pos (show (1 : Fin S128x64.rank) ∈ dot_S1024x128_S128x64_S1024x64_1_0_0_1_n_n.rhsNonContracting by decide)]
  rfl

/-- Entry (p, c) of the product into the zero accumulator: the sum over the 128 contracted positions k of
    left (p, k) times right (k, c). -/
private theorem matmulOut_apply {φ₁ φ₂ : FTy} (lhs : FVec Ideal S1024x128 φ₁) (rhs : FVec Ideal S128x64 φ₂) (p : Fin 1024) (c : Fin 64) :
    matmul dot_S1024x128_S128x64_S1024x64_1_0_0_1_n_n none lhs rhs (constant (F := Ideal) S1024x64 .f32 0x00000000#32) (ix2 p c)
      = ∑ k : Fin 128, lhs (ix2 p k) * rhs (ix2 k c) := by
  simp only [matmul]
  rw [Ideal.matmul_constant_zero_apply, ← Equiv.sum_comp (contrEquiv1 dot_S1024x128_S128x64_S1024x64_1_0_0_1_n_n 128 rfl rfl).symm]
  refine Finset.sum_congr rfl fun k _ => ?_
  have hk := contrEquiv1_symm_val dot_S1024x128_S128x64_S1024x64_1_0_0_1_n_n 128 rfl rfl k
  have el : dot_S1024x128_S128x64_S1024x64_1_0_0_1_n_n.lhsIdx (ix2 p c) ((contrEquiv1 dot_S1024x128_S128x64_S1024x64_1_0_0_1_n_n 128 rfl rfl).symm k) = ix2 p k := funext fun a => Fin.ext (by
    match a with
    | ⟨0, _⟩ => exact lhsOut_0 _ _
    | ⟨1, _⟩ => exact (lhsOut_1 _ _).trans hk)
  have er : dot_S1024x128_S128x64_S1024x64_1_0_0_1_n_n.rhsIdx (ix2 p c) ((contrEquiv1 dot_S1024x128_S128x64_S1024x64_1_0_0_1_n_n 128 rfl rfl).symm k) = ix2 k c := funext fun a => Fin.ext (by
    match a with
    | ⟨0, _⟩ => exact (rhsOut_0 _ _).trans hk
    | ⟨1, _⟩ => exact rhsOut_1 _ _)
  rw [el, er]

/-! ## The resets and the accumulation steps -/

/-- A reset writes the zero word at every entry. -/
theorem reset_apply7 (r : Fin 1024) (f : Fin 64) : k0_pay7 (F := Ideal) (ix2 r f) = z := by
  unfold k0_pay7
  rw [shapeCast_self]
  rfl
theorem reset_apply8 (r : Fin 1024) (f : Fin 64) : k0_pay8 (F := Ideal) (ix2 r f) = z := by
  unfold k0_pay8
  rw [shapeCast_self]
  rfl
theorem reset_apply9 (r : Fin 1024) (f : Fin 64) : k0_pay9 (F := Ideal) (ix2 r f) = z := by
  unfold k0_pay9
  rw [shapeCast_self]
  rfl

/-- An accumulation step: the running tile plus the hop block times the tile of X, entry by entry. -/
theorem acc_apply11 (x3 a : Vec Ideal S1024x64 .f32) (hb : Vec Ideal S1024x1024 .f32) (r : Fin 1024) (f : Fin 64) :
    k0_pay11 (F := Ideal) x3 a hb (ix2 r f) = a (ix2 r f) + ∑ l : Fin 1024, hb (ix2 r l) * x3 (ix2 l f) := by
  unfold k0_pay11 k0_pay10
  rw [shapeCast_self, shapeCast_self, addf_apply, matmulHop_apply]
  rfl
theorem acc_apply12 (x3 a : Vec Ideal S1024x64 .f32) (hb : Vec Ideal S1024x1024 .f32) (r : Fin 1024) (f : Fin 64) :
    k0_pay12 (F := Ideal) x3 a hb (ix2 r f) = a (ix2 r f) + ∑ l : Fin 1024, hb (ix2 r l) * x3 (ix2 l f) := by
  unfold k0_pay12 k0_pay10
  rw [shapeCast_self, shapeCast_self, addf_apply, matmulHop_apply]
  rfl
theorem acc_apply13 (x3 a : Vec Ideal S1024x64 .f32) (hb : Vec Ideal S1024x1024 .f32) (r : Fin 1024) (f : Fin 64) :
    k0_pay13 (F := Ideal) x3 a hb (ix2 r f) = a (ix2 r f) + ∑ l : Fin 1024, hb (ix2 r l) * x3 (ix2 l f) := by
  unfold k0_pay13 k0_pay10
  rw [shapeCast_self, shapeCast_self, addf_apply, matmulHop_apply]
  rfl

/-! ## The layout steps around the two linear layers -/

/-- A [1, 128] bias row, flattened, restored and repeated down the 1024 rows, reads its own entry in every row. -/
private theorem biasRow128_apply (b : Vec Ideal S1x128 .f32) (h1 : S1x128.ShapeCasts S128) (h2 : S128.ShapeCasts S1x128)
    (h3 : S1x128.Broadcasts S1024x128) (r : Fin 1024) (h : Fin 128) :
    broadcastTo S1024x128 (shapeCast S1x128 (shapeCast S128 b h1) h2) h3 (ix2 r h) = b (ix2 0 h) := by
  rw [broadcastTo_1b_ab_apply, shapeCast_a_1a_apply, shapeCast_1a_a_apply]

/-- A [1, 64] bias row repeated down the 1024 rows reads its own entry in every row. -/
private theorem row64_apply (b : FVec Ideal S1x64 .f32) (h3 : S1x64.Broadcasts S1024x64) (r : Fin 1024) (o : Fin 64) :
    broadcastTo S1024x64 b h3 (ix2 r o) = b (ix2 0 o) := by
  rw [broadcastTo_1b_ab_apply]

/-- A [1, 64] bias row, flattened and restored, is itself. -/
private theorem biasRow64_eq (b : Vec Ideal S1x64 .f32) (h1 : S1x64.ShapeCasts S64) (h2 : S64.ShapeCasts S1x64) :
    shapeCast S1x64 (shapeCast S64 b h1) h2 = b := shapeCast_shapeCast b h1 h2

/-- The first linear layer on a row: entry (r, h) is the sum over the 64 features f of the row's f-th entry times
    the weight slice at (f, h). -/
private theorem layerIn_apply (s : Vec Ideal S1024x64 .f32) (w1 : Vec Ideal S1x64x128 .f32) (hc : S1x64x128.ShapeCasts S64x128)
    (hb : FTy.bits .bf16 < FTy.bits .f32) (r : Fin 1024) (h : Fin 128) :
    matmul dot_S1024x64_S64x128_S1024x128_1_0_0_1_n_n none (truncf .bf16 s hb) (truncf .bf16 (shapeCast S64x128 w1 hc) hb)
        (constant (F := Ideal) S1024x128 .f32 0x00000000#32) (ix2 r h)
      = ∑ f : Fin 64, s (ix2 r f) * w1 (ix3 0 f h) := by
  rw [matmulIn_apply]
  refine Finset.sum_congr rfl fun f _ => ?_
  rw [truncf_apply, truncf_apply, shapeCast_1ab_ab_apply]

/-- The second linear layer on a row of hidden units: entry (r, o) is the sum over the 128 hidden units h of the
    row's h-th entry times the weight slice at (h, o). -/
private theorem layerOut_apply (hv : FVec Ideal S1024x128 .f32) (w2 : Vec Ideal S1x128x64 .f32) (hc : S1x128x64.ShapeCasts S128x64)
    (hb : FTy.bits .bf16 < FTy.bits .f32) (r : Fin 1024) (o : Fin 64) :
    matmul dot_S1024x128_S128x64_S1024x64_1_0_0_1_n_n none (truncf .bf16 hv hb) (truncf .bf16 (shapeCast S128x64 w2 hc) hb)
        (constant (F := Ideal) S1024x64 .f32 0x00000000#32) (ix2 r o)
      = ∑ h : Fin 128, hv (ix2 r h) * w2 (ix3 0 h o) := by
  rw [matmulOut_apply]
  refine Finset.sum_congr rfl fun h _ => ?_
  rw [truncf_apply, truncf_apply, shapeCast_1ab_ab_apply]

/-! ## The pieces of the last step, each at an entry -/

/-- The first layer's products of a branch, before the bias. -/
private theorem pay3_apply (s : Vec Ideal S1024x64 .f32) (w1 : Vec Ideal S1x64x128 .f32) (r : Fin 1024) (h : Fin 128) :
    k0_pay3 (F := Ideal) s w1 (ix2 r h) = ∑ f : Fin 64, s (ix2 r f) * w1 (ix3 0 f h) := by
  unfold k0_pay3
  exact layerIn_apply s w1 _ _ r h

/-- From the first layer's products to the branch's output: bias, maximum with the zero word, second layer, bias;
    added to what came before. -/
private theorem pay4_apply (prev : FVec Ideal S1024x64 .f32) (pre : FVec Ideal S1024x128 .f32) (b1 : Vec Ideal S1x128 .f32)
    (w2 : Vec Ideal S1x128x64 .f32) (b2 : Vec Ideal S1x64 .f32) (r : Fin 1024) (o : Fin 64) :
    k0_pay4 (F := Ideal) prev pre b1 w2 b2 (ix2 r o)
      = prev (ix2 r o) + ((∑ h : Fin 128, max (pre (ix2 r h) + b1 (ix2 0 h)) z * w2 (ix3 0 h o)) + b2 (ix2 0 o)) := by
  unfold k0_pay4
  rw [addf_apply, addf_apply, layerOut_apply, biasRow64_eq, row64_apply]
  refine congrArg (fun t => prev (ix2 r o) + (t + b2 (ix2 0 o))) (Finset.sum_congr rfl fun h _ => ?_)
  rw [maximumf_apply, addf_apply, biasRow128_apply]
  rfl

/-- A whole branch from its input row, added to the zero word. -/
private theorem pay2_apply (xm : Vec Ideal S1024x64 .f32) (w1 : Vec Ideal S1x64x128 .f32) (b1 : Vec Ideal S1x128 .f32)
    (w2 : Vec Ideal S1x128x64 .f32) (b2 : Vec Ideal S1x64 .f32) (r : Fin 1024) (o : Fin 64) :
    k0_pay2 (F := Ideal) xm w1 b1 w2 b2 (ix2 r o)
      = z + ((∑ h : Fin 128, max ((∑ f : Fin 64, xm (ix2 r f) * w1 (ix3 0 f h)) + b1 (ix2 0 h)) z * w2 (ix3 0 h o))
          + b2 (ix2 0 o)) := by
  unfold k0_pay2
  rw [addf_apply, addf_apply, layerOut_apply, biasRow64_eq, row64_apply, shapeCast_self]
  refine congrArg (fun t => z + (t + b2 (ix2 0 o))) (Finset.sum_congr rfl fun h _ => ?_)
  rw [maximumf_apply, addf_apply, biasRow128_apply, layerIn_apply]
  rfl

/-- A branch from its input row up to the second layer's products, before the last bias. -/
private theorem pay5_apply (s : Vec Ideal S1024x64 .f32) (w1 : Vec Ideal S1x64x128 .f32) (b1 : Vec Ideal S1x128 .f32)
    (w2 : Vec Ideal S1x128x64 .f32) (r : Fin 1024) (o : Fin 64) :
    k0_pay5 (F := Ideal) s w1 b1 w2 (ix2 r o)
      = ∑ h : Fin 128, max ((∑ f : Fin 64, s (ix2 r f) * w1 (ix3 0 f h)) + b1 (ix2 0 h)) z * w2 (ix3 0 h o) := by
  unfold k0_pay5
  rw [layerOut_apply]
  refine Finset.sum_congr rfl fun h _ => ?_
  rw [maximumf_apply, addf_apply, biasRow128_apply, layerIn_apply]
  rfl

/-- The last bias row of that branch, flattened and restored, is itself. -/
private theorem pay6_eq (b2 : Vec Ideal S1x64 .f32) : k0_pay6 (F := Ideal) b2 = b2 := by
  unfold k0_pay6
  exact biasRow64_eq b2 _ _

/-- The closing sum: what the earlier branches left, plus the pending bias, plus the last branch from its input row. -/
private theorem pay1_apply (s : Vec Ideal S1024x64 .f32) (prev pend : FVec Ideal S1024x64 .f32) (pb : FVec Ideal S1x64 .f32)
    (w1 : Vec Ideal S1x64x128 .f32) (b1 : Vec Ideal S1x128 .f32) (w2 : Vec Ideal S1x128x64 .f32) (b2 : Vec Ideal S1x64 .f32)
    (r : Fin 1024) (o : Fin 64) :
    k0_pay1 (F := Ideal) s prev pend pb w1 b1 w2 b2 (ix2 r o)
      = (prev (ix2 r o) + (pend (ix2 r o) + pb (ix2 0 o)))
        + ((∑ h : Fin 128, max ((∑ f : Fin 64, s (ix2 r f) * w1 (ix3 0 f h)) + b1 (ix2 0 h)) z * w2 (ix3 0 h o))
          + b2 (ix2 0 o)) := by
  unfold k0_pay1
  rw [addf_apply, addf_apply, addf_apply, addf_apply, layerOut_apply, biasRow64_eq, row64_apply, row64_apply]
  refine congrArg (fun t => (prev (ix2 r o) + (pend (ix2 r o) + pb (ix2 0 o))) + (t + b2 (ix2 0 o)))
    (Finset.sum_congr rfl fun h _ => ?_)
  rw [maximumf_apply, addf_apply, biasRow128_apply, layerIn_apply]
  rfl

/-! ## The last step against the specification -/

/-- A branch written over its own weight slices is the specification's branch b, when the slices are the b-th
    slices of the stacked weights. -/
private theorem branch_eq (W1 : SW1.Idx → EReal) (B1 : SB1.Idx → EReal) (W2 : SW2.Idx → EReal) (B2 : SB2.Idx → EReal) (b : Fin 4)
    (w1 : Vec Ideal S1x64x128 .f32) (b1 : Vec Ideal S1x128 .f32) (w2 : Vec Ideal S1x128x64 .f32) (b2 : Vec Ideal S1x64 .f32)
    (hw1 : ∀ (f : Fin 64) (h : Fin 128), w1 (ix3 0 f h) = W1 (ix3 b f h))
    (hb1 : ∀ h : Fin 128, b1 (ix2 0 h) = B1 (ix2 b h))
    (hw2 : ∀ (h : Fin 128) (o : Fin 64), w2 (ix3 0 h o) = W2 (ix3 b h o))
    (hb2 : ∀ o : Fin 64, b2 (ix2 0 o) = B2 (ix2 b o))
    (inp : Fin 64 → EReal) (o : Fin 64) :
    (∑ h : Fin 128, max ((∑ f : Fin 64, inp f * w1 (ix3 0 f h)) + b1 (ix2 0 h)) z * w2 (ix3 0 h o)) + b2 (ix2 0 o)
      = branchOut W1 B1 W2 B2 b inp o := by
  unfold branchOut GnnSpec.hidden
  rw [hb2]
  refine congrArg (· + B2 (ix2 b o)) (Finset.sum_congr rfl fun h _ => ?_)
  rw [hw2, hb1]
  refine congrArg (fun t => max (t + B1 (ix2 b h)) z * W2 (ix3 b h o)) (Finset.sum_congr rfl fun f _ => ?_)
  rw [hw1]

/-- The entry the last step stores: the zero word plus the four branches, grouped from the left. -/
theorem out_apply
    (xm s1 s2 s3 : Vec Ideal S1024x64 .f32)
    (w1_0 w1_1 w1_2 w1_3 : Vec Ideal S1x64x128 .f32) (b1_0 b1_1 b1_2 b1_3 : Vec Ideal S1x128 .f32)
    (w2_0 w2_1 w2_2 w2_3 : Vec Ideal S1x128x64 .f32) (b2_0 b2_1 b2_2 b2_3 : Vec Ideal S1x64 .f32)
    (W1 : SW1.Idx → EReal) (B1 : SB1.Idx → EReal) (W2 : SW2.Idx → EReal) (B2 : SB2.Idx → EReal)
    (hw1_0 : ∀ (f : Fin 64) (h : Fin 128), w1_0 (ix3 0 f h) = W1 (ix3 0 f h))
    (hw1_1 : ∀ (f : Fin 64) (h : Fin 128), w1_1 (ix3 0 f h) = W1 (ix3 1 f h))
    (hw1_2 : ∀ (f : Fin 64) (h : Fin 128), w1_2 (ix3 0 f h) = W1 (ix3 2 f h))
    (hw1_3 : ∀ (f : Fin 64) (h : Fin 128), w1_3 (ix3 0 f h) = W1 (ix3 3 f h))
    (hb1_0 : ∀ h : Fin 128, b1_0 (ix2 0 h) = B1 (ix2 0 h))
    (hb1_1 : ∀ h : Fin 128, b1_1 (ix2 0 h) = B1 (ix2 1 h))
    (hb1_2 : ∀ h : Fin 128, b1_2 (ix2 0 h) = B1 (ix2 2 h))
    (hb1_3 : ∀ h : Fin 128, b1_3 (ix2 0 h) = B1 (ix2 3 h))
    (hw2_0 : ∀ (h : Fin 128) (o : Fin 64), w2_0 (ix3 0 h o) = W2 (ix3 0 h o))
    (hw2_1 : ∀ (h : Fin 128) (o : Fin 64), w2_1 (ix3 0 h o) = W2 (ix3 1 h o))
    (hw2_2 : ∀ (h : Fin 128) (o : Fin 64), w2_2 (ix3 0 h o) = W2 (ix3 2 h o))
    (hw2_3 : ∀ (h : Fin 128) (o : Fin 64), w2_3 (ix3 0 h o) = W2 (ix3 3 h o))
    (hb2_0 : ∀ o : Fin 64, b2_0 (ix2 0 o) = B2 (ix2 0 o))
    (hb2_1 : ∀ o : Fin 64, b2_1 (ix2 0 o) = B2 (ix2 1 o))
    (hb2_2 : ∀ o : Fin 64, b2_2 (ix2 0 o) = B2 (ix2 2 o))
    (hb2_3 : ∀ o : Fin 64, b2_3 (ix2 0 o) = B2 (ix2 3 o))
    (r : Fin 1024) (o : Fin 64) :
    k0_pay1 (F := Ideal) s3 (k0_pay4 (k0_pay2 xm w1_0 b1_0 w2_0 b2_0) (k0_pay3 s1 w1_1) b1_1 w2_1 b2_1)
        (k0_pay5 s2 w1_2 b1_2 w2_2) (k0_pay6 b2_2) w1_3 b1_3 w2_3 b2_3 (ix2 r o)
      = (((z + branchOut W1 B1 W2 B2 0 (fun f => xm (ix2 r f)) o)
            + branchOut W1 B1 W2 B2 1 (fun f => s1 (ix2 r f)) o)
            + branchOut W1 B1 W2 B2 2 (fun f => s2 (ix2 r f)) o)
            + branchOut W1 B1 W2 B2 3 (fun f => s3 (ix2 r f)) o := by
  rw [pay1_apply, pay4_apply, pay2_apply, pay5_apply, pay6_eq]
  simp only [pay3_apply]
  rw [← branch_eq W1 B1 W2 B2 0 w1_0 b1_0 w2_0 b2_0 hw1_0 hb1_0 hw2_0 hb2_0 (fun f => xm (ix2 r f)) o,
    ← branch_eq W1 B1 W2 B2 1 w1_1 b1_1 w2_1 b2_1 hw1_1 hb1_1 hw2_1 hb2_1 (fun f => s1 (ix2 r f)) o,
    ← branch_eq W1 B1 W2 B2 2 w1_2 b1_2 w2_2 b2_2 hw1_2 hb1_2 hw2_2 hb2_2 (fun f => s2 (ix2 r f)) o,
    ← branch_eq W1 B1 W2 B2 3 w1_3 b1_3 w2_3 b2_3 hw1_3 hb1_3 hw2_3 hb2_3 (fun f => s3 (ix2 r f)) o]

end Cert.KernelIdeal.PayloadIdeal

end
-- ==== Proof.AccMath.lean ====
/-
  The accumulation over the eight tiles, as mathematics.

  Row n = 1024 i + r of the product H X is a sum over all 8192 nodes.  Cut the nodes into 8 tiles of 1024: the sum is
  the sum over the tiles k of the tile products (the 1024 terms of tile k).  A running sum that starts from the zero
  word, adds tile 0, then tile 1, … holds after tile 7 the whole row sum.  Only that + on the extended reals is
  associative and commutative, and that the zero word is 0, is used.
-/
import proofs.«154867_j70961449664572_1_alg».proof.Proof.Spec

noncomputable section

namespace Cert.GnnSpec

open Idealize.ShloMosaic Idealize.ShloMosaic.ValueIdx

/-- The product of tile i's row r of H with tile k of X at feature f (zero outside the 8 x 8 tiles). -/
def tileN (H : SH.Idx → EReal) (X : SX.Idx → EReal) (i k : ℕ) (r : Fin 1024) (f : Fin 64) : EReal :=
  if h : i < 8 ∧ k < 8 then
    ∑ l : Fin 1024, H (ix2 (⟨1024 * i + r.val, by omega⟩ : Fin 8192) (⟨1024 * k + l.val, by omega⟩ : Fin 8192))
      * X (ix2 (⟨1024 * k + l.val, by omega⟩ : Fin 8192) f)
  else 0

/-- The running sum after tile k: the zero word, then tiles 0 … k added in order. -/
def partialAcc (H : SH.Idx → EReal) (X : SX.Idx → EReal) (i k : ℕ) (r : Fin 1024) (f : Fin 64) : EReal :=
  z + ∑ k' ∈ Finset.range (k + 1), tileN H X i k' r f

theorem partialAcc_zero (H : SH.Idx → EReal) (X : SX.Idx → EReal) (i : ℕ) (r : Fin 1024) (f : Fin 64) :
    partialAcc H X i 0 r f = z + tileN H X i 0 r f := by
  unfold partialAcc; rw [Finset.sum_range_one]

theorem partialAcc_succ (H : SH.Idx → EReal) (X : SX.Idx → EReal) (i k : ℕ) (r : Fin 1024) (f : Fin 64) :
    partialAcc H X i (k + 1) r f = partialAcc H X i k r f + tileN H X i (k + 1) r f := by
  unfold partialAcc; rw [Finset.sum_range_succ _ (k + 1), add_assoc]

/-- A tile product read off a hop tile and an X tile that hold those parts of H and X. -/
theorem tile_of_blocks (H : SH.Idx → EReal) (X : SX.Idx → EReal) (i k : ℕ) (hi : i < 8) (hk : k < 8)
    (hb : (⟨2, ![1024, 1024]⟩ : Shape).Idx → EReal) (xk : (⟨2, ![1024, 64]⟩ : Shape).Idx → EReal)
    (hhb : ∀ r l : Fin 1024, hb (ix2 r l) = H (ix2 (⟨1024 * i + r.val, by omega⟩ : Fin 8192) (⟨1024 * k + l.val, by omega⟩ : Fin 8192)))
    (hxk : ∀ (l : Fin 1024) (f : Fin 64), xk (ix2 l f) = X (ix2 (⟨1024 * k + l.val, by omega⟩ : Fin 8192) f))
    (r : Fin 1024) (f : Fin 64) :
    ∑ l : Fin 1024, hb (ix2 r l) * xk (ix2 l f) = tileN H X i k r f := by
  unfold tileN
  rw [dif_pos ⟨hi, hk⟩]
  exact Finset.sum_congr rfl fun l _ => by rw [hhb, hxk]

/-- After all eight tiles the running sum is the row of the whole product. -/
theorem partialAcc_full (H : SH.Idx → EReal) (X : SX.Idx → EReal) (i : ℕ) (hi : i < 8) (r : Fin 1024) (f : Fin 64) :
    partialAcc H X i 7 r f = agg H X (⟨1024 * i + r.val, by omega⟩ : Fin 8192) f := by
  unfold partialAcc agg
  rw [show z = 0 from Ideal.ofBits_zero_f32, zero_add, Finset.sum_range, sum_tiles]
  refine Finset.sum_congr rfl fun k _ => ?_
  unfold tileN
  rw [dif_pos ⟨hi, k.isLt⟩]
  refine Finset.sum_congr rfl fun l _ => ?_
  have e : (⟨1024 * k.val + l.val, by omega⟩ : Fin 8192) = ⟨k.val * 1024 + l.val, by omega⟩ :=
    Fin.ext (by show 1024 * k.val + l.val = k.val * 1024 + l.val; omega)
  rw [e]

end Cert.GnnSpec

end
-- ==== Proof.KI.Value.lean ====
/-
  The kernel's values, at the extended reals.

  After the point (i, k) accumulator j holds, at row r and feature f, the zero word plus the tile products 0 … k of
  hop matrix j's row 1024 i + r with the node-feature matrix: by induction along the points, one step of the body's
  arithmetic per point.  At k = 7 that is the whole row of the product, and the output's buffer holds the result G at
  the rows of tile i: the four perceptrons on the identity rows and on the three product rows, summed from the zero word.
-/
import proofs.«154867_j70961449664572_1_alg».proof.Proof.KI.Contents
import proofs.«154867_j70961449664572_1_alg».proof.Proof.KI.BlockReads
import proofs.«154867_j70961449664572_1_alg».proof.Proof.KI.Final
import proofs.«154867_j70961449664572_1_alg».proof.Proof.KI.Launch
import proofs.«154867_j70961449664572_1_alg».proof.Proof.PayloadIdeal
import proofs.«154867_j70961449664572_1_alg».proof.Proof.AccMath

set_option maxRecDepth 16384

noncomputable section

namespace Cert.KernelIdeal.Val

open Cert.KernelIdeal Cert.KernelIdeal.Gen Cert.KernelIdeal.Fr Cert.KernelIdeal.PayloadIdeal Cert.GnnSpec
open Idealize.ShloMosaic Idealize.ShloMosaic.TcCoe Idealize.ShloMosaic.ValueIdx Idealize.SL.Sem

variable (m : (ℓ : Loc nD τ sig) → Buf (Elt Ideal) ℓ) (ρ : Dev nD → PrngReg)

/-! ## The arrays as the region finds them, at their literal types -/

/-- The node-feature matrix. -/
abbrev Xa (c : Dev nD) : Vec Ideal S8192x64 .f32 := V m c main_v0
/-- The three hop matrices. -/
abbrev H0a (c : Dev nD) : Vec Ideal S8192x8192 .f32 := V m c main_arg2
abbrev H1a (c : Dev nD) : Vec Ideal S8192x8192 .f32 := V m c main_arg3
abbrev H2a (c : Dev nD) : Vec Ideal S8192x8192 .f32 := V m c main_arg4
/-- The perceptrons' weights and biases. -/
abbrev W1a (c : Dev nD) : Vec Ideal S4x64x128 .f32 := V m c main_arg5
abbrev B1a (c : Dev nD) : Vec Ideal S4x128 .f32 := V m c main_arg6
abbrev W2a (c : Dev nD) : Vec Ideal S4x128x64 .f32 := V m c main_arg7
abbrev B2a (c : Dev nD) : Vec Ideal S4x64 .f32 := V m c main_arg8

theorem Xa_eq (c : Dev nD) : Xa m c = concatenate S8192x64 1 [⟨S8192x48, m ((c : Thread nD τ).loc main_arg0)⟩, ⟨S8192x16, m ((c : Thread nD τ).loc main_arg1)⟩] concatenates_S8192x48_S8192x16_S8192x64_d1 := V_main_v0 m c
theorem H0a_eq (c : Dev nD) : H0a m c = m ((c : Thread nD τ).loc main_arg2) := V_main_arg2 m c
theorem H1a_eq (c : Dev nD) : H1a m c = m ((c : Thread nD τ).loc main_arg3) := V_main_arg3 m c
theorem H2a_eq (c : Dev nD) : H2a m c = m ((c : Thread nD τ).loc main_arg4) := V_main_arg4 m c
theorem W1a_eq (c : Dev nD) : W1a m c = m ((c : Thread nD τ).loc main_arg5) := V_main_arg5 m c
theorem B1a_eq (c : Dev nD) : B1a m c = m ((c : Thread nD τ).loc main_arg6) := V_main_arg6 m c
theorem W2a_eq (c : Dev nD) : W2a m c = m ((c : Thread nD τ).loc main_arg7) := V_main_arg7 m c
theorem B2a_eq (c : Dev nD) : B2a m c = m ((c : Thread nD τ).loc main_arg8) := V_main_arg8 m c

/-! ## The accumulators, point by point -/

/-- Accumulator 0 after a point with k = 0: the zero word plus tile product 0. -/
theorem acc0_at_first (c : Dev nD) (n : ℕ) (hn : n < cfg0.N) (h0 : n % 8 = 0) (r : Fin 1024) (f : Fin 64) :
    (outsAt0 m c n hn).2.1 (ix2 r f) = partialAcc (H0a m c) (Xa m c) (n / 8) 0 r f := by
  have h64 : n < 64 := lt_of_lt_of_eq hn N_0
  refine (congrFun (acc0_first m c ⟨n, hn⟩ h0) (ix2 r f)).trans ?_
  refine (acc_apply11 (iblk m c 3 ⟨n, hn⟩) (k0_pay7 (F := Ideal)) (iblk m c 0 ⟨n, hn⟩) r f).trans ?_
  rw [reset_apply7, partialAcc_zero]
  refine congrArg (z + ·) ?_
  have e := tile_of_blocks (H0a m c) (Xa m c) (n / 8) (n % 8) (by omega) (by omega) (iblk m c 0 ⟨n, hn⟩) (iblk m c 3 ⟨n, hn⟩)
    (fun r l => hop_read0 m c ⟨n, hn⟩ r l) (fun l f => xk_read m c ⟨n, hn⟩ l f) r f
  rw [h0] at e
  exact e

/-- Accumulator 0 after any other point: what the point before left, plus this point's tile product. -/
theorem acc0_at_step (c : Dev nD) (n : ℕ) (hn : n + 1 < cfg0.N) (h0 : ¬(n + 1) % 8 = 0) (r : Fin 1024) (f : Fin 64) :
    (outsAt0 m c (n + 1) hn).2.1 (ix2 r f)
      = (outsAt0 m c n (Nat.lt_of_succ_lt hn)).2.1 (ix2 r f) + tileN (H0a m c) (Xa m c) ((n + 1) / 8) ((n + 1) % 8) r f := by
  have h64 : n + 1 < 64 := lt_of_lt_of_eq hn N_0
  refine (congrFun (acc0_step m c ⟨n + 1, hn⟩ h0) (ix2 r f)).trans ?_
  refine (acc_apply11 (iblk m c 3 ⟨n + 1, hn⟩) (prevAt m c ⟨n + 1, hn⟩).2.1 (iblk m c 0 ⟨n + 1, hn⟩) r f).trans ?_
  refine congrArg₂ (· + ·) rfl ?_
  exact tile_of_blocks (H0a m c) (Xa m c) ((n + 1) / 8) ((n + 1) % 8) (by omega) (by omega) (iblk m c 0 ⟨n + 1, hn⟩) (iblk m c 3 ⟨n + 1, hn⟩)
    (fun r l => hop_read0 m c ⟨n + 1, hn⟩ r l) (fun l f => xk_read m c ⟨n + 1, hn⟩ l f) r f

/-- Accumulator 0 after the point (i, k): the running sum through tile k. -/
theorem acc0_inv (c : Dev nD) : ∀ (n : ℕ) (hn : n < cfg0.N) (r : Fin 1024) (f : Fin 64),
    (outsAt0 m c n hn).2.1 (ix2 r f) = partialAcc (H0a m c) (Xa m c) (n / 8) (n % 8) r f
  | 0, hn, r, f => acc0_at_first m c 0 hn rfl r f
  | n + 1, hn, r, f => by
    by_cases h0 : (n + 1) % 8 = 0
    · rw [h0]; exact acc0_at_first m c (n + 1) hn h0 r f
    · have e1 : (n + 1) / 8 = n / 8 := by omega
      have e2 : (n + 1) % 8 = n % 8 + 1 := by omega
      refine (acc0_at_step m c n hn h0 r f).trans ?_
      rw [acc0_inv c n (Nat.lt_of_succ_lt hn) r f, e1, e2, partialAcc_succ]

/-- At k = 7 accumulator 0 holds the rows of the whole product of hop matrix 0 with the node-feature matrix. -/
theorem acc0_total (c : Dev nD) (t : Fin cfg0.N) (h7 : t.val % 8 = 7) (r : Fin 1024) (f : Fin 64) :
    (outsAt0 m c t.val t.isLt).2.1 (ix2 r f) = agg (H0a m c) (Xa m c) (⟨1024 * (t.val / 8) + r.val, by have := pt_lt t; omega⟩ : Fin 8192) f := by
  rw [acc0_inv m c t.val t.isLt r f, h7]
  exact partialAcc_full _ _ _ (by have := pt_lt t; omega) r f

/-- Accumulator 1 after a point with k = 0: the zero word plus tile product 0. -/
theorem acc1_at_first (c : Dev nD) (n : ℕ) (hn : n < cfg0.N) (h0 : n % 8 = 0) (r : Fin 1024) (f : Fin 64) :
    (outsAt0 m c n hn).2.2.1 (ix2 r f) = partialAcc (H1a m c) (Xa m c) (n / 8) 0 r f := by
  have h64 : n < 64 := lt_of_lt_of_eq hn N_0
  refine (congrFun (acc1_first m c ⟨n, hn⟩ h0) (ix2 r f)).trans ?_
  refine (acc_apply12 (iblk m c 3 ⟨n, hn⟩) (k0_pay8 (F := Ideal)) (iblk m c 1 ⟨n, hn⟩) r f).trans ?_
  rw [reset_apply8, partialAcc_zero]
  refine congrArg (z + ·) ?_
  have e := tile_of_blocks (H1a m c) (Xa m c) (n / 8) (n % 8) (by omega) (by omega) (iblk m c 1 ⟨n, hn⟩) (iblk m c 3 ⟨n, hn⟩)
    (fun r l => hop_read1 m c ⟨n, hn⟩ r l) (fun l f => xk_read m c ⟨n, hn⟩ l f) r f
  rw [h0] at e
  exact e

/-- Accumulator 1 after any other point: what the point before left, plus this point's tile product. -/
theorem acc1_at_step (c : Dev nD) (n : ℕ) (hn : n + 1 < cfg0.N) (h0 : ¬(n + 1) % 8 = 0) (r : Fin 1024) (f : Fin 64) :
    (outsAt0 m c (n + 1) hn).2.2.1 (ix2 r f)
      = (outsAt0 m c n (Nat.lt_of_succ_lt hn)).2.2.1 (ix2 r f) + tileN (H1a m c) (Xa m c) ((n + 1) / 8) ((n + 1) % 8) r f := by
  have h64 : n + 1 < 64 := lt_of_lt_of_eq hn N_0
  refine (congrFun (acc1_step m c ⟨n + 1, hn⟩ h0) (ix2 r f)).trans ?_
  refine (acc_apply12 (iblk m c 3 ⟨n + 1, hn⟩) (prevAt m c ⟨n + 1, hn⟩).2.2.1 (iblk m c 1 ⟨n + 1, hn⟩) r f).trans ?_
  refine congrArg₂ (· + ·) rfl ?_
  exact tile_of_blocks (H1a m c) (Xa m c) ((n + 1) / 8) ((n + 1) % 8) (by omega) (by omega) (iblk m c 1 ⟨n + 1, hn⟩) (iblk m c 3 ⟨n + 1, hn⟩)
    (fun r l => hop_read1 m c ⟨n + 1, hn⟩ r l) (fun l f => xk_read m c ⟨n + 1, hn⟩ l f) r f

/-- Accumulator 1 after the point (i, k): the running sum through tile k. -/
theorem acc1_inv (c : Dev nD) : ∀ (n : ℕ) (hn : n < cfg0.N) (r : Fin 1024) (f : Fin 64),
    (outsAt0 m c n hn).2.2.1 (ix2 r f) = partialAcc (H1a m c) (Xa m c) (n / 8) (n % 8) r f
  | 0, hn, r, f => acc1_at_first m c 0 hn rfl r f
  | n + 1, hn, r, f => by
    by_cases h0 : (n + 1) % 8 = 0
    · rw [h0]; exact acc1_at_first m c (n + 1) hn h0 r f
    · have e1 : (n + 1) / 8 = n / 8 := by omega
      have e2 : (n + 1) % 8 = n % 8 + 1 := by omega
      refine (acc1_at_step m c n hn h0 r f).trans ?_
      rw [acc1_inv c n (Nat.lt_of_succ_lt hn) r f, e1, e2, partialAcc_succ]

/-- At k = 7 accumulator 1 holds the rows of the whole product of hop matrix 1 with the node-feature matrix. -/
theorem acc1_total (c : Dev nD) (t : Fin cfg0.N) (h7 : t.val % 8 = 7) (r : Fin 1024) (f : Fin 64) :
    (outsAt0 m c t.val t.isLt).2.2.1 (ix2 r f) = agg (H1a m c) (Xa m c) (⟨1024 * (t.val / 8) + r.val, by have := pt_lt t; omega⟩ : Fin 8192) f := by
  rw [acc1_inv m c t.val t.isLt r f, h7]
  exact partialAcc_full _ _ _ (by have := pt_lt t; omega) r f

/-- Accumulator 2 after a point with k = 0: the zero word plus tile product 0. -/
theorem acc2_at_first (c : Dev nD) (n : ℕ) (hn : n < cfg0.N) (h0 : n % 8 = 0) (r : Fin 1024) (f : Fin 64) :
    (outsAt0 m c n hn).2.2.2 (ix2 r f) = partialAcc (H2a m c) (Xa m c) (n / 8) 0 r f := by
  have h64 : n < 64 := lt_of_lt_of_eq hn N_0
  refine (congrFun (acc2_first m c ⟨n, hn⟩ h0) (ix2 r f)).trans ?_
  refine (acc_apply13 (iblk m c 3 ⟨n, hn⟩) (k0_pay9 (F := Ideal)) (iblk m c 2 ⟨n, hn⟩) r f).trans ?_
  rw [reset_apply9, partialAcc_zero]
  refine congrArg (z + ·) ?_
  have e := tile_of_blocks (H2a m c) (Xa m c) (n / 8) (n % 8) (by omega) (by omega) (iblk m c 2 ⟨n, hn⟩) (iblk m c 3 ⟨n, hn⟩)
    (fun r l => hop_read2 m c ⟨n, hn⟩ r l) (fun l f => xk_read m c ⟨n, hn⟩ l f) r f
  rw [h0] at e
  exact e

/-- Accumulator 2 after any other point: what the point before left, plus this point's tile product. -/
theorem acc2_at_step (c : Dev nD) (n : ℕ) (hn : n + 1 < cfg0.N) (h0 : ¬(n + 1) % 8 = 0) (r : Fin 1024) (f : Fin 64) :
    (outsAt0 m c (n + 1) hn).2.2.2 (ix2 r f)
      = (outsAt0 m c n (Nat.lt_of_succ_lt hn)).2.2.2 (ix2 r f) + tileN (H2a m c) (Xa m c) ((n + 1) / 8) ((n + 1) % 8) r f := by
  have h64 : n + 1 < 64 := lt_of_lt_of_eq hn N_0
  refine (congrFun (acc2_step m c ⟨n + 1, hn⟩ h0) (ix2 r f)).trans ?_
  refine (acc_apply13 (iblk m c 3 ⟨n + 1, hn⟩) (prevAt m c ⟨n + 1, hn⟩).2.2.2 (iblk m c 2 ⟨n + 1, hn⟩) r f).trans ?_
  refine congrArg₂ (· + ·) rfl ?_
  exact tile_of_blocks (H2a m c) (Xa m c) ((n + 1) / 8) ((n + 1) % 8) (by omega) (by omega) (iblk m c 2 ⟨n + 1, hn⟩) (iblk m c 3 ⟨n + 1, hn⟩)
    (fun r l => hop_read2 m c ⟨n + 1, hn⟩ r l) (fun l f => xk_read m c ⟨n + 1, hn⟩ l f) r f

/-- Accumulator 2 after the point (i, k): the running sum through tile k. -/
theorem acc2_inv (c : Dev nD) : ∀ (n : ℕ) (hn : n < cfg0.N) (r : Fin 1024) (f : Fin 64),
    (outsAt0 m c n hn).2.2.2 (ix2 r f) = partialAcc (H2a m c) (Xa m c) (n / 8) (n % 8) r f
  | 0, hn, r, f => acc2_at_first m c 0 hn rfl r f
  | n + 1, hn, r, f => by
    by_cases h0 : (n + 1) % 8 = 0
    · rw [h0]; exact acc2_at_first m c (n + 1) hn h0 r f
    · have e1 : (n + 1) / 8 = n / 8 := by omega
      have e2 : (n + 1) % 8 = n % 8 + 1 := by omega
      refine (acc2_at_step m c n hn h0 r f).trans ?_
      rw [acc2_inv c n (Nat.lt_of_succ_lt hn) r f, e1, e2, partialAcc_succ]

/-- At k = 7 accumulator 2 holds the rows of the whole product of hop matrix 2 with the node-feature matrix. -/
theorem acc2_total (c : Dev nD) (t : Fin cfg0.N) (h7 : t.val % 8 = 7) (r : Fin 1024) (f : Fin 64) :
    (outsAt0 m c t.val t.isLt).2.2.2 (ix2 r f) = agg (H2a m c) (Xa m c) (⟨1024 * (t.val / 8) + r.val, by have := pt_lt t; omega⟩ : Fin 8192) f := by
  rw [acc2_inv m c t.val t.isLt r f, h7]
  exact partialAcc_full _ _ _ (by have := pt_lt t; omega) r f

/-! ## The output tile -/

/-- At k = 7 the output's buffer holds the result at the rows of tile i. -/
theorem out_value (c : Dev nD) (t : Fin cfg0.N) (h7 : t.val % 8 = 7) (r : Fin 1024) (o : Fin 64) :
    (outsAt0 m c t.val t.isLt).1 (ix2 r o)
      = G (Xa m c) (H0a m c) (H1a m c) (H2a m c) (W1a m c) (B1a m c) (W2a m c) (B2a m c) (ix2 (⟨1024 * (t.val / 8) + r.val, by have := pt_lt t; omega⟩ : Fin 8192) o) := by
  refine (congrFun (out_last m c t h7) (ix2 r o)).trans ?_
  unfold outTerm
  refine (out_apply (iblk m c 4 t) (outsAt0 m c t.val t.isLt).2.1 (outsAt0 m c t.val t.isLt).2.2.1 (outsAt0 m c t.val t.isLt).2.2.2
      (View.ld (iblk m c 5 t) (Rect.unit ![0, 0, 0] ![1, 64, 128] inb_S4x64x128_S1x64x128_0_0_0))
      (View.ld (iblk m c 5 t) (Rect.unit ![1, 0, 0] ![1, 64, 128] inb_S4x64x128_S1x64x128_1_0_0))
      (View.ld (iblk m c 5 t) (Rect.unit ![2, 0, 0] ![1, 64, 128] inb_S4x64x128_S1x64x128_2_0_0))
      (View.ld (iblk m c 5 t) (Rect.unit ![3, 0, 0] ![1, 64, 128] inb_S4x64x128_S1x64x128_3_0_0))
      (View.ld (iblk m c 6 t) (Rect.unit ![0, 0] ![1, 128] inb_S4x128_S1x128_0_0))
      (View.ld (iblk m c 6 t) (Rect.unit ![1, 0] ![1, 128] inb_S4x128_S1x128_1_0))
      (View.ld (iblk m c 6 t) (Rect.unit ![2, 0] ![1, 128] inb_S4x128_S1x128_2_0))
      (View.ld (iblk m c 6 t) (Rect.unit ![3, 0] ![1, 128] inb_S4x128_S1x128_3_0))
      (View.ld (iblk m c 7 t) (Rect.unit ![0, 0, 0] ![1, 128, 64] inb_S4x128x64_S1x128x64_0_0_0))
      (View.ld (iblk m c 7 t) (Rect.unit ![1, 0, 0] ![1, 128, 64] inb_S4x128x64_S1x128x64_1_0_0))
      (View.ld (iblk m c 7 t) (Rect.unit ![2, 0, 0] ![1, 128, 64] inb_S4x128x64_S1x128x64_2_0_0))
      (View.ld (iblk m c 7 t) (Rect.unit ![3, 0, 0] ![1, 128, 64] inb_S4x128x64_S1x128x64_3_0_0))
      (View.ld (iblk m c 8 t) (Rect.unit ![0, 0] ![1, 64] inb_S4x64_S1x64_0_0))
      (View.ld (iblk m c 8 t) (Rect.unit ![1, 0] ![1, 64] inb_S4x64_S1x64_1_0))
      (View.ld (iblk m c 8 t) (Rect.unit ![2, 0] ![1, 64] inb_S4x64_S1x64_2_0))
      (View.ld (iblk m c 8 t) (Rect.unit ![3, 0] ![1, 64] inb_S4x64_S1x64_3_0))
      (W1a m c) (B1a m c) (W2a m c) (B2a m c)
      (fun f h => (w1_slice_0 _ f h).trans (w1_read m c t 0 f h))
      (fun f h => (w1_slice_1 _ f h).trans (w1_read m c t 1 f h))
      (fun f h => (w1_slice_2 _ f h).trans (w1_read m c t 2 f h))
      (fun f h => (w1_slice_3 _ f h).trans (w1_read m c t 3 f h))
      (fun h => (b1_slice_0 _ h).trans (b1_read m c t 0 h))
      (fun h => (b1_slice_1 _ h).trans (b1_read m c t 1 h))
      (fun h => (b1_slice_2 _ h).trans (b1_read m c t 2 h))
      (fun h => (b1_slice_3 _ h).trans (b1_read m c t 3 h))
      (fun h o => (w2_slice_0 _ h o).trans (w2_read m c t 0 h o))
      (fun h o => (w2_slice_1 _ h o).trans (w2_read m c t 1 h o))
      (fun h o => (w2_slice_2 _ h o).trans (w2_read m c t 2 h o))
      (fun h o => (w2_slice_3 _ h o).trans (w2_read m c t 3 h o))
      (fun o => (b2_slice_0 _ o).trans (b2_read m c t 0 o))
      (fun o => (b2_slice_1 _ o).trans (b2_read m c t 1 o))
      (fun o => (b2_slice_2 _ o).trans (b2_read m c t 2 o))
      (fun o => (b2_slice_3 _ o).trans (b2_read m c t 3 o))
      r o).trans ?_
  rw [G_apply, Gat_eq_left]
  have e0 : (fun f => iblk m c 4 t (ix2 r f)) = branchIn (Xa m c) (H0a m c) (H1a m c) (H2a m c) 0 (⟨1024 * (t.val / 8) + r.val, by have := pt_lt t; omega⟩ : Fin 8192) :=
    funext fun f => xm_read m c t r f
  have e1 : (fun f => (outsAt0 m c t.val t.isLt).2.1 (ix2 r f)) = branchIn (Xa m c) (H0a m c) (H1a m c) (H2a m c) 1 (⟨1024 * (t.val / 8) + r.val, by have := pt_lt t; omega⟩ : Fin 8192) :=
    funext fun f => acc0_total m c t h7 r f
  have e2 : (fun f => (outsAt0 m c t.val t.isLt).2.2.1 (ix2 r f)) = branchIn (Xa m c) (H0a m c) (H1a m c) (H2a m c) 2 (⟨1024 * (t.val / 8) + r.val, by have := pt_lt t; omega⟩ : Fin 8192) :=
    funext fun f => acc1_total m c t h7 r f
  have e3 : (fun f => (outsAt0 m c t.val t.isLt).2.2.2 (ix2 r f)) = branchIn (Xa m c) (H0a m c) (H1a m c) (H2a m c) 3 (⟨1024 * (t.val / 8) + r.val, by have := pt_lt t; omega⟩ : Fin 8192) :=
    funext fun f => acc2_total m c t h7 r f
  rw [e0, e1, e2, e3]

/-! ## The whole output array, and the run -/

/-- After the run the output array is the result G of the arrays as the region found them. -/
theorem final_eq (c : Dev nD) :
    finalOut m c = G (Xa m c) (H0a m c) (H1a m c) (H2a m c) (W1a m c) (B1a m c) (W2a m c) (B2a m c) :=
  final_of_blocks m qS c _ (fun t h7 r o => out_value m c t h7 r o)

/-- The idealized kernel's run with its result named: G of the concatenated features, the hop matrices and the weights
    as launched; the nine argument arrays unchanged. -/
theorem run_value : θ_run (defs (F := Ideal)) (onTc (τ := τ) (main (F := Ideal))) ⟨m, fun _ => 0, ρ⟩ (fun r => ∀ c : Dev nD,
      r.2.mem ((c.tc : Thread nD τ).loc main_v1)
        = G (concatenate S8192x64 1 [⟨S8192x48, m ((c.tc : Thread nD τ).loc main_arg0)⟩, ⟨S8192x16, m ((c.tc : Thread nD τ).loc main_arg1)⟩] concatenates_S8192x48_S8192x16_S8192x64_d1)
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c).1.trans (by
      rw [final_eq m c, Xa_eq, H0a_eq, H1a_eq, H2a_eq, W1a_eq, B1a_eq, W2a_eq, B2a_eq]), (h c).2⟩) (run_main m ρ)

end Cert.KernelIdeal.Val

end
-- ==== Proof.RefIsSpec.lean ====
/-
  The reference program computes the specification.

  The reference joins the node features and the walk features into one matrix X (8192 rows, 64 features), forms the
  three products H X with the hop matrices, stacks X and the three products into four slabs, sends every slab through
  its own two-layer perceptron (a 64 -> 128 linear map plus bias, a maximum with the zero word, a 128 -> 64 linear map
  plus bias), and adds the four outputs onto the zero word.  Read at a node n and an output unit o this is, term by
  term, the specification's value there: the joined matrix X stands on both sides as it is and is never opened; slab 0
  of the stack reads X, slab j reads the j-th product; each matrix product is the sum over the contracted coordinate
  of left entry times right entry, in that order.  Only the shape of the sums is compared: no law of arithmetic beyond
  reading both sides index by index is used.
-/
import proofs.«154867_j70961449664572_1_alg».proof.Proof.Gen.ReferenceIdeal.Read
import proofs.«154867_j70961449664572_1_alg».proof.Proof.Spec
import Idealize.ShloMosaic.Lib.Pipeline.Value
import Idealize.ShloMosaic.Lib.ValueIdx
import Idealize.ShloMosaic.PureOps.Ideal
import Idealize.ShloMosaic.PureOps.Ideal.Laws

noncomputable section

namespace Cert.ReferenceIdeal.RefIsSpec

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.GnnSpec

/-- Four one-row slabs stacked along the leading axis, read at leading coordinate 0: the first slab. -/
theorem stack4_at0 (y0 y1 y2 y3 : Vec Ideal S1x8192x64 .f32) (n : Fin 8192) (f : Fin 64) :
    concatenate S4x8192x64 0 [⟨S1x8192x64, y0⟩, ⟨S1x8192x64, y1⟩, ⟨S1x8192x64, y2⟩, ⟨S1x8192x64, y3⟩]
      concatenates_S1x8192x64_S1x8192x64_S1x8192x64_S1x8192x64_S4x8192x64_d0 (ix3 (0 : Fin 4) n f)
      = y0 (ix3 (0 : Fin 1) n f) := by
  refine concatenate_apply_piece (0 : Fin S4x8192x64.rank) _ _ _ 0 (by simp) S1x8192x64 y0 rfl rfl 0 rfl
    (ix3 (0 : Fin 1) n f) ?_ rfl
  intro b hb
  match b with
  | ⟨0, _⟩ => exact absurd rfl hb
  | ⟨1, _⟩ => rfl
  | ⟨2, _⟩ => rfl

/-- The same stack read at leading coordinate 1: the second slab. -/
theorem stack4_at1 (y0 y1 y2 y3 : Vec Ideal S1x8192x64 .f32) (n : Fin 8192) (f : Fin 64) :
    concatenate S4x8192x64 0 [⟨S1x8192x64, y0⟩, ⟨S1x8192x64, y1⟩, ⟨S1x8192x64, y2⟩, ⟨S1x8192x64, y3⟩]
      concatenates_S1x8192x64_S1x8192x64_S1x8192x64_S1x8192x64_S4x8192x64_d0 (ix3 (1 : Fin 4) n f)
      = y1 (ix3 (0 : Fin 1) n f) := by
  refine concatenate_apply_piece (0 : Fin S4x8192x64.rank) _ _ _ 1 (by simp) S1x8192x64 y1 rfl rfl 1 rfl
    (ix3 (0 : Fin 1) n f) ?_ rfl
  intro b hb
  match b with
  | ⟨0, _⟩ => exact absurd rfl hb
  | ⟨1, _⟩ => rfl
  | ⟨2, _⟩ => rfl

/-- The same stack read at leading coordinate 2: the third slab. -/
theorem stack4_at2 (y0 y1 y2 y3 : Vec Ideal S1x8192x64 .f32) (n : Fin 8192) (f : Fin 64) :
    concatenate S4x8192x64 0 [⟨S1x8192x64, y0⟩, ⟨S1x8192x64, y1⟩, ⟨S1x8192x64, y2⟩, ⟨S1x8192x64, y3⟩]
      concatenates_S1x8192x64_S1x8192x64_S1x8192x64_S1x8192x64_S4x8192x64_d0 (ix3 (2 : Fin 4) n f)
      = y2 (ix3 (0 : Fin 1) n f) := by
  refine concatenate_apply_piece (0 : Fin S4x8192x64.rank) _ _ _ 2 (by simp) S1x8192x64 y2 rfl rfl 2 rfl
    (ix3 (0 : Fin 1) n f) ?_ rfl
  intro b hb
  match b with
  | ⟨0, _⟩ => exact absurd rfl hb
  | ⟨1, _⟩ => rfl
  | ⟨2, _⟩ => rfl

/-- The same stack read at leading coordinate 3: the fourth slab. -/
theorem stack4_at3 (y0 y1 y2 y3 : Vec Ideal S1x8192x64 .f32) (n : Fin 8192) (f : Fin 64) :
    concatenate S4x8192x64 0 [⟨S1x8192x64, y0⟩, ⟨S1x8192x64, y1⟩, ⟨S1x8192x64, y2⟩, ⟨S1x8192x64, y3⟩]
      concatenates_S1x8192x64_S1x8192x64_S1x8192x64_S1x8192x64_S4x8192x64_d0 (ix3 (3 : Fin 4) n f)
      = y3 (ix3 (0 : Fin 1) n f) := by
  refine concatenate_apply_piece (0 : Fin S4x8192x64.rank) _ _ _ 3 (by simp) S1x8192x64 y3 rfl rfl 3 rfl
    (ix3 (0 : Fin 1) n f) ?_ rfl
  intro b hb
  match b with
  | ⟨0, _⟩ => exact absurd rfl hb
  | ⟨1, _⟩ => rfl
  | ⟨2, _⟩ => rfl

variable (x : Vec Ideal S8192x48 .f32) (w : Vec Ideal S8192x16 .f32) (H1 H2 H3 : Vec Ideal S8192x8192 .f32)
  (W1 : Vec Ideal S4x64x128 .f32) (b1 : Vec Ideal S4x128 .f32) (W2 : Vec Ideal S4x128x64 .f32)
  (b2 : Vec Ideal S4x64 .f32)

/-! ## The index maps of the operations, at indices given by their coordinates -/

theorem lidx1_ix (n : Fin 8192) (f : Fin 64) (k : Fin 8192) : lidx_main_v1 (ix2 n f) k = ix2 n k :=
  funext fun a => by match a with | ⟨0, _⟩ => rfl | ⟨1, _⟩ => rfl
theorem ridx1_ix (n : Fin 8192) (f : Fin 64) (k : Fin 8192) : ridx_main_v1 (ix2 n f) k = ix2 k f :=
  funext fun a => by match a with | ⟨0, _⟩ => rfl | ⟨1, _⟩ => rfl
theorem lidx2_ix (n : Fin 8192) (f : Fin 64) (k : Fin 8192) : lidx_main_v2 (ix2 n f) k = ix2 n k :=
  funext fun a => by match a with | ⟨0, _⟩ => rfl | ⟨1, _⟩ => rfl
theorem ridx2_ix (n : Fin 8192) (f : Fin 64) (k : Fin 8192) : ridx_main_v2 (ix2 n f) k = ix2 k f :=
  funext fun a => by match a with | ⟨0, _⟩ => rfl | ⟨1, _⟩ => rfl
theorem lidx3_ix (n : Fin 8192) (f : Fin 64) (k : Fin 8192) : lidx_main_v3 (ix2 n f) k = ix2 n k :=
  funext fun a => by match a with | ⟨0, _⟩ => rfl | ⟨1, _⟩ => rfl
theorem ridx3_ix (n : Fin 8192) (f : Fin 64) (k : Fin 8192) : ridx_main_v3 (ix2 n f) k = ix2 k f :=
  funext fun a => by match a with | ⟨0, _⟩ => rfl | ⟨1, _⟩ => rfl

theorem idx4_ix (n : Fin 8192) (f : Fin 64) : idx_main_v4 (ix3 (0 : Fin 1) n f) = ix2 n f :=
  funext fun a => by match a with | ⟨0, _⟩ => rfl | ⟨1, _⟩ => rfl
theorem idx5_ix (n : Fin 8192) (f : Fin 64) : idx_main_v5 (ix3 (0 : Fin 1) n f) = ix2 n f :=
  funext fun a => by match a with | ⟨0, _⟩ => rfl | ⟨1, _⟩ => rfl
theorem idx6_ix (n : Fin 8192) (f : Fin 64) : idx_main_v6 (ix3 (0 : Fin 1) n f) = ix2 n f :=
  funext fun a => by match a with | ⟨0, _⟩ => rfl | ⟨1, _⟩ => rfl
theorem idx7_ix (n : Fin 8192) (f : Fin 64) : idx_main_v7 (ix3 (0 : Fin 1) n f) = ix2 n f :=
  funext fun a => by match a with | ⟨0, _⟩ => rfl | ⟨1, _⟩ => rfl

theorem lidx9_ix (b : Fin 4) (n : Fin 8192) (h : Fin 128) (k : Fin 64) : lidx_main_v9 (ix3 b n h) k = ix3 b n k :=
  funext fun a => by match a with | ⟨0, _⟩ => rfl | ⟨1, _⟩ => rfl | ⟨2, _⟩ => rfl
theorem ridx9_ix (b : Fin 4) (n : Fin 8192) (h : Fin 128) (k : Fin 64) : ridx_main_v9 (ix3 b n h) k = ix3 b k h :=
  funext fun a => by match a with | ⟨0, _⟩ => rfl | ⟨1, _⟩ => rfl | ⟨2, _⟩ => rfl
theorem idx10_11_ix (b : Fin 4) (n : Fin 8192) (h : Fin 128) : idx_main_v10 (idx_main_v11 (ix3 b n h)) = ix2 b h :=
  funext fun a => by match a with | ⟨0, _⟩ => rfl | ⟨1, _⟩ => rfl

theorem lidx14_ix (b : Fin 4) (n : Fin 8192) (o : Fin 64) (k : Fin 128) : lidx_main_v14 (ix3 b n o) k = ix3 b n k :=
  funext fun a => by match a with | ⟨0, _⟩ => rfl | ⟨1, _⟩ => rfl | ⟨2, _⟩ => rfl
theorem ridx14_ix (b : Fin 4) (n : Fin 8192) (o : Fin 64) (k : Fin 128) : ridx_main_v14 (ix3 b n o) k = ix3 b k o :=
  funext fun a => by match a with | ⟨0, _⟩ => rfl | ⟨1, _⟩ => rfl | ⟨2, _⟩ => rfl
theorem idx15_16_ix (b : Fin 4) (n : Fin 8192) (o : Fin 64) : idx_main_v15 (idx_main_v16 (ix3 b n o)) = ix2 b o :=
  funext fun a => by match a with | ⟨0, _⟩ => rfl | ⟨1, _⟩ => rfl
theorem idx18_ix (n : Fin 8192) (o : Fin 64) (b : Fin 4) : idx_main_v18 (ix2 n o) b = ix3 b n o :=
  funext fun a => by match a with | ⟨0, _⟩ => rfl | ⟨1, _⟩ => rfl | ⟨2, _⟩ => rfl

/-! ## The three hop products are the specification's aggregates -/

theorem hop1_at (n : Fin 8192) (f : Fin 64) :
    val_main_v1 (F := Ideal) x w H1 (ix2 n f) = agg H1 (val_main_v0 (F := Ideal) x w) n f := by
  rw [val_main_v1_apply]
  simp only [lidx1_ix, ridx1_ix]
  rfl

theorem hop2_at (n : Fin 8192) (f : Fin 64) :
    val_main_v2 (F := Ideal) x w H2 (ix2 n f) = agg H2 (val_main_v0 (F := Ideal) x w) n f := by
  rw [val_main_v2_apply]
  simp only [lidx2_ix, ridx2_ix]
  rfl

theorem hop3_at (n : Fin 8192) (f : Fin 64) :
    val_main_v3 (F := Ideal) x w H3 (ix2 n f) = agg H3 (val_main_v0 (F := Ideal) x w) n f := by
  rw [val_main_v3_apply]
  simp only [lidx3_ix, ridx3_ix]
  rfl

/-! ## The stacked inputs: branch 0 reads the features, branch j the j-th hop product -/

theorem stacked_at (b : Fin 4) (n : Fin 8192) (f : Fin 64) :
    val_main_v8 (F := Ideal) x w H1 H2 H3 (ix3 b n f)
      = branchIn (val_main_v0 (F := Ideal) x w) H1 H2 H3 b n f := by
  unfold val_main_v8
  match b with
  | 0 => rw [stack4_at0, val_main_v4_apply, idx4_ix]; rfl
  | 1 => rw [stack4_at1, val_main_v5_apply, idx5_ix, hop1_at]; rfl
  | 2 => rw [stack4_at2, val_main_v6_apply, idx6_ix, hop2_at]; rfl
  | 3 => rw [stack4_at3, val_main_v7_apply, idx7_ix, hop3_at]; rfl

/-! ## The two layers of each branch -/

theorem hidden_at (b : Fin 4) (n : Fin 8192) (h : Fin 128) :
    val_main_v13 (F := Ideal) x w H1 H2 H3 W1 b1 (ix3 b n h)
      = hidden W1 b1 b (branchIn (val_main_v0 (F := Ideal) x w) H1 H2 H3 b n) h := by
  rw [val_main_v13_apply, val_main_v12_apply, val_main_v9_apply, val_main_v11_apply, val_main_v10_apply,
    val_main_call0_v0_apply, val_main_call0_cst_apply]
  simp only [lidx9_ix, ridx9_ix, idx10_11_ix, stacked_at, Ideal.addf_def, Ideal.maximumf_def, Ideal.ofBits_def]
  rfl

theorem out_at (b : Fin 4) (n : Fin 8192) (o : Fin 64) :
    val_main_v17 (F := Ideal) x w H1 H2 H3 W1 b1 W2 b2 (ix3 b n o)
      = branchOut W1 b1 W2 b2 b (branchIn (val_main_v0 (F := Ideal) x w) H1 H2 H3 b n) o := by
  rw [val_main_v17_apply, val_main_v14_apply, val_main_v16_apply, val_main_v15_apply]
  simp only [lidx14_ix, ridx14_ix, idx15_16_ix, hidden_at, Ideal.addf_def]
  rfl

/-! ## The reference's result is the specification -/

/-- The reference's result, as the run states it, is the specification at the joined feature matrix. -/
theorem result_eq_spec :
    Host.reduceAdd (F := Ideal) (addf (Host.dotGeneral (F := Ideal) (φ₁ := .f32) (φ₂ := .f32) dot_S4x8192x128_S4x128x64_S4x8192x64_2_1_1_2_0_0 none (maximumf (addf (Host.dotGeneral (F := Ideal) (φ₁ := .f32) (φ₂ := .f32) dot_S4x8192x64_S4x64x128_S4x8192x128_2_1_1_2_0_0 none (concatenate S4x8192x64 0 [⟨S1x8192x64, (broadcastInDim S1x8192x64 ![1, 2] bcast_S8192x64_S1x8192x64_1_2 (concatenate S8192x64 1 [⟨S8192x48, x⟩, ⟨S8192x16, w⟩] concatenates_S8192x48_S8192x16_S8192x64_d1))⟩, ⟨S1x8192x64, (broadcastInDim S1x8192x64 ![1, 2] bcast_S8192x64_S1x8192x64_1_2 (Host.dotGeneral (F := Ideal) (φ₁ := .f32) (φ₂ := .f32) dot_S8192x8192_S8192x64_S8192x64_1_0_0_1_n_n none H1 (concatenate S8192x64 1 [⟨S8192x48, x⟩, ⟨S8192x16, w⟩] concatenates_S8192x48_S8192x16_S8192x64_d1)))⟩, ⟨S1x8192x64, (broadcastInDim S1x8192x64 ![1, 2] bcast_S8192x64_S1x8192x64_1_2 (Host.dotGeneral (F := Ideal) (φ₁ := .f32) (φ₂ := .f32) dot_S8192x8192_S8192x64_S8192x64_1_0_0_1_n_n none H2 (concatenate S8192x64 1 [⟨S8192x48, x⟩, ⟨S8192x16, w⟩] concatenates_S8192x48_S8192x16_S8192x64_d1)))⟩, ⟨S1x8192x64, (broadcastInDim S1x8192x64 ![1, 2] bcast_S8192x64_S1x8192x64_1_2 (Host.dotGeneral (F := Ideal) (φ₁ := .f32) (φ₂ := .f32) dot_S8192x8192_S8192x64_S8192x64_1_0_0_1_n_n none H3 (concatenate S8192x64 1 [⟨S8192x48, x⟩, ⟨S8192x16, w⟩] concatenates_S8192x48_S8192x16_S8192x64_d1)))⟩] concatenates_S1x8192x64_S1x8192x64_S1x8192x64_S1x8192x64_S4x8192x64_d0) W1) (broadcastInDim S4x8192x128 ![0, 1, 2] bcast_S4x1x128_S4x8192x128_0_1_2 (broadcastInDim S4x1x128 ![0, 2] bcast_S4x128_S4x1x128_0_2 b1))) (broadcastInDim S4x8192x128 ![] bcast_S_S4x8192x128 (constant (F := Ideal) S_ .f32 0x00000000#32))) W2) (broadcastInDim S4x8192x64 ![0, 1, 2] bcast_S4x1x64_S4x8192x64_0_1_2 (broadcastInDim S4x1x64 ![0, 2] bcast_S4x64_S4x1x64_0_2 b2))) (constant (F := Ideal) S_ .f32 0x00000000#32) reducesTo_S4x8192x64_S8192x64_d0 h_S_
      = Cert.GnnSpec.G (concatenate S8192x64 1 [⟨S8192x48, x⟩, ⟨S8192x16, w⟩] concatenates_S8192x48_S8192x16_S8192x64_d1) H1 H2 H3 W1 b1 W2 b2 := by
  refine (val_main_v18_eq (F := Ideal) x w H1 H2 H3 W1 b1 W2 b2).trans ?_
  show _ = G (val_main_v0 (F := Ideal) x w) H1 H2 H3 W1 b1 W2 b2
  funext j
  obtain ⟨n, o, rfl⟩ : ∃ (n : Fin 8192) (o : Fin 64), j = ix2 n o := ⟨j 0, j 1, eq_ix2 j⟩
  rw [G_apply, val_main_v18_apply]
  unfold Gat
  refine congrArg₂ (· + ·) rfl (Finset.sum_congr rfl fun b _ => ?_)
  rw [idx18_ix, out_at]

end Cert.ReferenceIdeal.RefIsSpec

end
-- ==== Proof.lean ====
/-
  The certificate of the fused graph-network kernel against its reference.

  Both programs compute, over the extended reals, one function G of the nine input arrays: the four perceptrons on the
  node features and on their three hop aggregations, summed.  The kernel tiles each 8192-term aggregation into eight
  partial products accumulated over a grid axis and runs the perceptrons when the last partial product is in; the
  reference does the aggregations as whole matrix products and batches the perceptrons.  A sum over 8192 terms is the
  sum of its eight tiles' sums, so the two agree index by index; no finiteness of the inputs is needed.

  The three frames: the kernel's two (word level and idealized: the same symbolic run of the body in its three
  control cases, launched with the node-feature matrix shared by two windows) and the reference's (its run, result
  dropped).  The idealization rewrote nothing, so it is preserved trivially.
-/
import proofs.«154867_j70961449664572_1_alg».proof.Defs
import proofs.«154867_j70961449664572_1_alg».proof.Proof.Gen.Kernel
import proofs.«154867_j70961449664572_1_alg».proof.Proof.Gen.KernelIdeal
import proofs.«154867_j70961449664572_1_alg».proof.Proof.Gen.ReferenceIdeal
import proofs.«154867_j70961449664572_1_alg».proof.Proof.Gen.Pre_finite_inputs
import proofs.«154867_j70961449664572_1_alg».proof.Proof.Gen.ReferenceIdeal.Run
import proofs.«154867_j70961449664572_1_alg».proof.Proof.Gen.ReferenceIdeal.Read
import proofs.«154867_j70961449664572_1_alg».proof.Proof.K.Launch
import proofs.«154867_j70961449664572_1_alg».proof.Proof.KI.Value
import proofs.«154867_j70961449664572_1_alg».proof.Proof.RefIsSpec
import Idealize.ShloMosaic.Adequacy
import Idealize.ShloMosaic.Init

noncomputable section

namespace Cert.Proof

open Idealize.ShloMosaic Idealize.ShloMosaic.TcCoe Idealize.SL.Sem

/-- The word-level kernel runs to the end, without fault, its arguments unchanged. -/
theorem frame_k : Cert.frame_Kernel := fun m ρ _ => Cert.Kernel.Fr.frame m ρ

/-- So does the idealized kernel. -/
theorem frame_ki : Cert.frame_KernelIdeal := fun m ρ _ => Cert.KernelIdeal.Fr.frame m ρ

/-- The reference is host operations only: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Run from memories that agree on the arguments, the idealized kernel and the idealized reference both end at
    G of those arguments. -/
theorem algebraic : Cert.algebraic_KernelIdeal_ReferenceIdeal := by
  intro m ρ m' ρ' _ hagree
  refine ⟨_, Cert.KernelIdeal.Val.run_value m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [a0, a1, a2, a3, a4, a5, a6, a7, a8]
  exact Cert.ReferenceIdeal.RefIsSpec.result_eq_spec _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
